-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x100000 : Shape := ⟨2, ![512, 100000]⟩
abbrev S512x10 : Shape := ⟨2, ![512, 10]⟩
abbrev S100 : Shape := ⟨1, ![100]⟩
abbrev S_ : Shape := ⟨0, ![]⟩

class Facts : Prop where
  bcast_S_S512x100000 : S_.BroadcastsInDim S512x100000 (![] : Fin 0 → Fin S512x100000.rank)
  reducesTo_S512x100000_S_d0_1 : S512x100000.ReducesTo [0, 1] S_
  h_S_ : 0 < S_.numel
  bcast_S_S512x10 : S_.BroadcastsInDim S512x10 (![] : Fin 0 → Fin S512x10.rank)
  reducesTo_S512x10_S_d0_1 : S512x10.ReducesTo [0, 1] S_
  bcast_S_S100 : S_.BroadcastsInDim S100 (![] : Fin 0 → Fin S100.rank)
  reducesTo_S100_S_d0 : S100.ReducesTo [0] S_

variable [Facts]

def fn {F : FTy → Type} [FloatOps F] (main_arg0 : FVec F S512x100000 .f32) (main_arg1 : IVec S512x10 32) (main_arg2 : IVec S100 32) : IVec S_ 1 :=
  let main_v0 : FVec F S512x100000 .f32 := Host.absf main_arg0
  let main_cst : FVec F S_ .f32 := constant S_ .f32 0x7F800000#32
  let main_v1 : FVec F S512x100000 .f32 := broadcastInDim S512x100000 ![] bcast_S_S512x100000 main_cst
  let main_v2 : IVec S512x100000 1 := cmpf .olt main_v0 main_v1
  let main_c : IVec S_ 1 := constantI S_ 1 1#1
  let main_v3 : IVec S_ 1 := (fun x v => Host.reduce IntOp.andi x v reducesTo_S512x100000_S_d0_1 h_S_) main_v2 main_c
  let main_c_0 : IVec S_ 32 := constantI S_ 32 100000#32
  let main_v4 : IVec S512x10 32 := broadcastInDim S512x10 ![] bcast_S_S512x10 main_c_0
  let main_v5 : IVec S512x10 1 := cmpi .slt main_arg1 main_v4
  let main_c_1 : IVec S_ 1 := constantI S_ 1 1#1
  let main_v6 : IVec S_ 1 := (fun x v => Host.reduce IntOp.andi x v reducesTo_S512x10_S_d0_1 h_S_) main_v5 main_c_1
  let main_v7 : IVec S_ 1 := andi main_v3 main_v6
  let main_c_2 : IVec S_ 32 := constantI S_ 32 0#32
  let main_v8 : IVec S100 32 := broadcastInDim S100 ![] bcast_S_S100 main_c_2
  let main_v9 : IVec S100 1 := cmpi .sge main_arg2 main_v8
  let main_c_3 : IVec S_ 1 := constantI S_ 1 1#1
  let main_v10 : IVec S_ 1 := (fun x v => Host.reduce IntOp.andi x v reducesTo_S100_S_d0 h_S_) main_v9 main_c_3
  let main_v11 : IVec S_ 1 := andi main_v7 main_v10
  let main_c_4 : IVec S_ 32 := constantI S_ 32 98000#32
  let main_v12 : IVec S100 32 := broadcastInDim S100 ![] bcast_S_S100 main_c_4
  let main_v13 : IVec S100 1 := cmpi .slt main_arg2 main_v12
  let main_c_5 : IVec S_ 1 := constantI S_ 1 1#1
  let main_v14 : IVec S_ 1 := (fun x v => Host.reduce IntOp.andi x v reducesTo_S100_S_d0 h_S_) main_v13 main_c_5
  let main_v15 : IVec S_ 1 := andi main_v11 main_v14
  main_v15
-- ==== Kernel.lean ====
abbrev S512x100000 : Shape := ⟨2, ![512, 100000]⟩
abbrev S512x10 : Shape := ⟨2, ![512, 10]⟩
abbrev S100 : Shape := ⟨1, ![100]⟩
abbrev S_ : Shape := ⟨0, ![]⟩
abbrev S10 : Shape := ⟨1, ![10]⟩
abbrev S10x1 : Shape := ⟨2, ![10, 1]⟩
abbrev S1x10 : Shape := ⟨2, ![1, 10]⟩
abbrev S10x10 : Shape := ⟨2, ![10, 10]⟩
abbrev S512x10x1 : Shape := ⟨3, ![512, 10, 1]⟩
abbrev S512x1x10 : Shape := ⟨3, ![512, 1, 10]⟩
abbrev S512x10x10 : Shape := ⟨3, ![512, 10, 10]⟩
abbrev S1x10x10 : Shape := ⟨3, ![1, 10, 10]⟩
abbrev S1 : Shape := ⟨1, ![1]⟩
abbrev S1x1x1 : Shape := ⟨3, ![1, 1, 1]⟩
abbrev S512 : Shape := ⟨1, ![512]⟩
abbrev S2x1x256 : Shape := ⟨3, ![2, 1, 256]⟩
abbrev S100x1 : Shape := ⟨2, ![100, 1]⟩
abbrev S1x1 : Shape := ⟨2, ![1, 1]⟩
abbrev S512x100 : Shape := ⟨2, ![512, 100]⟩
abbrev S1x1x100 : Shape := ⟨3, ![1, 1, 100]⟩
abbrev S512x10x100 : Shape := ⟨3, ![512, 10, 100]⟩
abbrev S256x10 : Shape := ⟨2, ![256, 10]⟩
abbrev S256x2048 : Shape := ⟨2, ![256, 2048]⟩
abbrev S1x1x256 : Shape := ⟨3, ![1, 1, 256]⟩
abbrev S256x1 : Shape := ⟨2, ![256, 1]⟩
abbrev S256 : Shape := ⟨1, ![256]⟩
abbrev S1x256 : Shape := ⟨2, ![1, 256]⟩

abbrev nBuf : Space → Nat
  | .hbm => 164
  | .vmem => 6
  | .smem => 0
  | _ => 0

abbrev hbmTy0_0 (i : Nat) : BufTy := match i % 128 with
  | 0 => ⟨S512x100000, .f32⟩
  | 1 => ⟨S512x10, .i32⟩
  | 2 => ⟨S100, .i32⟩
  | 3 => ⟨S_, .i32⟩
  | 4 => ⟨S512x10, .i32⟩
  | 5 => ⟨S512x10, .i1⟩
  | 6 => ⟨S_, .i32⟩
  | 7 => ⟨S_, .i32⟩
  | 8 => ⟨S512x10, .i32⟩
  | 9 => ⟨S512x10, .i32⟩
  | 10 => ⟨S10, .i32⟩
  | 11 => ⟨S10x1, .i32⟩
  | 12 => ⟨S1x10, .i32⟩
  | 13 => ⟨S10x10, .i32⟩
  | 14 => ⟨S10x10, .i32⟩
  | 15 => ⟨S10x10, .i1⟩
  | 16 => ⟨S512x10x1, .i32⟩
  | 17 => ⟨S512x1x10, .i32⟩
  | 18 => ⟨S512x10x10, .i32⟩
  | 19 => ⟨S512x10x10, .i32⟩
  | 20 => ⟨S512x10x10, .i1⟩
  | 21 => ⟨S1x10x10, .i1⟩
  | 22 => ⟨S512x10x10, .i1⟩
  | 23 => ⟨S512x10x10, .i1⟩
  | 24 => ⟨S512x1x10, .i1⟩
  | 25 => ⟨S512x10x10, .i1⟩
  | 26 => ⟨S512x10x10, .i1⟩
  | 27 => ⟨S_, .i1⟩
  | 28 => ⟨S512x10, .i1⟩
  | 29 => ⟨S512x10, .i1⟩
  | 30 => ⟨S512x10, .i1⟩
  | 31 => ⟨S512x10, .f32⟩
  | 32 => ⟨S_, .i32⟩
  | 33 => ⟨S_, .i32⟩
  | 34 => ⟨S512x10, .i32⟩
  | 35 => ⟨S512x10, .i32⟩
  | 36 => ⟨S_, .i32⟩
  | 37 => ⟨S512x10, .i32⟩
  | 38 => ⟨S512x10, .i1⟩
  | 39 => ⟨S_, .i32⟩
  | 40 => ⟨S512x10, .i32⟩
  | 41 => ⟨S512x10, .i32⟩
  | 42 => ⟨S512x10, .i32⟩
  | 43 => ⟨S512x10x1, .i32⟩
  | 44 => ⟨S1, .i32⟩
  | 45 => ⟨S_, .i32⟩
  | 46 => ⟨S512x10x1, .i32⟩
  | 47 => ⟨S512x10x1, .i1⟩
  | 48 => ⟨S1x1x1, .i32⟩
  | 49 => ⟨S512x10x1, .i32⟩
  | 50 => ⟨S512x10x1, .i1⟩
  | 51 => ⟨S512x10x1, .i1⟩
  | 52 => ⟨S_, .i1⟩
  | 53 => ⟨S512x10, .i1⟩
  | 54 => ⟨S512x10, .f32⟩
  | 55 => ⟨S_, .f32⟩
  | 56 => ⟨S512x10, .f32⟩
  | 57 => ⟨S512x10, .f32⟩
  | 58 => ⟨S_, .f32⟩
  | 59 => ⟨S_, .f32⟩
  | 60 => ⟨S_, .f32⟩
  | 61 => ⟨S512x10, .f32⟩
  | 62 => ⟨S512x10, .f32⟩
  | 63 => ⟨S_, .f32⟩
  | 64 => ⟨S512x10, .f32⟩
  | 65 => ⟨S512x10, .f32⟩
  | 66 => ⟨S_, .f32⟩
  | 67 => ⟨S512, .f32⟩
  | 68 => ⟨S_, .f32⟩
  | 69 => ⟨S512, .f32⟩
  | 70 => ⟨S512, .f32⟩
  | 71 => ⟨S512x10, .f32⟩
  | 72 => ⟨S_, .f32⟩
  | 73 => ⟨S512, .f32⟩
  | 74 => ⟨S512, .f32⟩
  | 75 => ⟨S512, .f32⟩
  | 76 => ⟨S_, .f32⟩
  | 77 => ⟨S512, .f32⟩
  | 78 => ⟨S512, .f32⟩
  | 79 => ⟨S512, .f32⟩
  | 80 => ⟨S512, .f32⟩
  | 81 => ⟨S512, .i1⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S512, .f32⟩
  | 90 => ⟨S2x1x256, .f32⟩
  | 91 => ⟨S512, .f32⟩
  | 92 => ⟨S_, .i32⟩
  | 93 => ⟨S100, .i32⟩
  | 94 => ⟨S100, .i32⟩
  | 95 => ⟨S_, .i32⟩
  | 96 => ⟨S100, .i32⟩
  | 97 => ⟨S100, .i1⟩
  | 98 => ⟨S_, .i32⟩
  | 99 => ⟨S100, .i32⟩
  | 100 => ⟨S100, .i32⟩
  | 101 => ⟨S100, .i32⟩
  | 102 => ⟨S100x1, .i32⟩
  | 103 => ⟨S1, .i32⟩
  | 104 => ⟨S_, .i32⟩
  | 105 => ⟨S100x1, .i32⟩
  | 106 => ⟨S100x1, .i1⟩
  | 107 => ⟨S1x1, .i32⟩
  | 108 => ⟨S100x1, .i32⟩
  | 109 => ⟨S100x1, .i1⟩
  | 110 => ⟨S100x1, .i1⟩
  | 111 => ⟨S_, .i1⟩
  | 112 => ⟨S100, .i1⟩
  | 113 => ⟨S512x100, .f32⟩
  | 114 => ⟨S512x100, .i1⟩
  | 115 => ⟨S_, .f32⟩
  | 116 => ⟨S512x100, .f32⟩
  | 117 => ⟨S512x100, .f32⟩
  | 118 => ⟨S_, .f32⟩
  | 119 => ⟨S_, .f32⟩
  | 120 => ⟨S_, .f32⟩
  | 121 => ⟨S512x100, .f32⟩
  | 122 => ⟨S512x100, .f32⟩
  | 123 => ⟨S_, .f32⟩
  | 124 => ⟨S512x100, .f32⟩
  | 125 => ⟨S512x100, .f32⟩
  | 126 => ⟨S512x10x1, .i32⟩
  | 127 => ⟨S1x1x100, .i32⟩
  | _ => ⟨S512x100000, .f32⟩

abbrev hbmTy0_1 (i : Nat) : BufTy := match i % 128 with
  | 0 => ⟨S512x10x100, .i32⟩
  | 1 => ⟨S512x10x100, .i32⟩
  | 2 => ⟨S512x10x100, .i1⟩
  | 3 => ⟨S512x10x1, .i1⟩
  | 4 => ⟨S512x10x100, .i1⟩
  | 5 => ⟨S512x10x100, .i1⟩
  | 6 => ⟨S_, .i1⟩
  | 7 => ⟨S512x100, .i1⟩
  | 8 => ⟨S_, .f32⟩
  | 9 => ⟨S512x100, .f32⟩
  | 10 => ⟨S512x100, .f32⟩
  | 11 => ⟨S512x100, .f32⟩
  | 12 => ⟨S512x100, .f32⟩
  | 13 => ⟨S512x100, .i1⟩
  | 14 => ⟨S512x100, .f32⟩
  | 15 => ⟨S512x100, .f32⟩
  | 16 => ⟨S512x100, .f32⟩
  | 17 => ⟨S512x100, .f32⟩
  | 18 => ⟨S512x100, .f32⟩
  | 19 => ⟨S512x100, .f32⟩
  | 20 => ⟨S512x100, .f32⟩
  | 21 => ⟨S512x100, .f32⟩
  | 22 => ⟨S512x100, .i1⟩
  | 23 => ⟨S512x100, .f32⟩
  | 24 => ⟨S512x100, .f32⟩
  | 25 => ⟨S_, .f32⟩
  | 26 => ⟨S512, .f32⟩
  | 27 => ⟨S_, .f32⟩
  | 28 => ⟨S512, .f32⟩
  | 29 => ⟨S512, .f32⟩
  | 30 => ⟨S512, .f32⟩
  | 31 => ⟨S512, .f32⟩
  | 32 => ⟨S_, .f32⟩
  | 33 => ⟨S_, .f32⟩
  | 34 => ⟨S_, .f32⟩
  | 35 => ⟨S_, .f32⟩
  | _ => ⟨S512x100000, .f32⟩

abbrev hbmTy (i : Nat) : BufTy := match i / 128 with
  | 0 => hbmTy0_0 i
  | 1 => hbmTy0_1 i
  | _ => ⟨S512x100000, .f32⟩

abbrev bufTy : (tb : Table) → Fin (tcTables nBuf tb) → BufTy
  | .hbm, ⟨i, _⟩ => hbmTy i
  | .local _ .vmem, ⟨0, _⟩ => ⟨S256x10, .i32⟩
  | .local _ .vmem, ⟨1, _⟩ => ⟨S256x10, .i32⟩
  | .local _ .vmem, ⟨2, _⟩ => ⟨S256x2048, .f32⟩
  | .local _ .vmem, ⟨3, _⟩ => ⟨S256x2048, .f32⟩
  | .local _ .vmem, ⟨4, _⟩ => ⟨S1x1x256, .f32⟩
  | .local _ .vmem, ⟨5, _⟩ => ⟨S1x1x256, .f32⟩
  | _, _ => ⟨S512x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_call0_v19 : Ref sig .tc := ⟨.hbm, 26, rfl⟩
abbrev main_call0_c_1 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_call0_v23 : Ref sig .tc := ⟨.hbm, 31, rfl⟩
abbrev main_call0_c_2 : Ref sig .tc := ⟨.hbm, 32, rfl⟩
abbrev main_call0_call1_v0 : Ref sig .tc := ⟨.hbm, 33, rfl⟩
abbrev main_call0_call1_v1 : Ref sig .tc := ⟨.hbm, 34, rfl⟩
abbrev main_call0_v24 : Ref sig .tc := ⟨.hbm, 35, rfl⟩
abbrev main_call0_call2_c : Ref sig .tc := ⟨.hbm, 36, rfl⟩
abbrev main_call0_call2_v0 : Ref sig .tc := ⟨.hbm, 37, rfl⟩
abbrev main_call0_call2_v1 : Ref sig .tc := ⟨.hbm, 38, rfl⟩
abbrev main_call0_call2_c_0 : Ref sig .tc := ⟨.hbm, 39, rfl⟩
abbrev main_call0_call2_v2 : Ref sig .tc := ⟨.hbm, 40, rfl⟩
abbrev main_call0_call2_v3 : Ref sig .tc := ⟨.hbm, 41, rfl⟩
abbrev main_call0_call2_v4 : Ref sig .tc := ⟨.hbm, 42, rfl⟩
abbrev main_call0_call2_v5 : Ref sig .tc := ⟨.hbm, 43, rfl⟩
abbrev main_call0_call2_c_1 : Ref sig .tc := ⟨.hbm, 44, rfl⟩
abbrev main_call0_call2_c_2 : Ref sig .tc := ⟨.hbm, 45, rfl⟩
abbrev main_call0_call2_v6 : Ref sig .tc := ⟨.hbm, 46, rfl⟩
abbrev main_call0_call2_v7 : Ref sig .tc := ⟨.hbm, 47, rfl⟩
abbrev main_call0_call2_v8 : Ref sig .tc := ⟨.hbm, 48, rfl⟩
abbrev main_call0_call2_v9 : Ref sig .tc := ⟨.hbm, 49, rfl⟩
abbrev main_call0_call2_v10 : Ref sig .tc := ⟨.hbm, 50, rfl⟩
abbrev main_call0_call2_v11 : Ref sig .tc := ⟨.hbm, 51, rfl⟩
abbrev main_call0_call2_c_3 : Ref sig .tc := ⟨.hbm, 52, rfl⟩
abbrev main_call0_call2_v12 : Ref sig .tc := ⟨.hbm, 53, rfl⟩
abbrev main_call0_call2_v13 : Ref sig .tc := ⟨.hbm, 54, rfl⟩
abbrev main_call0_call2_cst : Ref sig .tc := ⟨.hbm, 55, rfl⟩
abbrev main_call0_call2_v14 : Ref sig .tc := ⟨.hbm, 56, rfl⟩
abbrev main_call0_v25 : Ref sig .tc := ⟨.hbm, 57, rfl⟩
abbrev main_call0_cst : Ref sig .tc := ⟨.hbm, 58, rfl⟩
abbrev main_call0_cst_3 : Ref sig .tc := ⟨.hbm, 59, rfl⟩
abbrev main_call0_call3_v0 : Ref sig .tc := ⟨.hbm, 60, rfl⟩
abbrev main_call0_call3_v1 : Ref sig .tc := ⟨.hbm, 61, rfl⟩
abbrev main_call0_call3_v2 : Ref sig .tc := ⟨.hbm, 62, rfl⟩
abbrev main_call0_call3_v3 : Ref sig .tc := ⟨.hbm, 63, rfl⟩
abbrev main_call0_call3_v4 : Ref sig .tc := ⟨.hbm, 64, rfl⟩
abbrev main_call0_v26 : Ref sig .tc := ⟨.hbm, 65, rfl⟩
abbrev main_call0_cst_4 : Ref sig .tc := ⟨.hbm, 66, rfl⟩
abbrev main_call0_v27 : Ref sig .tc := ⟨.hbm, 67, rfl⟩
abbrev main_call0_cst_5 : Ref sig .tc := ⟨.hbm, 68, rfl⟩
abbrev main_call0_v28 : Ref sig .tc := ⟨.hbm, 69, rfl⟩
abbrev main_call0_v29 : Ref sig .tc := ⟨.hbm, 70, rfl⟩
abbrev main_call0_v30 : Ref sig .tc := ⟨.hbm, 71, rfl⟩
abbrev main_call0_cst_6 : Ref sig .tc := ⟨.hbm, 72, rfl⟩
abbrev main_call0_v31 : Ref sig .tc := ⟨.hbm, 73, rfl⟩
abbrev main_call0_v32 : Ref sig .tc := ⟨.hbm, 74, rfl⟩
abbrev main_call0_v33 : Ref sig .tc := ⟨.hbm, 75, rfl⟩
abbrev main_call0_call4_cst : Ref sig .tc := ⟨.hbm, 76, rfl⟩
abbrev main_call0_call4_v0 : Ref sig .tc := ⟨.hbm, 77, rfl⟩
abbrev main_call0_call4_v1 : Ref sig .tc := ⟨.hbm, 78, rfl⟩
abbrev main_call0_call4_v2 : Ref sig .tc := ⟨.hbm, 79, rfl⟩
abbrev main_call0_call4_v3 : Ref sig .tc := ⟨.hbm, 80, rfl⟩
abbrev main_call0_call4_v4 : Ref sig .tc := ⟨.hbm, 81, rfl⟩
abbrev main_call0_call4_v5 : Ref sig .tc := ⟨.hbm, 82, rfl⟩
abbrev main_call0_call4_v6 : Ref sig .tc := ⟨.hbm, 83, rfl⟩
abbrev main_call0_call4_v7 : Ref sig .tc := ⟨.hbm, 84, rfl⟩
abbrev main_call0_call4_v8 : Ref sig .tc := ⟨.hbm, 85, rfl⟩
abbrev main_call0_call4_v9 : Ref sig .tc := ⟨.hbm, 86, rfl⟩
abbrev main_call0_call4_v10 : Ref sig .tc := ⟨.hbm, 87, rfl⟩
abbrev main_call0_call4_v11 : Ref sig .tc := ⟨.hbm, 88, rfl⟩
abbrev main_call0_v34 : Ref sig .tc := ⟨.hbm, 89, rfl⟩
abbrev main_call0_v35 : Ref sig .tc := ⟨.hbm, 90, rfl⟩
abbrev main_call0_v36 : Ref sig .tc := ⟨.hbm, 91, rfl⟩
abbrev main_call0_c_7 : Ref sig .tc := ⟨.hbm, 92, rfl⟩
abbrev main_call0_v37 : Ref sig .tc := ⟨.hbm, 93, rfl⟩
abbrev main_call0_v38 : Ref sig .tc := ⟨.hbm, 94, rfl⟩
abbrev main_call0_call5_c : Ref sig .tc := ⟨.hbm, 95, rfl⟩
abbrev main_call0_call5_v0 : Ref sig .tc := ⟨.hbm, 96, rfl⟩
abbrev main_call0_call5_v1 : Ref sig .tc := ⟨.hbm, 97, rfl⟩
abbrev main_call0_call5_c_0 : Ref sig .tc := ⟨.hbm, 98, rfl⟩
abbrev main_call0_call5_v2 : Ref sig .tc := ⟨.hbm, 99, rfl⟩
abbrev main_call0_call5_v3 : Ref sig .tc := ⟨.hbm, 100, rfl⟩
abbrev main_call0_call5_v4 : Ref sig .tc := ⟨.hbm, 101, rfl⟩
abbrev main_call0_call5_v5 : Ref sig .tc := ⟨.hbm, 102, rfl⟩
abbrev main_call0_call5_c_1 : Ref sig .tc := ⟨.hbm, 103, rfl⟩
abbrev main_call0_call5_c_2 : Ref sig .tc := ⟨.hbm, 104, rfl⟩
abbrev main_call0_call5_v6 : Ref sig .tc := ⟨.hbm, 105, rfl⟩
abbrev main_call0_call5_v7 : Ref sig .tc := ⟨.hbm, 106, rfl⟩
abbrev main_call0_call5_v8 : Ref sig .tc := ⟨.hbm, 107, rfl⟩
abbrev main_call0_call5_v9 : Ref sig .tc := ⟨.hbm, 108, rfl⟩
abbrev main_call0_call5_v10 : Ref sig .tc := ⟨.hbm, 109, rfl⟩
abbrev main_call0_call5_v11 : Ref sig .tc := ⟨.hbm, 110, rfl⟩
abbrev main_call0_call5_c_3 : Ref sig .tc := ⟨.hbm, 111, rfl⟩
abbrev main_call0_call5_v12 : Ref sig .tc := ⟨.hbm, 112, rfl⟩
abbrev main_call0_call5_v13 : Ref sig .tc := ⟨.hbm, 113, rfl⟩
abbrev main_call0_call5_v14 : Ref sig .tc := ⟨.hbm, 114, rfl⟩
abbrev main_call0_call5_cst : Ref sig .tc := ⟨.hbm, 115, rfl⟩
abbrev main_call0_call5_v15 : Ref sig .tc := ⟨.hbm, 116, rfl⟩
abbrev main_call0_v39 : Ref sig .tc := ⟨.hbm, 117, rfl⟩
abbrev main_call0_cst_8 : Ref sig .tc := ⟨.hbm, 118, rfl⟩
abbrev main_call0_cst_9 : Ref sig .tc := ⟨.hbm, 119, rfl⟩
abbrev main_call0_call6_v0 : Ref sig .tc := ⟨.hbm, 120, rfl⟩
abbrev main_call0_call6_v1 : Ref sig .tc := ⟨.hbm, 121, rfl⟩
abbrev main_call0_call6_v2 : Ref sig .tc := ⟨.hbm, 122, rfl⟩
abbrev main_call0_call6_v3 : Ref sig .tc := ⟨.hbm, 123, rfl⟩
abbrev main_call0_call6_v4 : Ref sig .tc := ⟨.hbm, 124, rfl⟩
abbrev main_call0_v40 : Ref sig .tc := ⟨.hbm, 125, rfl⟩
abbrev main_call0_v41 : Ref sig .tc := ⟨.hbm, 126, rfl⟩
abbrev main_call0_v42 : Ref sig .tc := ⟨.hbm, 127, rfl⟩
abbrev main_call0_v43 : Ref sig .tc := ⟨.hbm, 128, rfl⟩
abbrev main_call0_v44 : Ref sig .tc := ⟨.hbm, 129, rfl⟩
abbrev main_call0_v45 : Ref sig .tc := ⟨.hbm, 130, rfl⟩
abbrev main_call0_v46 : Ref sig .tc := ⟨.hbm, 131, rfl⟩
abbrev main_call0_v47 : Ref sig .tc := ⟨.hbm, 132, rfl⟩
abbrev main_call0_v48 : Ref sig .tc := ⟨.hbm, 133, rfl⟩
abbrev main_call0_c_10 : Ref sig .tc := ⟨.hbm, 134, rfl⟩
abbrev main_call0_v49 : Ref sig .tc := ⟨.hbm, 135, rfl⟩
abbrev main_call0_call7_cst : Ref sig .tc := ⟨.hbm, 136, rfl⟩
abbrev main_call0_call7_v0 : Ref sig .tc := ⟨.hbm, 137, rfl⟩
abbrev main_call0_call7_v1 : Ref sig .tc := ⟨.hbm, 138, rfl⟩
abbrev main_call0_call7_v2 : Ref sig .tc := ⟨.hbm, 139, rfl⟩
abbrev main_call0_call7_v3 : Ref sig .tc := ⟨.hbm, 140, rfl⟩
abbrev main_call0_call7_v4 : Ref sig .tc := ⟨.hbm, 141, rfl⟩
abbrev main_call0_call7_v5 : Ref sig .tc := ⟨.hbm, 142, rfl⟩
abbrev main_call0_call7_v6 : Ref sig .tc := ⟨.hbm, 143, rfl⟩
abbrev main_call0_call7_v7 : Ref sig .tc := ⟨.hbm, 144, rfl⟩
abbrev main_call0_call7_v8 : Ref sig .tc := ⟨.hbm, 145, rfl⟩
abbrev main_call0_call7_v9 : Ref sig .tc := ⟨.hbm, 146, rfl⟩
abbrev main_call0_call7_v10 : Ref sig .tc := ⟨.hbm, 147, rfl⟩
abbrev main_call0_call7_v11 : Ref sig .tc := ⟨.hbm, 148, rfl⟩
abbrev main_call0_v50 : Ref sig .tc := ⟨.hbm, 149, rfl⟩
abbrev main_call0_v51 : Ref sig .tc := ⟨.hbm, 150, rfl⟩
abbrev main_call0_v52 : Ref sig .tc := ⟨.hbm, 151, rfl⟩
abbrev main_call0_v53 : Ref sig .tc := ⟨.hbm, 152, rfl⟩
abbrev main_call0_cst_11 : Ref sig .tc := ⟨.hbm, 153, rfl⟩
abbrev main_call0_v54 : Ref sig .tc := ⟨.hbm, 154, rfl⟩
abbrev main_call0_cst_12 : Ref sig .tc := ⟨.hbm, 155, rfl⟩
abbrev main_call0_v55 : Ref sig .tc := ⟨.hbm, 156, rfl⟩
abbrev main_call0_v56 : Ref sig .tc := ⟨.hbm, 157, rfl⟩
abbrev main_call0_v57 : Ref sig .tc := ⟨.hbm, 158, rfl⟩
abbrev main_call0_v58 : Ref sig .tc := ⟨.hbm, 159, rfl⟩
abbrev main_call0_cst_13 : Ref sig .tc := ⟨.hbm, 160, rfl⟩
abbrev main_call0_v59 : Ref sig .tc := ⟨.hbm, 161, rfl⟩
abbrev main_call0_cst_14 : Ref sig .tc := ⟨.hbm, 162, rfl⟩
abbrev main_v0 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x10 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S512x10 : S_.BroadcastsInDim S512x10 (![] : Fin 0 → Fin S512x10.rank)
  bcast_S10_S10x1_0 : S10.BroadcastsInDim S10x1 (![0] : Fin 1 → Fin S10x1.rank)
  bcast_S10_S1x10_1 : S10.BroadcastsInDim S1x10 (![1] : Fin 1 → Fin S1x10.rank)
  bcast_S10x1_S10x10_0_1 : S10x1.BroadcastsInDim S10x10 (![0, 1] : Fin 2 → Fin S10x10.rank)
  bcast_S1x10_S10x10_0_1 : S1x10.BroadcastsInDim S10x10 (![0, 1] : Fin 2 → Fin S10x10.rank)
  bcast_S512x10_S512x10x1_0_1 : S512x10.BroadcastsInDim S512x10x1 (![0, 1] : Fin 2 → Fin S512x10x1.rank)
  bcast_S512x10_S512x1x10_0_2 : S512x10.BroadcastsInDim S512x1x10 (![0, 2] : Fin 2 → Fin S512x1x10.rank)
  bcast_S512x10x1_S512x10x10_0_1_2 : S512x10x1.BroadcastsInDim S512x10x10 (![0, 1, 2] : Fin 3 → Fin S512x10x10.rank)
  bcast_S512x1x10_S512x10x10_0_1_2 : S512x1x10.BroadcastsInDim S512x10x10 (![0, 1, 2] : Fin 3 → Fin S512x10x10.rank)
  bcast_S10x10_S1x10x10_1_2 : S10x10.BroadcastsInDim S1x10x10 (![1, 2] : Fin 2 → Fin S1x10x10.rank)
  bcast_S1x10x10_S512x10x10_0_1_2 : S1x10x10.BroadcastsInDim S512x10x10 (![0, 1, 2] : Fin 3 → Fin S512x10x10.rank)
  reducesTo_S512x10x10_S512x10_d2 : S512x10x10.ReducesTo [2] S512x10
  h_S_ : 0 < S_.numel
  shapeCasts_S512x10_S512x10x1 : S512x10.ShapeCasts S512x10x1
  bcast_S_S512x10x1 : S_.BroadcastsInDim S512x10x1 (![] : Fin 0 → Fin S512x10x1.rank)
  bcast_S1_S1x1x1_2 : S1.BroadcastsInDim S1x1x1 (![2] : Fin 1 → Fin S1x1x1.rank)
  bcast_S1x1x1_S512x10x1_0_1_2 : S1x1x1.BroadcastsInDim S512x10x1 (![0, 1, 2] : Fin 3 → Fin S512x10x1.rank)
  reducesTo_S512x10x1_S512x10_d2 : S512x10x1.ReducesTo [2] S512x10
  reducesTo_S512x10_S512_d1 : S512x10.ReducesTo [1] S512
  bcast_S_S512 : S_.BroadcastsInDim S512 (![] : Fin 0 → Fin S512.rank)
  shapeCasts_S2x1x256_S512 : S2x1x256.ShapeCasts S512
  bcast_S_S100 : S_.BroadcastsInDim S100 (![] : Fin 0 → Fin S100.rank)
  bcast_S100_S100x1_0 : S100.BroadcastsInDim S100x1 (![0] : Fin 1 → Fin S100x1.rank)
  bcast_S_S100x1 : S_.BroadcastsInDim S100x1 (![] : Fin 0 → Fin S100x1.rank)
  bcast_S1_S1x1_1 : S1.BroadcastsInDim S1x1 (![1] : Fin 1 → Fin S1x1.rank)
  bcast_S1x1_S100x1_0_1 : S1x1.BroadcastsInDim S100x1 (![0, 1] : Fin 2 → Fin S100x1.rank)
  reducesTo_S100x1_S100_d1 : S100x1.ReducesTo [1] S100
  bcast_S100_S512x100_1 : S100.BroadcastsInDim S512x100 (![1] : Fin 1 → Fin S512x100.rank)
  bcast_S_S512x100 : S_.BroadcastsInDim S512x100 (![] : Fin 0 → Fin S512x100.rank)
  bcast_S100_S1x1x100_2 : S100.BroadcastsInDim S1x1x100 (![2] : Fin 1 → Fin S1x1x100.rank)
  bcast_S512x10x1_S512x10x100_0_1_2 : S512x10x1.BroadcastsInDim S512x10x100 (![0, 1, 2] : Fin 3 → Fin S512x10x100.rank)
  bcast_S1x1x100_S512x10x100_0_1_2 : S1x1x100.BroadcastsInDim S512x10x100 (![0, 1, 2] : Fin 3 → Fin S512x10x100.rank)
  reducesTo_S512x10x100_S512x100_d1 : S512x10x100.ReducesTo [1] S512x100
  reducesTo_S512x100_S512_d1 : S512x100.ReducesTo [1] S512
  reducesTo_S512_S_d0 : S512.ReducesTo [0] S_
  inb_S256x2048_S256x2048_0_0 : ∀ a, (![0, 0] : Fin 2 → Nat) a + S256x2048.size a ≤ S256x2048.size a
  h_S256x2048 : 0 < S256x2048.numel
  iota_S256x2048_d1_w32 : S256x2048.Iotas .tc 32 [1]
  inb_S256x10_S256x10_0_0 : ∀ a, (![0, 0] : Fin 2 → Nat) a + S256x10.size a ≤ S256x10.size a
  h_S256x10 : 0 < S256x10.numel
  shapeCasts_S256x10_S256x10 : S256x10.ShapeCasts S256x10
  slices_S256x10_o0_0_S256x1 : S256x10.Slices ![0, 0] S256x1
  broadcasts_S256x1_S256x2048 : S256x1.Broadcasts S256x2048
  slices_S256x10_o0_1_S256x1 : S256x10.Slices ![0, 1] S256x1
  slices_S256x10_o0_2_S256x1 : S256x10.Slices ![0, 2] S256x1
  slices_S256x10_o0_3_S256x1 : S256x10.Slices ![0, 3] S256x1
  slices_S256x10_o0_4_S256x1 : S256x10.Slices ![0, 4] S256x1
  slices_S256x10_o0_5_S256x1 : S256x10.Slices ![0, 5] S256x1
  slices_S256x10_o0_6_S256x1 : S256x10.Slices ![0, 6] S256x1
  slices_S256x10_o0_7_S256x1 : S256x10.Slices ![0, 7] S256x1
  slices_S256x10_o0_8_S256x1 : S256x10.Slices ![0, 8] S256x1
  slices_S256x10_o0_9_S256x1 : S256x10.Slices ![0, 9] S256x1
  reduces_S256x2048_S256 : S256x2048.Reduces [1] S256
  shapeCasts_S256_S256x1 : S256.ShapeCasts S256x1
  transposes_S256x1_p1_0_S1x256 : S256x1.Transposes [1, 0] S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  gather_S512x100000_S512x10x1_S512x10_n_1_0_0_1_2_11_wf : GatherDims.WF S512x100000 S512x10x1 S512x10 [] [1] [0] [1] [0] 2 ![1, 1]
  gather_S512x100000_S100x1_S512x100_0_1_n_n_1_1_5121_wf : GatherDims.WF S512x100000 S100x1 S512x100 [0] [1] [] [1] [] 1 ![512, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10.size a ≤ S512x10.size a
  hwx0_0 : ∀ i : grid0.Coords, EltTy.bits .i32 = 32 ∨ (Rect.block (s := S512x10) S256x10.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256x2048.size a < S512x100000.size a
  hwx0_1 : ∀ i : grid0.Coords, EltTy.bits .f32 = 32 ∨ (Rect.unit (s := S512x100000) (fun a => cc0_transform_1 i a * S256x2048.size a) (fun a => (Pipeline.Clip.of (cc0_transform_1 i a) (S256x2048.size a) (S512x100000.size a)).extent (S256x2048.size a)) fun a => Pipeline.Clip.inb (Pipeline.Clip.ok_of (hstart0_1 i a))).WholeWords (EltTy.packing .f32)
  hwxs0_1 : ∀ i : grid0.Coords, EltTy.bits .f32 = 32 ∨ (Rect.unit (s := S256x2048) (fun _ => 0) (fun a => (Pipeline.Clip.of (cc0_transform_1 i a) (S256x2048.size a) (S512x100000.size a)).extent (S256x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S2x1x256.size a
  hwx0_2 : ∀ i : grid0.Coords, EltTy.bits .f32 = 32 ∨ (Rect.block (s := S2x1x256) S1x1x256.size (cc0_transform_2 i) (hinb0_2 i)).WholeWords (EltTy.packing .f32)

variable [Facts₀]

def gather_S512x100000_S512x10x1_S512x10_n_1_0_0_1_2_11 : GatherDims S512x100000 S512x10x1 S512x10 where
  offsetDims := []
  collapsedSliceDims := [1]
  operandBatchingDims := [0]
  startIndicesBatchingDims := [0]
  startIndexMap := [1]
  indexVectorDim := 2
  sliceSizes := ![1, 1]
  wf := gather_S512x100000_S512x10x1_S512x10_n_1_0_0_1_2_11_wf
def gather_S512x100000_S100x1_S512x100_0_1_n_n_1_1_5121 : GatherDims S512x100000 S100x1 S512x100 where
  offsetDims := [0]
  collapsedSliceDims := [1]
  operandBatchingDims := []
  startIndicesBatchingDims := []
  startIndexMap := [1]
  indexVectorDim := 1
  sliceSizes := ![512, 1]
  wf := gather_S512x100000_S100x1_S512x100_0_1_n_n_1_1_5121_wf

abbrev win0_0 : Pipeline.Window sig grid0 :=
  Pipeline.Window.ofSpec (Memref.whole main_call0_v2) S256x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg0) S256x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_call0_v35) S1x1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x100000 : Shape := ⟨2, ![512, 100000]⟩
abbrev S512x10 : Shape := ⟨2, ![512, 10]⟩
abbrev S100 : Shape := ⟨1, ![100]⟩
abbrev S_ : Shape := ⟨0, ![]⟩
abbrev S512 : Shape := ⟨1, ![512]⟩
abbrev S512x1 : Shape := ⟨2, ![512, 1]⟩
abbrev S512x10x1 : Shape := ⟨3, ![512, 10, 1]⟩
abbrev S512x10x2 : Shape := ⟨3, ![512, 10, 2]⟩
abbrev S512x2000 : Shape := ⟨2, ![512, 2000]⟩
abbrev S512x98000 : Shape := ⟨2, ![512, 98000]⟩
abbrev S100x1 : Shape := ⟨2, ![100, 1]⟩
abbrev S1 : Shape := ⟨1, ![1]⟩
abbrev S1x1 : Shape := ⟨2, ![1, 1]⟩
abbrev S512x100 : Shape := ⟨2, ![512, 100]⟩

abbrev nBuf : Space → Nat
  | .hbm => 171
  | .vmem => 0
  | .smem => 0
  | _ => 0

abbrev hbmTy0_0 (i : Nat) : BufTy := match i % 128 with
  | 0 => ⟨S512x100000, .f32⟩
  | 1 => ⟨S512x10, .i32⟩
  | 2 => ⟨S100, .i32⟩
  | 3 => ⟨S_, .f32⟩
  | 4 => ⟨S_, .f32⟩
  | 5 => ⟨S_, .f32⟩
  | 6 => ⟨S512x100000, .f32⟩
  | 7 => ⟨S512x100000, .f32⟩
  | 8 => ⟨S_, .f32⟩
  | 9 => ⟨S512x100000, .f32⟩
  | 10 => ⟨S512x100000, .f32⟩
  | 11 => ⟨S_, .i32⟩
  | 12 => ⟨S512x10, .i32⟩
  | 13 => ⟨S512x10, .i1⟩
  | 14 => ⟨S512, .i32⟩
  | 15 => ⟨S512x1, .i32⟩
  | 16 => ⟨S512x10, .i32⟩
  | 17 => ⟨S_, .i32⟩
  | 18 => ⟨S_, .i32⟩
  | 19 => ⟨S512x10, .i32⟩
  | 20 => ⟨S512x10, .i32⟩
  | 21 => ⟨S_, .f32⟩
  | 22 => ⟨S512x100000, .f32⟩
  | 23 => ⟨S512x10, .f32⟩
  | 24 => ⟨S_, .i32⟩
  | 25 => ⟨S512x10, .i32⟩
  | 26 => ⟨S512x10, .i1⟩
  | 27 => ⟨S_, .i32⟩
  | 28 => ⟨S512x10, .i32⟩
  | 29 => ⟨S512x10, .i32⟩
  | 30 => ⟨S512x10, .i32⟩
  | 31 => ⟨S_, .i32⟩
  | 32 => ⟨S512x10, .i32⟩
  | 33 => ⟨S512x10, .i1⟩
  | 34 => ⟨S_, .i32⟩
  | 35 => ⟨S512x10, .i32⟩
  | 36 => ⟨S512x10, .i32⟩
  | 37 => ⟨S512x10, .i32⟩
  | 38 => ⟨S512x10x1, .i32⟩
  | 39 => ⟨S512x10x1, .i32⟩
  | 40 => ⟨S512x10x2, .i32⟩
  | 41 => ⟨S512x100000, .f32⟩
  | 42 => ⟨S_, .f32⟩
  | 43 => ⟨S512x100000, .f32⟩
  | 44 => ⟨S512x100000, .i1⟩
  | 45 => ⟨S512x100000, .f32⟩
  | 46 => ⟨S_, .f32⟩
  | 47 => ⟨S512, .f32⟩
  | 48 => ⟨S_, .f32⟩
  | 49 => ⟨S512, .f32⟩
  | 50 => ⟨S512, .f32⟩
  | 51 => ⟨S512x100000, .f32⟩
  | 52 => ⟨S_, .f32⟩
  | 53 => ⟨S512, .f32⟩
  | 54 => ⟨S512, .f32⟩
  | 55 => ⟨S512, .f32⟩
  | 56 => ⟨S_, .f32⟩
  | 57 => ⟨S512, .f32⟩
  | 58 => ⟨S512, .f32⟩
  | 59 => ⟨S512, .f32⟩
  | 60 => ⟨S512, .f32⟩
  | 61 => ⟨S512, .i1⟩
  | 62 => ⟨S512, .f32⟩
  | 63 => ⟨S512, .f32⟩
  | 64 => ⟨S512, .f32⟩
  | 65 => ⟨S512, .f32⟩
  | 66 => ⟨S512, .f32⟩
  | 67 => ⟨S512, .f32⟩
  | 68 => ⟨S512, .f32⟩
  | 69 => ⟨S512, .f32⟩
  | 70 => ⟨S512x2000, .f32⟩
  | 71 => ⟨S512x2000, .f32⟩
  | 72 => ⟨S_, .f32⟩
  | 73 => ⟨S512x2000, .f32⟩
  | 74 => ⟨S512x2000, .f32⟩
  | 75 => ⟨S512x2000, .f32⟩
  | 76 => ⟨S512x2000, .f32⟩
  | 77 => ⟨S512x2000, .i1⟩
  | 78 => ⟨S512x2000, .f32⟩
  | 79 => ⟨S512x2000, .f32⟩
  | 80 => ⟨S512x2000, .f32⟩
  | 81 => ⟨S512x2000, .f32⟩
  | 82 => ⟨S512x2000, .f32⟩
  | 83 => ⟨S512x2000, .f32⟩
  | 84 => ⟨S512x2000, .f32⟩
  | 85 => ⟨S512x2000, .f32⟩
  | 86 => ⟨S_, .f32⟩
  | 87 => ⟨S512x2000, .f32⟩
  | 88 => ⟨S512x2000, .f32⟩
  | 89 => ⟨S512x2000, .f32⟩
  | 90 => ⟨S_, .f32⟩
  | 91 => ⟨S512, .f32⟩
  | 92 => ⟨S512x98000, .f32⟩
  | 93 => ⟨S_, .i32⟩
  | 94 => ⟨S100, .i32⟩
  | 95 => ⟨S100, .i1⟩
  | 96 => ⟨S_, .i32⟩
  | 97 => ⟨S100, .i32⟩
  | 98 => ⟨S100, .i32⟩
  | 99 => ⟨S100, .i32⟩
  | 100 => ⟨S100x1, .i32⟩
  | 101 => ⟨S1, .i32⟩
  | 102 => ⟨S_, .i32⟩
  | 103 => ⟨S100x1, .i32⟩
  | 104 => ⟨S100x1, .i1⟩
  | 105 => ⟨S1x1, .i32⟩
  | 106 => ⟨S100x1, .i32⟩
  | 107 => ⟨S100x1, .i1⟩
  | 108 => ⟨S100x1, .i1⟩
  | 109 => ⟨S_, .i1⟩
  | 110 => ⟨S100, .i1⟩
  | 111 => ⟨S512x100, .f32⟩
  | 112 => ⟨S512x100, .i1⟩
  | 113 => ⟨S_, .f32⟩
  | 114 => ⟨S512x100, .f32⟩
  | 115 => ⟨S512x100, .f32⟩
  | 116 => ⟨S512x98000, .f32⟩
  | 117 => ⟨S_, .i32⟩
  | 118 => ⟨S100, .i32⟩
  | 119 => ⟨S100, .i1⟩
  | 120 => ⟨S_, .i32⟩
  | 121 => ⟨S100, .i32⟩
  | 122 => ⟨S100, .i32⟩
  | 123 => ⟨S100, .i32⟩
  | 124 => ⟨S100x1, .i32⟩
  | 125 => ⟨S1, .i32⟩
  | 126 => ⟨S_, .i32⟩
  | 127 => ⟨S100x1, .i32⟩
  | _ => ⟨S512x100000, .f32⟩

abbrev hbmTy0_1 (i : Nat) : BufTy := match i % 128 with
  | 0 => ⟨S100x1, .i1⟩
  | 1 => ⟨S1x1, .i32⟩
  | 2 => ⟨S100x1, .i32⟩
  | 3 => ⟨S100x1, .i1⟩
  | 4 => ⟨S100x1, .i1⟩
  | 5 => ⟨S_, .i1⟩
  | 6 => ⟨S100, .i1⟩
  | 7 => ⟨S512x100, .f32⟩
  | 8 => ⟨S512x100, .i1⟩
  | 9 => ⟨S_, .f32⟩
  | 10 => ⟨S512x100, .f32⟩
  | 11 => ⟨S512x100, .f32⟩
  | 12 => ⟨S_, .f32⟩
  | 13 => ⟨S512x100, .f32⟩
  | 14 => ⟨S512x100, .i1⟩
  | 15 => ⟨S_, .f32⟩
  | 16 => ⟨S512x100, .f32⟩
  | 17 => ⟨S512x100, .f32⟩
  | 18 => ⟨S512x100, .f32⟩
  | 19 => ⟨S512x100, .f32⟩
  | 20 => ⟨S512x100, .i1⟩
  | 21 => ⟨S512x100, .f32⟩
  | 22 => ⟨S512x100, .f32⟩
  | 23 => ⟨S512x100, .f32⟩
  | 24 => ⟨S512x100, .f32⟩
  | 25 => ⟨S512x100, .f32⟩
  | 26 => ⟨S512x100, .f32⟩
  | 27 => ⟨S512x100, .f32⟩
  | 28 => ⟨S512x100, .f32⟩
  | 29 => ⟨S512x100, .i1⟩
  | 30 => ⟨S512x100, .f32⟩
  | 31 => ⟨S512x100, .f32⟩
  | 32 => ⟨S_, .f32⟩
  | 33 => ⟨S512, .f32⟩
  | 34 => ⟨S_, .f32⟩
  | 35 => ⟨S512, .f32⟩
  | 36 => ⟨S512, .f32⟩
  | 37 => ⟨S512, .f32⟩
  | 38 => ⟨S512, .f32⟩
  | 39 => ⟨S_, .f32⟩
  | 40 => ⟨S_, .f32⟩
  | 41 => ⟨S_, .f32⟩
  | 42 => ⟨S_, .f32⟩
  | _ => ⟨S512x100000, .f32⟩

abbrev hbmTy (i : Nat) : BufTy := match i / 128 with
  | 0 => hbmTy0_0 i
  | 1 => hbmTy0_1 i
  | _ => ⟨S512x100000, .f32⟩

abbrev bufTy : (tb : Table) → Fin (tcTables nBuf tb) → BufTy
  | .hbm, ⟨i, _⟩ => hbmTy i
  | _, _ => ⟨S512x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_8 : Ref sig .tc := ⟨.hbm, 46, rfl⟩
abbrev main_v26 : Ref sig .tc := ⟨.hbm, 47, rfl⟩
abbrev main_cst_9 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_10 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_call3_cst : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_v36 : Ref sig .tc := ⟨.hbm, 85, rfl⟩
abbrev main_cst_11 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_cst_12 : Ref sig .tc := ⟨.hbm, 90, rfl⟩
abbrev main_v40 : Ref sig .tc := ⟨.hbm, 91, rfl⟩
abbrev main_v41 : Ref sig .tc := ⟨.hbm, 92, rfl⟩
abbrev main_call4_c : Ref sig .tc := ⟨.hbm, 93, rfl⟩
abbrev main_call4_v0 : Ref sig .tc := ⟨.hbm, 94, rfl⟩
abbrev main_call4_v1 : Ref sig .tc := ⟨.hbm, 95, rfl⟩
abbrev main_call4_c_0 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_c_1 : Ref sig .tc := ⟨.hbm, 101, rfl⟩
abbrev main_call4_c_2 : Ref sig .tc := ⟨.hbm, 102, rfl⟩
abbrev main_call4_v6 : Ref sig .tc := ⟨.hbm, 103, rfl⟩
abbrev main_call4_v7 : Ref sig .tc := ⟨.hbm, 104, rfl⟩
abbrev main_call4_v8 : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_3 : Ref sig .tc := ⟨.hbm, 109, rfl⟩
abbrev main_call4_v12 : Ref sig .tc := ⟨.hbm, 110, rfl⟩
abbrev main_call4_v13 : Ref sig .tc := ⟨.hbm, 111, rfl⟩
abbrev main_call4_v14 : Ref sig .tc := ⟨.hbm, 112, rfl⟩
abbrev main_call4_cst : Ref sig .tc := ⟨.hbm, 113, rfl⟩
abbrev main_call4_v15 : Ref sig .tc := ⟨.hbm, 114, rfl⟩
abbrev main_v42 : Ref sig .tc := ⟨.hbm, 115, rfl⟩
abbrev main_v43 : Ref sig .tc := ⟨.hbm, 116, rfl⟩
abbrev main_call5_c : Ref sig .tc := ⟨.hbm, 117, rfl⟩
abbrev main_call5_v0 : Ref sig .tc := ⟨.hbm, 118, rfl⟩
abbrev main_call5_v1 : Ref sig .tc := ⟨.hbm, 119, rfl⟩
abbrev main_call5_c_0 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_call5_v5 : Ref sig .tc := ⟨.hbm, 124, rfl⟩
abbrev main_call5_c_1 : Ref sig .tc := ⟨.hbm, 125, rfl⟩
abbrev main_call5_c_2 : Ref sig .tc := ⟨.hbm, 126, rfl⟩
abbrev main_call5_v6 : Ref sig .tc := ⟨.hbm, 127, rfl⟩
abbrev main_call5_v7 : Ref sig .tc := ⟨.hbm, 128, rfl⟩
abbrev main_call5_v8 : Ref sig .tc := ⟨.hbm, 129, rfl⟩
abbrev main_call5_v9 : Ref sig .tc := ⟨.hbm, 130, rfl⟩
abbrev main_call5_v10 : Ref sig .tc := ⟨.hbm, 131, rfl⟩
abbrev main_call5_v11 : Ref sig .tc := ⟨.hbm, 132, rfl⟩
abbrev main_call5_c_3 : Ref sig .tc := ⟨.hbm, 133, rfl⟩
abbrev main_call5_v12 : Ref sig .tc := ⟨.hbm, 134, rfl⟩
abbrev main_call5_v13 : Ref sig .tc := ⟨.hbm, 135, rfl⟩
abbrev main_call5_v14 : Ref sig .tc := ⟨.hbm, 136, rfl⟩
abbrev main_call5_cst : Ref sig .tc := ⟨.hbm, 137, rfl⟩
abbrev main_call5_v15 : Ref sig .tc := ⟨.hbm, 138, rfl⟩
abbrev main_v44 : Ref sig .tc := ⟨.hbm, 139, rfl⟩
abbrev main_cst_13 : Ref sig .tc := ⟨.hbm, 140, rfl⟩
abbrev main_v45 : Ref sig .tc := ⟨.hbm, 141, rfl⟩
abbrev main_v46 : Ref sig .tc := ⟨.hbm, 142, rfl⟩
abbrev main_call6_cst : Ref sig .tc := ⟨.hbm, 143, rfl⟩
abbrev main_call6_v0 : Ref sig .tc := ⟨.hbm, 144, rfl⟩
abbrev main_call6_v1 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_call6_v5 : Ref sig .tc := ⟨.hbm, 149, rfl⟩
abbrev main_call6_v6 : Ref sig .tc := ⟨.hbm, 150, rfl⟩
abbrev main_call6_v7 : Ref sig .tc := ⟨.hbm, 151, rfl⟩
abbrev main_call6_v8 : Ref sig .tc := ⟨.hbm, 152, rfl⟩
abbrev main_call6_v9 : Ref sig .tc := ⟨.hbm, 153, rfl⟩
abbrev main_call6_v10 : Ref sig .tc := ⟨.hbm, 154, rfl⟩
abbrev main_call6_v11 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_cst_14 : Ref sig .tc := ⟨.hbm, 160, rfl⟩
abbrev main_v51 : Ref sig .tc := ⟨.hbm, 161, rfl⟩
abbrev main_cst_15 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_v55 : Ref sig .tc := ⟨.hbm, 166, rfl⟩
abbrev main_cst_16 : Ref sig .tc := ⟨.hbm, 167, rfl⟩
abbrev main_v56 : Ref sig .tc := ⟨.hbm, 168, rfl⟩
abbrev main_cst_17 : Ref sig .tc := ⟨.hbm, 169, rfl⟩
abbrev main_v57 : Ref sig .tc := ⟨.hbm, 170, rfl⟩

abbrev nD : Nat := 1
abbrev τ : Topo := Topo.v7x

variable {F : FTy → Type} [FloatOps F]

class Facts₀ : Prop where
  bcast_S_S512x100000 : S_.BroadcastsInDim S512x100000 (![] : Fin 0 → Fin S512x100000.rank)
  bcast_S_S512x10 : S_.BroadcastsInDim S512x10 (![] : Fin 0 → Fin S512x10.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  bcast_S512x10_S512x10x1_0_1 : S512x10.BroadcastsInDim S512x10x1 (![0, 1] : Fin 2 → Fin S512x10x1.rank)
  concatenates_S512x10x1_S512x10x1_S512x10x2_d2 : Shape.Concatenates [S512x10x1, S512x10x1] S512x10x2 2
  reducesTo_S512x100000_S512_d1 : S512x100000.ReducesTo [1] S512
  h_S_ : 0 < S_.numel
  bcast_S_S512 : S_.BroadcastsInDim S512 (![] : Fin 0 → Fin S512.rank)
  slices_S512x100000_S512x2000_0_0 : S512x100000.Slices ![0, 0] S512x2000
  bcast_S_S512x2000 : S_.BroadcastsInDim S512x2000 (![] : Fin 0 → Fin S512x2000.rank)
  reducesTo_S512x2000_S512_d1 : S512x2000.ReducesTo [1] S512
  slices_S512x100000_S512x98000_0_2000 : S512x100000.Slices ![0, 2000] S512x98000
  bcast_S_S100 : S_.BroadcastsInDim S100 (![] : Fin 0 → Fin S100.rank)
  bcast_S100_S100x1_0 : S100.BroadcastsInDim S100x1 (![0] : Fin 1 → Fin S100x1.rank)
  bcast_S_S100x1 : S_.BroadcastsInDim S100x1 (![] : Fin 0 → Fin S100x1.rank)
  bcast_S1_S1x1_1 : S1.BroadcastsInDim S1x1 (![1] : Fin 1 → Fin S1x1.rank)
  bcast_S1x1_S100x1_0_1 : S1x1.BroadcastsInDim S100x1 (![0, 1] : Fin 2 → Fin S100x1.rank)
  reducesTo_S100x1_S100_d1 : S100x1.ReducesTo [1] S100
  bcast_S100_S512x100_1 : S100.BroadcastsInDim S512x100 (![1] : Fin 1 → Fin S512x100.rank)
  bcast_S_S512x100 : S_.BroadcastsInDim S512x100 (![] : Fin 0 → Fin S512x100.rank)
  reducesTo_S512x100_S512_d1 : S512x100.ReducesTo [1] S512
  reducesTo_S512_S_d0 : S512.ReducesTo [0] S_
  scatter_S512x100000_S512x10x2_S512x10_n_01_01_2_wf : ScatterDims.WF S512x100000 S512x10x2 S512x10 [] [0, 1] [0, 1] 2
  gather_S512x98000_S100x1_S512x100_0_1_n_n_1_1_5121_wf : GatherDims.WF S512x98000 S100x1 S512x100 [0] [1] [] [1] [] 1 ![512, 1]

variable [Facts₀]

def scatter_S512x100000_S512x10x2_S512x10_n_01_01_2 : ScatterDims S512x100000 S512x10x2 S512x10 where
  updateWindowDims := []
  insertedWindowDims := [0, 1]
  scatterDimsToOperandDims := [0, 1]
  indexVectorDim := 2
  wf := scatter_S512x100000_S512x10x2_S512x10_n_01_01_2_wf
def gather_S512x98000_S100x1_S512x100_0_1_n_n_1_1_5121 : GatherDims S512x98000 S100x1 S512x100 where
  offsetDims := [0]
  collapsedSliceDims := [1]
  operandBatchingDims := []
  startIndicesBatchingDims := []
  startIndexMap := [1]
  indexVectorDim := 1
  sliceSizes := ![512, 1]
  wf := gather_S512x98000_S100x1_S512x100_0_1_n_n_1_1_5121_wf

class Facts : Prop extends Facts₀ where

variable [Facts]
-- ==== Proof.KBase.lean ====
/- The buffer contents the one region of the kernel's program finds: the launch contents carried through the
   host operations that precede the region. Everything later (the region's proof data, the host operations after
   the region) is stated over this valuation. -/
import proofs.«406286_j15479062135299_3_alg».proof.Proof.Gen.Kernel.Launch
import Idealize.ShloMosaic.Lib.StableHlo.Run

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Core `c`'s buffers when the region is entered: the launch contents after the 87 host operations before it. -/
abbrev V0 (c : Dev nD) : Valuation τ sig (Elt F) := StableHlo.after (List.flatten [hostOps0]) (fun b => m (c, b))

/-- The same, read at one buffer. -/
abbrev V (c : Dev nD) (b : Ref sig .tc) : Buf (Elt F) ((c : Thread nD τ).loc b) := V0 m c (Proc.devRef .tc b)

end Cert.Kernel.Hand

end
-- ==== Proof.KData.lean ====
/- The proof data of the kernel program's one region: the blocks its three windows stage at each grid point, read off
   the buffers as the region finds them, what the body leaves in the output window's staging buffer as a function of the
   two input blocks, and the record of these the library's launch theorem takes. -/
import proofs.«406286_j15479062135299_3_alg».proof.Proof.KBase
import proofs.«406286_j15479062135299_3_alg».proof.Proof.Gen.Kernel.Skeleton
import proofs.«406286_j15479062135299_3_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]
variable (m : (ℓ : Loc nD τ sig) → Buf (Elt F) ℓ)

/-! ## The windows' blocks -/

/-- Window w's block at grid point t — the part of it inside the array —, read off the window's array as the region
    finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 256 x 2048 block of the logits at grid point t as a whole staging buffer holds it once fetched: the block's
    part inside the array (all of it: 2 * 256 = 512 rows, 2048 ≤ 100000 columns), anything elsewhere (nowhere). -/
def blk1 (c : Dev nD) (t : Fin cfg0.N) : Vec F S256x2048 .f32 :=
  (cfg0.win 1).fill (cfg0.grid.coords t) (fun _ => Classical.choice (Elt.nonempty F _)) (iblk m c 1 t)

/-- No transfer of the logits window is cut: at both grid points its block lies inside the array on both axes. -/
theorem clip1_none : ∀ (t : Fin cfg0.N) (a : Fin (cfg0.win 1).shape.rank), (cfg0.win 1).clip (cfg0.grid.coords t) a = none :=
  (by decide +kernel : ∀ (t : Fin grid0.N) (a : Fin win0_1.shape.rank), win0_1.clip (grid0.coords t) a = none)

/-- So every index of the block is one the fetch fills, -/
theorem moved1 (t : Fin cfg0.N) (j : (cfg0.win 1).block.Idx) : (cfg0.win 1).moved (cfg0.grid.coords t) j = true :=
  ((cfg0.win 1).moved_iff _ j).mpr fun a => by have := (j a).isLt; unfold Window.xsize; rw [clip1_none t a]; exact this

/-- and the whole block is the array's block there, index by index. -/
theorem blk1_apply (c : Dev nD) (t : Fin cfg0.N) (j : S256x2048.Idx) :
    blk1 m c t j = iblk m c 1 t (fun a => ⟨(j a).val, ((cfg0.win 1).moved_iff _ j).mp (moved1 t j) a⟩) := by
  unfold blk1 Window.fill; rw [dif_pos (moved1 t j)]

/-! ## What the body leaves in the output window's buffer -/

/-- The whole 256 x 10 block, -/
abbrev r0 : Rect S256x10 := Rect.unit (s := S256x10) ![0, 0] S256x10.size inb_S256x10_S256x10_0_0
/-- the whole 256 x 2048 block, -/
abbrev r1 : Rect S256x2048 := Rect.unit (s := S256x2048) ![0, 0] S256x2048.size inb_S256x2048_S256x2048_0_0
/-- the whole 1 x 1 x 256 block: the three rectangles the body loads and stores through. -/
abbrev r2 : Rect S1x1x256 := Rect.unit (s := S1x1x256) ![0, 0, 0] S1x1x256.size inb_S1x1x256_S1x1x256_0_0_0

/-- The output window's staging buffer after the body, from the two input blocks: its one store, of the row sums of the
    masked softplus of the clipped logits block. -/
def out0_2 (x0 : Vec F S256x10 .i32) (x1 : Vec F S256x2048 .f32) : Vec F S1x1x256 .f32 :=
  View.canon [⟨r2, k0_pay1 (k0_pay2 (View.ld x1 r1)) (k0_pay3 (View.ld x0 r0)) (Scalar.ofBits .f32 0x00000000#32) k0_pay4⟩]

/-! ## The proof data -/

/-- The proof data of the one pipeline on core c: the arrays as the region finds them; after the body at point t each
    input's staging buffer at its block and the output's at out0_2 of the two input blocks; the region invariant the
    library's for a body that keeps nothing between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blk1 m c t
    | ⟨2, _⟩ => out0_2 (iblk m c 0 t) (blk1 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = blk1 m c t := by dsimp only [dats]
theorem after0_2 (c : Dev nD) (t : Fin cfg0.N) : (dats m 0 c).after 2 t = out0_2 (iblk m c 0 t) (blk1 m c t) := by dsimp only [dats]

end Cert.Kernel.Hand

end
-- ==== Proof.KFrame.lean ====
/- The kernel program around its one region: the host operations before the region, the region, the host operations after
   it. What the body finds in its windows' staging buffers and what it leaves there; the body's triple; the library's
   launch theorem applied to these; and from its run the final result buffer and the three argument arrays. -/
import proofs.«406286_j15479062135299_3_alg».proof.Proof.KData
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

variable (ρ : Dev nD → PrngReg)

/-! ## The program around its region -/

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- The program is the host operations before the region, the region, and the host operations after it: it reduces to
    the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 40000000 in
/-- No operation after the region writes the masked candidates, the array window 0 stages; -/
theorem keeps1_v2 : (hostOps1 : List (HloOp τ sig (Elt F))).Forall fun op => Proc.devRef .tc main_call0_v2 ∉ op.writes := by
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- none writes the logits, the array window 1 stages; -/
theorem keeps1_arg0 : (hostOps1 : List (HloOp τ sig (Elt F))).Forall fun op => Proc.devRef .tc main_arg0 ∉ op.writes := by
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- none writes the region's result, the array window 2 stages; -/
theorem keeps1_v35 : (hostOps1 : List (HloOp τ sig (Elt F))).Forall fun op => Proc.devRef .tc main_call0_v35 ∉ op.writes := by
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- none writes the candidates; -/
theorem keeps1_arg1 : (hostOps1 : List (HloOp τ sig (Elt F))).Forall fun op => Proc.devRef .tc main_arg1 ∉ op.writes := by
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- none writes the sampled indices. -/
theorem keeps1_arg2 : (hostOps1 : List (HloOp τ sig (Elt F))).Forall fun op => Proc.devRef .tc main_arg2 ∉ op.writes := by
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- No operation before the region writes the logits, -/
theorem keeps0_arg0 : (hostOps0 : List (HloOp τ sig (Elt F))).Forall fun op => Proc.devRef .tc main_arg0 ∉ op.writes := by
  simp only [hostOps0, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- the candidates, -/
theorem keeps0_arg1 : (hostOps0 : List (HloOp τ sig (Elt F))).Forall fun op => Proc.devRef .tc main_arg1 ∉ op.writes := by
  simp only [hostOps0, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- or the sampled indices. -/
theorem keeps0_arg2 : (hostOps0 : List (HloOp τ sig (Elt F))).Forall fun op => Proc.devRef .tc main_arg2 ∉ op.writes := by
  simp only [hostOps0, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

/-- So no operation after the region writes an array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  fin_cases w
  · exact (List.forall_iff_forall_mem.mp keeps1_v2) op hop
  · exact (List.forall_iff_forall_mem.mp keeps1_arg0) op hop
  · exact (List.forall_iff_forall_mem.mp keeps1_v35) op hop

/-- The region finds the three argument arrays as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [List.flatten_cons, List.flatten_nil, List.append_nil]; exact keeps0_arg0))
theorem V_main_arg1 (c : Dev nD) : V m c main_arg1 = m ((c : Thread nD τ).loc main_arg1) :=
  StableHlo.after_of_forall_not_mem (b := Proc.devRef .tc main_arg1) _ _ (List.forall_iff_forall_mem.mp (by
    simp only [List.flatten_cons, List.flatten_nil, List.append_nil]; exact keeps0_arg1))
theorem V_main_arg2 (c : Dev nD) : V m c main_arg2 = m ((c : Thread nD τ).loc main_arg2) :=
  StableHlo.after_of_forall_not_mem (b := Proc.devRef .tc main_arg2) _ _ (List.forall_iff_forall_mem.mp (by
    simp only [List.flatten_cons, List.flatten_nil, List.append_nil]; exact keeps0_arg2))

/-- The candidates and the sampled indices, which the region does not stage, end as launched: no operation after the
    region writes them either. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact keeps1_arg1)),
    Pipeline.withArrays_of_ne _ c (V0 m c) _ main_arg1 (by exact (by decide : ∀ w, Pipeline.arrRef spec0 w ≠ main_arg1))]
  exact V_main_arg1 m c
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [List.flatten_cons, List.flatten_nil, List.append_nil]; exact keeps1_arg2)),
    Pipeline.withArrays_of_ne _ c (V0 m c) _ main_arg2 (by exact (by decide : ∀ w, Pipeline.arrRef spec0 w ≠ main_arg2))]
  exact V_main_arg2 m c

/-! ## What the body finds in the input windows' buffers -/

/-- The candidates window's current staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]) t d).trans
    (by unfold Dat.fetched Dat.blockOf iblk; rw [A_eq]; try rfl)

/-- The logits window is fetched at every point, and no fetch of it is cut: its current staging buffer holds the whole
    block, nothing of what it held before. -/
theorem before0_1 (c : Dev nD) (t : Fin cfg0.N) (d) : (dats m 0 c).before 1 t d = blk1 m c t := by
  rw [(dats m 0 c).before_fetched 1 t (fetch0_1 t) d,
    (dats m 0 c).fetched_of_clip_none 1 t (clip1_none t) d (fun _ => Classical.choice (Elt.nonempty F _))]
  unfold Dat.fetched Dat.blockOf blk1 iblk; rw [A_eq]

/-! ## The body's triple -/

/-- The body's one store fills the output block. -/
theorem cover0_2 (p0 : Vec F S1x1x256 .f32) (y : S1x1x256.Idx) :
    ∃ pc ∈ ([⟨r2, p0⟩] : List (View.Piece (Elt F) S1x1x256 .f32)), y ∈ pc.1.set :=
  View.cover_of_tiled [⟨r2, p0⟩] S1x1x256.size (by rfl) y

set_option maxHeartbeats 4000000 in
/-- The kernel body on whole staging memrefs, the inputs' at contents x0, x1 and the output's at anything, runs to the
    continuation holding the inputs' as they were and the output's at out0_2 of them: it loads the two input blocks,
    loads the output block (a value it never uses) and stores the row sums over the whole output block. -/
theorem sound_kernel (c : Dev nD) (E : Set ℕ) (i : grid0.Coords)
    (arg1 : Memref sig .tc .vmem S256x10 .i32) (harg1 : arg1.IsWhole)
    (arg2 : Memref sig .tc .vmem S256x2048 .f32) (harg2 : arg2.IsWhole)
    (arg3 : Memref sig .tc .vmem S1x1x256 .f32) (harg3 : arg3.IsWhole)
    (x0 : Vec F S256x10 .i32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__term2_kernel i arg1 harg1 arg2 harg2 arg3 harg3) K := by
  simp only [cc0__term2_kernel_eq_skeleton]; unfold cc0__term2_kernel_skel
  simp only [k0_part1_eq_skeleton]
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 4000000 in
/-- The body at any point: the inputs' staging memrefs hold their blocks, so the body's triple applies; the region
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (blk1 m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- For any launch contents, from zero counters: every weakly fair execution of the program on the TensorCores terminates,
    and every final state has every array of the pipeline at what the library computes from the proof data and every
    other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The result and the frame from the run: the result buffer, which is no array of the pipeline, holds what the
    operations after the region compute; the logits, which the region stages as an input, and the candidates and
    sampled indices, which bypass it, end as launched. -/
theorem run_value : θ_run defs (onTc (τ := τ) (main (F := F))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v0 (Pipeline.mem_restRefs_of main_v0 (by decide) (by decide)),
     ((h c).1 1).trans (((dats m 0 c).arrAt_in 1 rfl _).trans ((A_eq m c 1).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩) (run_main m ρ)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.Kernel.Hand

end
-- ==== Proof.KIBase.lean ====
/- The buffer contents the one region of the kernel's program finds: the launch contents carried through the
   host operations that precede the region. Everything later (the region's proof data, the host operations after
   the region) is stated over this valuation. -/
import proofs.«406286_j15479062135299_3_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Core `c`'s buffers when the region is entered: the launch contents after the 87 host operations before it. -/
abbrev V0 (c : Dev nD) : Valuation τ sig (Elt F) := StableHlo.after (List.flatten [hostOps0]) (fun b => m (c, b))

/-- The same, read at one buffer. -/
abbrev V (c : Dev nD) (b : Ref sig .tc) : Buf (Elt F) ((c : Thread nD τ).loc b) := V0 m c (Proc.devRef .tc b)

end Cert.KernelIdeal.Hand

end
-- ==== Proof.KIData.lean ====
/- The proof data of the kernel program's one region: the blocks its three windows stage at each grid point, read off
   the buffers as the region finds them, what the body leaves in the output window's staging buffer as a function of the
   two input blocks, and the record of these the library's launch theorem takes. -/
import proofs.«406286_j15479062135299_3_alg».proof.Proof.KIBase
import proofs.«406286_j15479062135299_3_alg».proof.Proof.Gen.KernelIdeal.Skeleton
import proofs.«406286_j15479062135299_3_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]
variable (m : (ℓ : Loc nD τ sig) → Buf (Elt F) ℓ)

/-! ## The windows' blocks -/

/-- Window w's block at grid point t — the part of it inside the array —, read off the window's array as the region
    finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 256 x 2048 block of the logits at grid point t as a whole staging buffer holds it once fetched: the block's
    part inside the array (all of it: 2 * 256 = 512 rows, 2048 ≤ 100000 columns), anything elsewhere (nowhere). -/
def blk1 (c : Dev nD) (t : Fin cfg0.N) : Vec F S256x2048 .f32 :=
  (cfg0.win 1).fill (cfg0.grid.coords t) (fun _ => Classical.choice (Elt.nonempty F _)) (iblk m c 1 t)

/-- No transfer of the logits window is cut: at both grid points its block lies inside the array on both axes. -/
theorem clip1_none : ∀ (t : Fin cfg0.N) (a : Fin (cfg0.win 1).shape.rank), (cfg0.win 1).clip (cfg0.grid.coords t) a = none :=
  (by decide +kernel : ∀ (t : Fin grid0.N) (a : Fin win0_1.shape.rank), win0_1.clip (grid0.coords t) a = none)

/-- So every index of the block is one the fetch fills, -/
theorem moved1 (t : Fin cfg0.N) (j : (cfg0.win 1).block.Idx) : (cfg0.win 1).moved (cfg0.grid.coords t) j = true :=
  ((cfg0.win 1).moved_iff _ j).mpr fun a => by have := (j a).isLt; unfold Window.xsize; rw [clip1_none t a]; exact this

/-- and the whole block is the array's block there, index by index. -/
theorem blk1_apply (c : Dev nD) (t : Fin cfg0.N) (j : S256x2048.Idx) :
    blk1 m c t j = iblk m c 1 t (fun a => ⟨(j a).val, ((cfg0.win 1).moved_iff _ j).mp (moved1 t j) a⟩) := by
  unfold blk1 Window.fill; rw [dif_pos (moved1 t j)]

/-! ## What the body leaves in the output window's buffer -/

/-- The whole 256 x 10 block, -/
abbrev r0 : Rect S256x10 := Rect.unit (s := S256x10) ![0, 0] S256x10.size inb_S256x10_S256x10_0_0
/-- the whole 256 x 2048 block, -/
abbrev r1 : Rect S256x2048 := Rect.unit (s := S256x2048) ![0, 0] S256x2048.size inb_S256x2048_S256x2048_0_0
/-- the whole 1 x 1 x 256 block: the three rectangles the body loads and stores through. -/
abbrev r2 : Rect S1x1x256 := Rect.unit (s := S1x1x256) ![0, 0, 0] S1x1x256.size inb_S1x1x256_S1x1x256_0_0_0

/-- The output window's staging buffer after the body, from the two input blocks: its one store, of the row sums of the
    masked softplus of the clipped logits block. -/
def out0_2 (x0 : Vec F S256x10 .i32) (x1 : Vec F S256x2048 .f32) : Vec F S1x1x256 .f32 :=
  View.canon [⟨r2, k0_pay1 (k0_pay2 (View.ld x1 r1)) (k0_pay3 (View.ld x0 r0)) (Scalar.ofBits .f32 0x00000000#32) k0_pay4⟩]

/-! ## The proof data -/

/-- The proof data of the one pipeline on core c: the arrays as the region finds them; after the body at point t each
    input's staging buffer at its block and the output's at out0_2 of the two input blocks; the region invariant the
    library's for a body that keeps nothing between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blk1 m c t
    | ⟨2, _⟩ => out0_2 (iblk m c 0 t) (blk1 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = blk1 m c t := by dsimp only [dats]
theorem after0_2 (c : Dev nD) (t : Fin cfg0.N) : (dats m 0 c).after 2 t = out0_2 (iblk m c 0 t) (blk1 m c t) := by dsimp only [dats]

end Cert.KernelIdeal.Hand

end
-- ==== Proof.KIFrame.lean ====
/- The kernel program around its one region: the host operations before the region, the region, the host operations after
   it. What the body finds in its windows' staging buffers and what it leaves there; the body's triple; the library's
   launch theorem applied to these; and from its run the final result buffer and the three argument arrays. -/
import proofs.«406286_j15479062135299_3_alg».proof.Proof.KIData
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ (UR sig nD τ) ℕ

variable (ρ : Dev nD → PrngReg)

/-! ## The program around its region -/

set_option maxHeartbeats 4000000 in
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- The program is the host operations before the region, the region, and the host operations after it: it reduces to
    the region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 40000000 in
/-- No operation after the region writes the masked candidates, the array window 0 stages; -/
theorem keeps1_v2 : (hostOps1 : List (HloOp τ sig (Elt F))).Forall fun op => Proc.devRef .tc main_call0_v2 ∉ op.writes := by
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- none writes the logits, the array window 1 stages; -/
theorem keeps1_arg0 : (hostOps1 : List (HloOp τ sig (Elt F))).Forall fun op => Proc.devRef .tc main_arg0 ∉ op.writes := by
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- none writes the region's result, the array window 2 stages; -/
theorem keeps1_v35 : (hostOps1 : List (HloOp τ sig (Elt F))).Forall fun op => Proc.devRef .tc main_call0_v35 ∉ op.writes := by
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- none writes the candidates; -/
theorem keeps1_arg1 : (hostOps1 : List (HloOp τ sig (Elt F))).Forall fun op => Proc.devRef .tc main_arg1 ∉ op.writes := by
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- none writes the sampled indices. -/
theorem keeps1_arg2 : (hostOps1 : List (HloOp τ sig (Elt F))).Forall fun op => Proc.devRef .tc main_arg2 ∉ op.writes := by
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- No operation before the region writes the logits, -/
theorem keeps0_arg0 : (hostOps0 : List (HloOp τ sig (Elt F))).Forall fun op => Proc.devRef .tc main_arg0 ∉ op.writes := by
  simp only [hostOps0, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- the candidates, -/
theorem keeps0_arg1 : (hostOps0 : List (HloOp τ sig (Elt F))).Forall fun op => Proc.devRef .tc main_arg1 ∉ op.writes := by
  simp only [hostOps0, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

set_option maxHeartbeats 40000000 in
/-- or the sampled indices. -/
theorem keeps0_arg2 : (hostOps0 : List (HloOp τ sig (Elt F))).Forall fun op => Proc.devRef .tc main_arg2 ∉ op.writes := by
  simp only [hostOps0, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)

/-- So no operation after the region writes an array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  fin_cases w
  · exact (List.forall_iff_forall_mem.mp keeps1_v2) op hop
  · exact (List.forall_iff_forall_mem.mp keeps1_arg0) op hop
  · exact (List.forall_iff_forall_mem.mp keeps1_v35) op hop

/-- The region finds the three argument arrays as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [List.flatten_cons, List.flatten_nil, List.append_nil]; exact keeps0_arg0))
theorem V_main_arg1 (c : Dev nD) : V m c main_arg1 = m ((c : Thread nD τ).loc main_arg1) :=
  StableHlo.after_of_forall_not_mem (b := Proc.devRef .tc main_arg1) _ _ (List.forall_iff_forall_mem.mp (by
    simp only [List.flatten_cons, List.flatten_nil, List.append_nil]; exact keeps0_arg1))
theorem V_main_arg2 (c : Dev nD) : V m c main_arg2 = m ((c : Thread nD τ).loc main_arg2) :=
  StableHlo.after_of_forall_not_mem (b := Proc.devRef .tc main_arg2) _ _ (List.forall_iff_forall_mem.mp (by
    simp only [List.flatten_cons, List.flatten_nil, List.append_nil]; exact keeps0_arg2))

/-- The candidates and the sampled indices, which the region does not stage, end as launched: no operation after the
    region writes them either. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact keeps1_arg1)),
    Pipeline.withArrays_of_ne _ c (V0 m c) _ main_arg1 (by exact (by decide : ∀ w, Pipeline.arrRef spec0 w ≠ main_arg1))]
  exact V_main_arg1 m c
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [List.flatten_cons, List.flatten_nil, List.append_nil]; exact keeps1_arg2)),
    Pipeline.withArrays_of_ne _ c (V0 m c) _ main_arg2 (by exact (by decide : ∀ w, Pipeline.arrRef spec0 w ≠ main_arg2))]
  exact V_main_arg2 m c

/-! ## What the body finds in the input windows' buffers -/

/-- The candidates window's current staging buffer holds its block at every point. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]) t d).trans
    (by unfold Dat.fetched Dat.blockOf iblk; rw [A_eq]; try rfl)

/-- The logits window is fetched at every point, and no fetch of it is cut: its current staging buffer holds the whole
    block, nothing of what it held before. -/
theorem before0_1 (c : Dev nD) (t : Fin cfg0.N) (d) : (dats m 0 c).before 1 t d = blk1 m c t := by
  rw [(dats m 0 c).before_fetched 1 t (fetch0_1 t) d,
    (dats m 0 c).fetched_of_clip_none 1 t (clip1_none t) d (fun _ => Classical.choice (Elt.nonempty F _))]
  unfold Dat.fetched Dat.blockOf blk1 iblk; rw [A_eq]

/-! ## The body's triple -/

/-- The body's one store fills the output block. -/
theorem cover0_2 (p0 : Vec F S1x1x256 .f32) (y : S1x1x256.Idx) :
    ∃ pc ∈ ([⟨r2, p0⟩] : List (View.Piece (Elt F) S1x1x256 .f32)), y ∈ pc.1.set :=
  View.cover_of_tiled [⟨r2, p0⟩] S1x1x256.size (by rfl) y

set_option maxHeartbeats 4000000 in
/-- The kernel body on whole staging memrefs, the inputs' at contents x0, x1 and the output's at anything, runs to the
    continuation holding the inputs' as they were and the output's at out0_2 of them: it loads the two input blocks,
    loads the output block (a value it never uses) and stores the row sums over the whole output block. -/
theorem sound_kernel (c : Dev nD) (E : Set ℕ) (i : grid0.Coords)
    (arg1 : Memref sig .tc .vmem S256x10 .i32) (harg1 : arg1.IsWhole)
    (arg2 : Memref sig .tc .vmem S256x2048 .f32) (harg2 : arg2.IsWhole)
    (arg3 : Memref sig .tc .vmem S1x1x256 .f32) (harg3 : arg3.IsWhole)
    (x0 : Vec F S256x10 .i32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__term2_kernel i arg1 harg1 arg2 harg2 arg3 harg3) K := by
  simp only [cc0__term2_kernel_eq_skeleton]; unfold cc0__term2_kernel_skel
  simp only [k0_part1_eq_skeleton]
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 4000000 in
/-- The body at any point: the inputs' staging memrefs hold their blocks, so the body's triple applies; the region
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (blk1 m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- For any launch contents, from zero counters: every weakly fair execution of the program on the TensorCores terminates,
    and every final state has every array of the pipeline at what the library computes from the proof data and every
    other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The result and the frame from the run: the result buffer, which is no array of the pipeline, holds what the
    operations after the region compute; the logits, which the region stages as an input, and the candidates and
    sampled indices, which bypass it, end as launched. -/
theorem run_value : θ_run defs (onTc (τ := τ) (main (F := F))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v0 (Pipeline.mem_restRefs_of main_v0 (by decide) (by decide)),
     ((h c).1 1).trans (((dats m 0 c).arrAt_in 1 rfl _).trans ((A_eq m c 1).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩) (run_main m ρ)

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.KernelIdeal.Hand

end
-- ==== Proof.KTerms.lean ====
/- The host operations of the kernel's program as pure functions of the three inputs: the logits x : f32[512,100000],
   the candidates cd : i32[512,10], the sampled tail indices sp : i32[100]. Each definition is the composition of the
   printed operations that produce the named value, in the printed order and with the printed side conditions.

   valid[b,k]      = (cd[b,k] ≥ 0), signed;
   candMasked[b,k] = cd[b,k] where valid, else -1;
   uniqF[b,k]      = 1 where valid[b,k] and no j < k has valid[b,j] and cd[b,j] = cd[b,k], else 0;
   gath[b,k]       = clip(x[b, cd[b,k] where valid else 0]) (the gather normalises a negative index by +100000 and
                     returns the NaN pattern out of range), clip v = min 20 (max (-20) v);
   cardPre[b]      = Σ_k uniqF[b,k];   sumlm[b] = Σ_k gath[b,k]·uniqF[b,k];
   t1of card s     = softplus(-(s / max card 1));
   t2of out        = the region's 2×1×256 output read as 512 values;
   idxFull[s]      = 2000 + sp[s];   tail[b,s] = clip(x[b, idxFull[s]]);
   isCand[b,s]     = ∃ k, cd[b,k] = idxFull[s] ∧ valid[b,k];
   t3of tl ic [b]  = (Σ_s softplus(tl[b,s])·(1 - ic[b,s]))·980;
   resOf t1 t2 t3  = (Σ_b (t1[b] + t2[b]) + t3[b]) / 512.

   softplus v, as printed: select (v-0 ≠ v-0) (v+0) (max v 0 + log1p (exp (-(|v-0|)))). -/
import proofs.«406286_j15479062135299_3_alg».proof.Proof.Gen.KernelIdeal

noncomputable section

namespace Cert.KernelIdeal.Terms

open Cert.KernelIdeal Cert.KernelIdeal.Gen
open Idealize.ShloMosaic

variable {F : FTy → Type} [FloatOps F]

/-! ## Shared pieces -/

/-- min 20 (max (-20) v) over a 512×10 array, the bounds scalars broadcast. -/
def clip512x10 (v : FVec F S512x10 .f32) : FVec F S512x10 .f32 :=
  minimumf (broadcastInDim S512x10 ![] bcast_S_S512x10 (id (constant S_ .f32 0x41A00000#32)))
    (maximumf (broadcastInDim S512x10 ![] bcast_S_S512x10 (id (constant S_ .f32 0xC1A00000#32))) v)

/-- min 20 (max (-20) v) over a 512×100 array. -/
def clip512x100 (v : FVec F S512x100 .f32) : FVec F S512x100 .f32 :=
  minimumf (broadcastInDim S512x100 ![] bcast_S_S512x100 (id (constant S_ .f32 0x41A00000#32)))
    (maximumf (broadcastInDim S512x100 ![] bcast_S_S512x100 (id (constant S_ .f32 0xC1A00000#32))) v)

/-- The printed softplus over 512 values: select (v-0 ≠ v-0) (v+0) (max v 0 + log1p (exp (-(|v-0|)))). -/
def softplus512 (v : FVec F S512 .f32) : FVec F S512 .f32 :=
  select
    (cmpf .une (subf v (broadcastInDim S512 ![] bcast_S_S512 (constant S_ .f32 0x00000000#32)))
      (subf v (broadcastInDim S512 ![] bcast_S_S512 (constant S_ .f32 0x00000000#32))))
    (addf v (broadcastInDim S512 ![] bcast_S_S512 (constant S_ .f32 0x00000000#32)))
    (addf (maximumf v (broadcastInDim S512 ![] bcast_S_S512 (constant S_ .f32 0x00000000#32)))
      (Host.log1p (Host.exp (Host.negf (Host.absf
        (subf v (broadcastInDim S512 ![] bcast_S_S512 (constant S_ .f32 0x00000000#32))))))))

/-- The printed softplus over a 512×100 array. -/
def softplus512x100 (v : FVec F S512x100 .f32) : FVec F S512x100 .f32 :=
  select
    (cmpf .une (subf v (broadcastInDim S512x100 ![] bcast_S_S512x100 (constant S_ .f32 0x00000000#32)))
      (subf v (broadcastInDim S512x100 ![] bcast_S_S512x100 (constant S_ .f32 0x00000000#32))))
    (addf v (broadcastInDim S512x100 ![] bcast_S_S512x100 (constant S_ .f32 0x00000000#32)))
    (addf (maximumf v (broadcastInDim S512x100 ![] bcast_S_S512x100 (constant S_ .f32 0x00000000#32)))
      (Host.log1p (Host.exp (Host.negf (Host.absf
        (subf v (broadcastInDim S512x100 ![] bcast_S_S512x100 (constant S_ .f32 0x00000000#32))))))))

/-! ## Before the region -/

/-- valid[b,k] = (cd[b,k] ≥ 0), signed. -/
def valid (cd : IVec S512x10 32) : IVec S512x10 1 :=
  cmpi .sge cd (broadcastInDim S512x10 ![] bcast_S_S512x10 (constantI S_ 32 0#32))

/-- cd where valid, else -1: the region's first operand. -/
def candMasked (cd : IVec S512x10 32) : IVec S512x10 32 :=
  select (valid cd) cd (broadcastInDim S512x10 ![] bcast_S_S512x10 (id (constantI S_ 32 4294967295#32)))

/-- lower[k,j] = (k > j) over 10×10. -/
def lower : IVec S10x10 1 :=
  cmpi .sgt
    (broadcastInDim S10x10 ![0, 1] bcast_S10x1_S10x10_0_1 (broadcastInDim S10x1 ![0] bcast_S10_S10x1_0 (iotaInDim S10 32 0)))
    (broadcastInDim S10x10 ![0, 1] bcast_S1x10_S10x10_0_1 (broadcastInDim S1x10 ![1] bcast_S10_S1x10_1 (iotaInDim S10 32 0)))

/-- eq[b,k,j] = (cd[b,k] = cd[b,j]). -/
def eqKJ (cd : IVec S512x10 32) : IVec S512x10x10 1 :=
  cmpi .eq
    (broadcastInDim S512x10x10 ![0, 1, 2] bcast_S512x10x1_S512x10x10_0_1_2
      (broadcastInDim S512x10x1 ![0, 1] bcast_S512x10_S512x10x1_0_1 cd))
    (broadcastInDim S512x10x10 ![0, 1, 2] bcast_S512x1x10_S512x10x10_0_1_2
      (broadcastInDim S512x1x10 ![0, 2] bcast_S512x10_S512x1x10_0_2 cd))

/-- dup[b,k] = ∃ j, cd[b,k] = cd[b,j] ∧ k > j ∧ valid[b,j]: the or-reduction along j from false. -/
def dup (cd : IVec S512x10 32) : IVec S512x10 1 :=
  Host.reduce IntOp.ori
    (andi
      (andi (eqKJ cd)
        (broadcastInDim S512x10x10 ![0, 1, 2] bcast_S1x10x10_S512x10x10_0_1_2
          (broadcastInDim S1x10x10 ![1, 2] bcast_S10x10_S1x10x10_1_2 lower)))
      (broadcastInDim S512x10x10 ![0, 1, 2] bcast_S512x1x10_S512x10x10_0_1_2
        (broadcastInDim S512x1x10 ![0, 2] bcast_S512x10_S512x1x10_0_2 (valid cd))))
    (constantI S_ 1 0#1) reducesTo_S512x10x10_S512x10_d2 h_S_

/-- uniq[b,k] = valid[b,k] ∧ ¬dup[b,k], as a bit. -/
def uniqB (cd : IVec S512x10 32) : IVec S512x10 1 := andi (valid cd) (noti (dup cd))

/-- uniq as a float: 1 or 0. -/
def uniqF (cd : IVec S512x10 32) : FVec F S512x10 .f32 := uitofp .f32 (uniqB cd)

/-- cd where valid, else 0. -/
def candSafe (cd : IVec S512x10 32) : IVec S512x10 32 :=
  select (valid cd) cd (broadcastInDim S512x10 ![] bcast_S_S512x10 (id (constantI S_ 32 0#32)))

/-- The gather's column index: a negative one has 100000 added. -/
def gIdx (cd : IVec S512x10 32) : IVec S512x10 32 :=
  select (cmpi .slt (candSafe cd) (broadcastInDim S512x10 ![] bcast_S_S512x10 (constantI S_ 32 0#32)))
    (addi (candSafe cd) (broadcastInDim S512x10 ![] bcast_S_S512x10 (constantI S_ 32 100000#32)))
    (candSafe cd)

/-- The same, with a trailing unit axis: the gather's index operand. -/
def gIdx3 (cd : IVec S512x10 32) : IVec S512x10x1 32 := shapeCast S512x10x1 (gIdx cd) shapeCasts_S512x10_S512x10x1

/-- The index is in range: 0 ≤ i ≤ 99999, and-reduced over the unit axis from true. -/
def gInb (cd : IVec S512x10 32) : IVec S512x10 1 :=
  Host.reduce IntOp.andi
    (andi
      (cmpi .sge (gIdx3 cd) (broadcastInDim S512x10x1 ![] bcast_S_S512x10x1 (constantI S_ 32 0#32)))
      (cmpi .sle (gIdx3 cd)
        (broadcastInDim S512x10x1 ![0, 1, 2] bcast_S1x1x1_S512x10x1_0_1_2
          (broadcastInDim S1x1x1 ![2] bcast_S1_S1x1x1_2 (constantI S1 32 99999#32)))))
    (constantI S_ 1 1#1) reducesTo_S512x10x1_S512x10_d2 h_S_

/-- x[b, idx[b,k]] where the index is in range, the NaN pattern elsewhere. -/
def gathRaw (x : FVec F S512x100000 .f32) (cd : IVec S512x10 32) : FVec F S512x10 .f32 :=
  select (gInb cd)
    (Host.gather gather_S512x100000_S512x10x1_S512x10_n_1_0_0_1_2_11 x (gIdx3 cd))
    (broadcastInDim S512x10 ![] bcast_S_S512x10 (constant S_ .f32 0x7FC00000#32))

/-- The clipped gather. -/
def gath (x : FVec F S512x100000 .f32) (cd : IVec S512x10 32) : FVec F S512x10 .f32 := clip512x10 (gathRaw x cd)

/-- Σ_k uniq[b,k], from 0. -/
def cardPre (cd : IVec S512x10 32) : FVec F S512 .f32 :=
  Host.reduceAdd (uniqF (F := F) cd) (constant S_ .f32 0x00000000#32) reducesTo_S512x10_S512_d1 h_S_

/-- Σ_k gath[b,k]·uniq[b,k], from 0. -/
def sumlm (x : FVec F S512x100000 .f32) (cd : IVec S512x10 32) : FVec F S512 .f32 :=
  Host.reduceAdd (mulf (gath x cd) (uniqF cd)) (constant S_ .f32 0x00000000#32) reducesTo_S512x10_S512_d1 h_S_

/-- softplus(-(s / max card 1)). -/
def t1of (card s : FVec F S512 .f32) : FVec F S512 .f32 :=
  softplus512 (Host.negf (Host.divf s
    (maximumf card (broadcastInDim S512 ![] bcast_S_S512 (constant S_ .f32 0x3F800000#32)))))

/-! ## After the region -/

/-- The region's output, 2×1×256, read as 512 values in row-major order. -/
def t2of (out : FVec F S2x1x256 .f32) : FVec F S512 .f32 := shapeCast S512 out shapeCasts_S2x1x256_S512

/-- 2000 + sp[s]. -/
def idxFull (sp : IVec S100 32) : IVec S100 32 :=
  addi (broadcastInDim S100 ![] bcast_S_S100 (constantI S_ 32 2000#32)) sp

/-- The take's column index: a negative one has 100000 added. -/
def tIdx (sp : IVec S100 32) : IVec S100 32 :=
  select (cmpi .slt (idxFull sp) (broadcastInDim S100 ![] bcast_S_S100 (constantI S_ 32 0#32)))
    (addi (idxFull sp) (broadcastInDim S100 ![] bcast_S_S100 (constantI S_ 32 100000#32)))
    (idxFull sp)

/-- The same, with a trailing unit axis: the gather's index operand. -/
def tIdx2 (sp : IVec S100 32) : IVec S100x1 32 := broadcastInDim S100x1 ![0] bcast_S100_S100x1_0 (tIdx sp)

/-- The index is in range: 0 ≤ i ≤ 99999, and-reduced over the unit axis from true. -/
def tInb (sp : IVec S100 32) : IVec S100 1 :=
  Host.reduce IntOp.andi
    (andi
      (cmpi .sge (tIdx2 sp) (broadcastInDim S100x1 ![] bcast_S_S100x1 (constantI S_ 32 0#32)))
      (cmpi .sle (tIdx2 sp)
        (broadcastInDim S100x1 ![0, 1] bcast_S1x1_S100x1_0_1
          (broadcastInDim S1x1 ![1] bcast_S1_S1x1_1 (constantI S1 32 99999#32)))))
    (constantI S_ 1 1#1) reducesTo_S100x1_S100_d1 h_S_

/-- x[b, idx[s]] where the index is in range, the NaN pattern elsewhere. -/
def tailRaw (x : FVec F S512x100000 .f32) (sp : IVec S100 32) : FVec F S512x100 .f32 :=
  select (broadcastInDim S512x100 ![1] bcast_S100_S512x100_1 (tInb sp))
    (Host.gather gather_S512x100000_S100x1_S512x100_0_1_n_n_1_1_5121 x (tIdx2 sp))
    (broadcastInDim S512x100 ![] bcast_S_S512x100 (constant S_ .f32 0x7FC00000#32))

/-- The clipped tail sample. -/
def tail (x : FVec F S512x100000 .f32) (sp : IVec S100 32) : FVec F S512x100 .f32 := clip512x100 (tailRaw x sp)

/-- isCand[b,s] = ∃ k, cd[b,k] = idxFull[s] ∧ valid[b,k]: the or-reduction along k from false. -/
def isCand (cd : IVec S512x10 32) (sp : IVec S100 32) : IVec S512x100 1 :=
  Host.reduce IntOp.ori
    (andi
      (cmpi .eq
        (broadcastInDim S512x10x100 ![0, 1, 2] bcast_S512x10x1_S512x10x100_0_1_2
          (broadcastInDim S512x10x1 ![0, 1] bcast_S512x10_S512x10x1_0_1 cd))
        (broadcastInDim S512x10x100 ![0, 1, 2] bcast_S1x1x100_S512x10x100_0_1_2
          (broadcastInDim S1x1x100 ![2] bcast_S100_S1x1x100_2 (idxFull sp))))
      (broadcastInDim S512x10x100 ![0, 1, 2] bcast_S512x10x1_S512x10x100_0_1_2
        (broadcastInDim S512x10x1 ![0, 1] bcast_S512x10_S512x10x1_0_1 (valid cd))))
    (constantI S_ 1 0#1) reducesTo_S512x10x100_S512x100_d1 h_S_

/-- (Σ_s softplus(tl[b,s])·(1 - ic[b,s]))·980. -/
def t3of (tl : FVec F S512x100 .f32) (ic : IVec S512x100 1) : FVec F S512 .f32 :=
  mulf
    (Host.reduceAdd (mulf (softplus512x100 tl) (uitofp .f32 (noti ic))) (constant S_ .f32 0x00000000#32)
      reducesTo_S512x100_S512_d1 h_S_)
    (broadcastInDim S512 ![] bcast_S_S512 (constant S_ .f32 0x44750000#32))

/-- (Σ_b (t1[b] + t2[b]) + t3[b]) / 512. -/
def resOf (t1 t2 t3 : FVec F S512 .f32) : FVec F S_ .f32 :=
  Host.divf
    (Host.reduceAdd (addf (addf t1 t2) t3) (constant S_ .f32 0x00000000#32) reducesTo_S512_S_d0 h_S_)
    (constant S_ .f32 0x44000000#32)

end Cert.KernelIdeal.Terms

end
-- ==== Proof.KHead.lean ====
/- What the host operations before the region leave in two of the buffers the rest reads, as functions of the
   candidate table the program is launched with: the presence flags (cd ≥ 0, signed) and the masked candidate table
   (cd where present, else -1), the region's first operand. -/
import proofs.«406286_j15479062135299_3_alg».proof.Proof.KIBase
import proofs.«406286_j15479062135299_3_alg».proof.Proof.KTerms
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

set_option maxRecDepth 8192 in
set_option maxHeartbeats 1600000 in
/-- The presence flags the region's surroundings read: `cd ≥ 0`, signed, of the launched candidate table. -/
theorem V_valid (c : Dev nD) :
    V m c main_call0_v1 = Terms.valid (m ((c : Thread nD τ).loc main_arg1)) := by
  dsimp only [V, V0]
  simp only [Gen.hostOps0, List.flatten_cons, List.flatten_nil, List.append_nil]
  after_results_simp
  rfl

set_option maxRecDepth 8192 in
set_option maxHeartbeats 1600000 in
/-- The region's first operand: the launched candidate table where present, `-1` elsewhere. -/
theorem V_candMasked (c : Dev nD) :
    V m c main_call0_v2 = Terms.candMasked (m ((c : Thread nD τ).loc main_arg1)) := by
  dsimp only [V, V0]
  simp only [Gen.hostOps0, List.flatten_cons, List.flatten_nil, List.append_nil]
  after_results_simp
  rfl

end Cert.KernelIdeal.Hand

end
-- ==== Proof.KHeadT1.lean ====
/- The kernel's program before its region, read at the first term. The 87 host operations there are taken in three
   consecutive stretches, each stated over any contents it starts from: up to the distinct-candidate flags
   (valid ∧ ¬dup, as a number), up to the clipped gather of the logits at the candidates' columns, and from the two row
   sums to softplus (-(sum / max count 1)). Composed, the buffer of the first term holds that function of the
   logits and the candidates. -/
import proofs.«406286_j15479062135299_3_alg».proof.Proof.KIBase
import proofs.«406286_j15479062135299_3_alg».proof.Proof.KTerms
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- Operations 1 … 29: the presence flags, the masked candidates, the pairwise comparisons, the duplicate flags, the
    distinct-candidate flags as numbers. -/
def hs1 : List (HloOp τ sig (Elt F)) :=
  [ TRef.nullary (.of main_call0_c : StableHlo.TRef sig ⟨S_, .i32⟩) (constantI S_ 32 0#32),
    TRef.unary (.of main_call0_c : StableHlo.TRef sig ⟨S_, .i32⟩) (.of main_call0_v0 : StableHlo.TRef sig ⟨S512x10, .i32⟩) (broadcastInDim S512x10 ![] bcast_S_S512x10),
    TRef.binary (.of main_arg1 : StableHlo.TRef sig ⟨S512x10, .i32⟩) (.of main_call0_v0 : StableHlo.TRef sig ⟨S512x10, .i32⟩) (.of main_call0_v1 : StableHlo.TRef sig ⟨S512x10, .i1⟩) (cmpi .sge),
    TRef.nullary (.of main_call0_c_0 : StableHlo.TRef sig ⟨S_, .i32⟩) (constantI S_ 32 4294967295#32),
    TRef.unary (.of main_call0_c_0 : StableHlo.TRef sig ⟨S_, .i32⟩) (.of main_call0_call0_v0 : StableHlo.TRef sig ⟨S_, .i32⟩) id,
    TRef.unary (.of main_call0_call0_v0 : StableHlo.TRef sig ⟨S_, .i32⟩) (.of main_call0_call0_v1 : StableHlo.TRef sig ⟨S512x10, .i32⟩) (broadcastInDim S512x10 ![] bcast_S_S512x10),
    TRef.ternary (.of main_call0_v1 : StableHlo.TRef sig ⟨S512x10, .i1⟩) (.of main_arg1 : StableHlo.TRef sig ⟨S512x10, .i32⟩) (.of main_call0_call0_v1 : StableHlo.TRef sig ⟨S512x10, .i32⟩) (.of main_call0_v2 : StableHlo.TRef sig ⟨S512x10, .i32⟩) select,
    TRef.nullary (.of main_call0_v3 : StableHlo.TRef sig ⟨S10, .i32⟩) (iotaInDim S10 32 0),
    TRef.unary (.of main_call0_v3 : StableHlo.TRef sig ⟨S10, .i32⟩) (.of main_call0_v4 : StableHlo.TRef sig ⟨S10x1, .i32⟩) (broadcastInDim S10x1 ![0] bcast_S10_S10x1_0),
    TRef.unary (.of main_call0_v3 : StableHlo.TRef sig ⟨S10, .i32⟩) (.of main_call0_v5 : StableHlo.TRef sig ⟨S1x10, .i32⟩) (broadcastInDim S1x10 ![1] bcast_S10_S1x10_1),
    TRef.unary (.of main_call0_v4 : StableHlo.TRef sig ⟨S10x1, .i32⟩) (.of main_call0_v6 : StableHlo.TRef sig ⟨S10x10, .i32⟩) (broadcastInDim S10x10 ![0, 1] bcast_S10x1_S10x10_0_1),
    TRef.unary (.of main_call0_v5 : StableHlo.TRef sig ⟨S1x10, .i32⟩) (.of main_call0_v7 : StableHlo.TRef sig ⟨S10x10, .i32⟩) (broadcastInDim S10x10 ![0, 1] bcast_S1x10_S10x10_0_1),
    TRef.binary (.of main_call0_v6 : StableHlo.TRef sig ⟨S10x10, .i32⟩) (.of main_call0_v7 : StableHlo.TRef sig ⟨S10x10, .i32⟩) (.of main_call0_v8 : StableHlo.TRef sig ⟨S10x10, .i1⟩) (cmpi .sgt),
    TRef.unary (.of main_arg1 : StableHlo.TRef sig ⟨S512x10, .i32⟩) (.of main_call0_v9 : StableHlo.TRef sig ⟨S512x10x1, .i32⟩) (broadcastInDim S512x10x1 ![0, 1] bcast_S512x10_S512x10x1_0_1),
    TRef.unary (.of main_arg1 : StableHlo.TRef sig ⟨S512x10, .i32⟩) (.of main_call0_v10 : StableHlo.TRef sig ⟨S512x1x10, .i32⟩) (broadcastInDim S512x1x10 ![0, 2] bcast_S512x10_S512x1x10_0_2),
    TRef.unary (.of main_call0_v9 : StableHlo.TRef sig ⟨S512x10x1, .i32⟩) (.of main_call0_v11 : StableHlo.TRef sig ⟨S512x10x10, .i32⟩) (broadcastInDim S512x10x10 ![0, 1, 2] bcast_S512x10x1_S512x10x10_0_1_2),
    TRef.unary (.of main_call0_v10 : StableHlo.TRef sig ⟨S512x1x10, .i32⟩) (.of main_call0_v12 : StableHlo.TRef sig ⟨S512x10x10, .i32⟩) (broadcastInDim S512x10x10 ![0, 1, 2] bcast_S512x1x10_S512x10x10_0_1_2),
    TRef.binary (.of main_call0_v11 : StableHlo.TRef sig ⟨S512x10x10, .i32⟩) (.of main_call0_v12 : StableHlo.TRef sig ⟨S512x10x10, .i32⟩) (.of main_call0_v13 : StableHlo.TRef sig ⟨S512x10x10, .i1⟩) (cmpi .eq),
    TRef.unary (.of main_call0_v8 : StableHlo.TRef sig ⟨S10x10, .i1⟩) (.of main_call0_v14 : StableHlo.TRef sig ⟨S1x10x10, .i1⟩) (broadcastInDim S1x10x10 ![1, 2] bcast_S10x10_S1x10x10_1_2),
    TRef.unary (.of main_call0_v14 : StableHlo.TRef sig ⟨S1x10x10, .i1⟩) (.of main_call0_v15 : StableHlo.TRef sig ⟨S512x10x10, .i1⟩) (broadcastInDim S512x10x10 ![0, 1, 2] bcast_S1x10x10_S512x10x10_0_1_2),
    TRef.binary (.of main_call0_v13 : StableHlo.TRef sig ⟨S512x10x10, .i1⟩) (.of main_call0_v15 : StableHlo.TRef sig ⟨S512x10x10, .i1⟩) (.of main_call0_v16 : StableHlo.TRef sig ⟨S512x10x10, .i1⟩) andi,
    TRef.unary (.of main_call0_v1 : StableHlo.TRef sig ⟨S512x10, .i1⟩) (.of main_call0_v17 : StableHlo.TRef sig ⟨S512x1x10, .i1⟩) (broadcastInDim S512x1x10 ![0, 2] bcast_S512x10_S512x1x10_0_2),
    TRef.unary (.of main_call0_v17 : StableHlo.TRef sig ⟨S512x1x10, .i1⟩) (.of main_call0_v18 : StableHlo.TRef sig ⟨S512x10x10, .i1⟩) (broadcastInDim S512x10x10 ![0, 1, 2] bcast_S512x1x10_S512x10x10_0_1_2),
    TRef.binary (.of main_call0_v16 : StableHlo.TRef sig ⟨S512x10x10, .i1⟩) (.of main_call0_v18 : StableHlo.TRef sig ⟨S512x10x10, .i1⟩) (.of main_call0_v19 : StableHlo.TRef sig ⟨S512x10x10, .i1⟩) andi,
    TRef.nullary (.of main_call0_c_1 : StableHlo.TRef sig ⟨S_, .i1⟩) (constantI S_ 1 0#1),
    TRef.binary (.of main_call0_v19 : StableHlo.TRef sig ⟨S512x10x10, .i1⟩) (.of main_call0_c_1 : StableHlo.TRef sig ⟨S_, .i1⟩) (.of main_call0_v20 : StableHlo.TRef sig ⟨S512x10, .i1⟩) (fun x v => Host.reduce IntOp.ori x v reducesTo_S512x10x10_S512x10_d2 h_S_),
    TRef.unary (.of main_call0_v20 : StableHlo.TRef sig ⟨S512x10, .i1⟩) (.of main_call0_v21 : StableHlo.TRef sig ⟨S512x10, .i1⟩) noti,
    TRef.binary (.of main_call0_v1 : StableHlo.TRef sig ⟨S512x10, .i1⟩) (.of main_call0_v21 : StableHlo.TRef sig ⟨S512x10, .i1⟩) (.of main_call0_v22 : StableHlo.TRef sig ⟨S512x10, .i1⟩) andi,
    TRef.unary (.of main_call0_v22 : StableHlo.TRef sig ⟨S512x10, .i1⟩) (.of main_call0_v23 : StableHlo.TRef sig ⟨S512x10, .f32⟩) (uitofp .f32) ]

/-- Operations 30 … 63: the safe columns, the gather with its range check, the clip. -/
def hs2 : List (HloOp τ sig (Elt F)) :=
  [ TRef.nullary (.of main_call0_c_2 : StableHlo.TRef sig ⟨S_, .i32⟩) (constantI S_ 32 0#32),
    TRef.unary (.of main_call0_c_2 : StableHlo.TRef sig ⟨S_, .i32⟩) (.of main_call0_call1_v0 : StableHlo.TRef sig ⟨S_, .i32⟩) id,
    TRef.unary (.of main_call0_call1_v0 : StableHlo.TRef sig ⟨S_, .i32⟩) (.of main_call0_call1_v1 : StableHlo.TRef sig ⟨S512x10, .i32⟩) (broadcastInDim S512x10 ![] bcast_S_S512x10),
    TRef.ternary (.of main_call0_v1 : StableHlo.TRef sig ⟨S512x10, .i1⟩) (.of main_arg1 : StableHlo.TRef sig ⟨S512x10, .i32⟩) (.of main_call0_call1_v1 : StableHlo.TRef sig ⟨S512x10, .i32⟩) (.of main_call0_v24 : StableHlo.TRef sig ⟨S512x10, .i32⟩) select,
    TRef.nullary (.of main_call0_call2_c : StableHlo.TRef sig ⟨S_, .i32⟩) (constantI S_ 32 0#32),
    TRef.unary (.of main_call0_call2_c : StableHlo.TRef sig ⟨S_, .i32⟩) (.of main_call0_call2_v0 : StableHlo.TRef sig ⟨S512x10, .i32⟩) (broadcastInDim S512x10 ![] bcast_S_S512x10),
    TRef.binary (main_call0_call1.v2 : StableHlo.TRef sig ⟨S512x10, .i32⟩) (.of main_call0_call2_v0 : StableHlo.TRef sig ⟨S512x10, .i32⟩) (.of main_call0_call2_v1 : StableHlo.TRef sig ⟨S512x10, .i1⟩) (cmpi .slt),
    TRef.nullary (.of main_call0_call2_c_0 : StableHlo.TRef sig ⟨S_, .i32⟩) (constantI S_ 32 100000#32),
    TRef.unary (.of main_call0_call2_c_0 : StableHlo.TRef sig ⟨S_, .i32⟩) (.of main_call0_call2_v2 : StableHlo.TRef sig ⟨S512x10, .i32⟩) (broadcastInDim S512x10 ![] bcast_S_S512x10),
    TRef.binary (main_call0_call1.v2 : StableHlo.TRef sig ⟨S512x10, .i32⟩) (.of main_call0_call2_v2 : StableHlo.TRef sig ⟨S512x10, .i32⟩) (.of main_call0_call2_v3 : StableHlo.TRef sig ⟨S512x10, .i32⟩) addi,
    TRef.ternary (.of main_call0_call2_v1 : StableHlo.TRef sig ⟨S512x10, .i1⟩) (.of main_call0_call2_v3 : StableHlo.TRef sig ⟨S512x10, .i32⟩) (main_call0_call1.v2 : StableHlo.TRef sig ⟨S512x10, .i32⟩) (.of main_call0_call2_v4 : StableHlo.TRef sig ⟨S512x10, .i32⟩) select,
    TRef.reshape (.of main_call0_call2_v4 : StableHlo.TRef sig ⟨S512x10, .i32⟩) (.of main_call0_call2_v5 : StableHlo.TRef sig ⟨S512x10x1, .i32⟩) rfl shapeCasts_S512x10_S512x10x1,
    TRef.nullary (.of main_call0_call2_c_1 : StableHlo.TRef sig ⟨S1, .i32⟩) (constantI S1 32 99999#32),
    TRef.nullary (.of main_call0_call2_c_2 : StableHlo.TRef sig ⟨S_, .i32⟩) (constantI S_ 32 0#32),
    TRef.unary (.of main_call0_call2_c_2 : StableHlo.TRef sig ⟨S_, .i32⟩) (.of main_call0_call2_v6 : StableHlo.TRef sig ⟨S512x10x1, .i32⟩) (broadcastInDim S512x10x1 ![] bcast_S_S512x10x1),
    TRef.binary (.of main_call0_call2_v5 : StableHlo.TRef sig ⟨S512x10x1, .i32⟩) (.of main_call0_call2_v6 : StableHlo.TRef sig ⟨S512x10x1, .i32⟩) (.of main_call0_call2_v7 : StableHlo.TRef sig ⟨S512x10x1, .i1⟩) (cmpi .sge),
    TRef.unary (.of main_call0_call2_c_1 : StableHlo.TRef sig ⟨S1, .i32⟩) (.of main_call0_call2_v8 : StableHlo.TRef sig ⟨S1x1x1, .i32⟩) (broadcastInDim S1x1x1 ![2] bcast_S1_S1x1x1_2),
    TRef.unary (.of main_call0_call2_v8 : StableHlo.TRef sig ⟨S1x1x1, .i32⟩) (.of main_call0_call2_v9 : StableHlo.TRef sig ⟨S512x10x1, .i32⟩) (broadcastInDim S512x10x1 ![0, 1, 2] bcast_S1x1x1_S512x10x1_0_1_2),
    TRef.binary (.of main_call0_call2_v5 : StableHlo.TRef sig ⟨S512x10x1, .i32⟩) (.of main_call0_call2_v9 : StableHlo.TRef sig ⟨S512x10x1, .i32⟩) (.of main_call0_call2_v10 : StableHlo.TRef sig ⟨S512x10x1, .i1⟩) (cmpi .sle),
    TRef.binary (.of main_call0_call2_v7 : StableHlo.TRef sig ⟨S512x10x1, .i1⟩) (.of main_call0_call2_v10 : StableHlo.TRef sig ⟨S512x10x1, .i1⟩) (.of main_call0_call2_v11 : StableHlo.TRef sig ⟨S512x10x1, .i1⟩) andi,
    TRef.nullary (.of main_call0_call2_c_3 : StableHlo.TRef sig ⟨S_, .i1⟩) (constantI S_ 1 1#1),
    TRef.binary (.of main_call0_call2_v11 : StableHlo.TRef sig ⟨S512x10x1, .i1⟩) (.of main_call0_call2_c_3 : StableHlo.TRef sig ⟨S_, .i1⟩) (.of main_call0_call2_v12 : StableHlo.TRef sig ⟨S512x10, .i1⟩) (fun x v => Host.reduce IntOp.andi x v reducesTo_S512x10x1_S512x10_d2 h_S_),
    TRef.binary (.of main_arg0 : StableHlo.TRef sig ⟨S512x100000, .f32⟩) (.of main_call0_call2_v5 : StableHlo.TRef sig ⟨S512x10x1, .i32⟩) (.of main_call0_call2_v13 : StableHlo.TRef sig ⟨S512x10, .f32⟩) (fun x i => Host.gather gather_S512x100000_S512x10x1_S512x10_n_1_0_0_1_2_11 x i),
    TRef.nullary (.of main_call0_call2_cst : StableHlo.TRef sig ⟨S_, .f32⟩) (constant S_ .f32 0x7FC00000#32),
    TRef.unary (.of main_call0_call2_cst : StableHlo.TRef sig ⟨S_, .f32⟩) (.of main_call0_call2_v14 : StableHlo.TRef sig ⟨S512x10, .f32⟩) (broadcastInDim S512x10 ![] bcast_S_S512x10),
    TRef.ternary (.of main_call0_call2_v12 : StableHlo.TRef sig ⟨S512x10, .i1⟩) (.of main_call0_call2_v13 : StableHlo.TRef sig ⟨S512x10, .f32⟩) (.of main_call0_call2_v14 : StableHlo.TRef sig ⟨S512x10, .f32⟩) (.of main_call0_v25 : StableHlo.TRef sig ⟨S512x10, .f32⟩) select,
    TRef.nullary (.of main_call0_cst : StableHlo.TRef sig ⟨S_, .f32⟩) (constant S_ .f32 0xC1A00000#32),
    TRef.nullary (.of main_call0_cst_3 : StableHlo.TRef sig ⟨S_, .f32⟩) (constant S_ .f32 0x41A00000#32),
    TRef.unary (.of main_call0_cst : StableHlo.TRef sig ⟨S_, .f32⟩) (.of main_call0_call3_v0 : StableHlo.TRef sig ⟨S_, .f32⟩) id,
    TRef.unary (.of main_call0_call3_v0 : StableHlo.TRef sig ⟨S_, .f32⟩) (.of main_call0_call3_v1 : StableHlo.TRef sig ⟨S512x10, .f32⟩) (broadcastInDim S512x10 ![] bcast_S_S512x10),
    TRef.binary (.of main_call0_call3_v1 : StableHlo.TRef sig ⟨S512x10, .f32⟩) (main_call0_call2.v15 : StableHlo.TRef sig ⟨S512x10, .f32⟩) (.of main_call0_call3_v2 : StableHlo.TRef sig ⟨S512x10, .f32⟩) maximumf,
    TRef.unary (.of main_call0_cst_3 : StableHlo.TRef sig ⟨S_, .f32⟩) (.of main_call0_call3_v3 : StableHlo.TRef sig ⟨S_, .f32⟩) id,
    TRef.unary (.of main_call0_call3_v3 : StableHlo.TRef sig ⟨S_, .f32⟩) (.of main_call0_call3_v4 : StableHlo.TRef sig ⟨S512x10, .f32⟩) (broadcastInDim S512x10 ![] bcast_S_S512x10),
    TRef.binary (.of main_call0_call3_v4 : StableHlo.TRef sig ⟨S512x10, .f32⟩) (.of main_call0_call3_v2 : StableHlo.TRef sig ⟨S512x10, .f32⟩) (.of main_call0_v26 : StableHlo.TRef sig ⟨S512x10, .f32⟩) minimumf ]

/-- Operations 64 … 87: the two row sums, the quotient negated, softplus. -/
def hs3 : List (HloOp τ sig (Elt F)) :=
  [ TRef.nullary (.of main_call0_cst_4 : StableHlo.TRef sig ⟨S_, .f32⟩) (constant S_ .f32 0x00000000#32),
    TRef.binary (.of main_call0_v23 : StableHlo.TRef sig ⟨S512x10, .f32⟩) (.of main_call0_cst_4 : StableHlo.TRef sig ⟨S_, .f32⟩) (.of main_call0_v27 : StableHlo.TRef sig ⟨S512, .f32⟩) (fun x v => Host.reduceAdd x v reducesTo_S512x10_S512_d1 h_S_),
    TRef.nullary (.of main_call0_cst_5 : StableHlo.TRef sig ⟨S_, .f32⟩) (constant S_ .f32 0x3F800000#32),
    TRef.unary (.of main_call0_cst_5 : StableHlo.TRef sig ⟨S_, .f32⟩) (.of main_call0_v28 : StableHlo.TRef sig ⟨S512, .f32⟩) (broadcastInDim S512 ![] bcast_S_S512),
    TRef.binary (.of main_call0_v27 : StableHlo.TRef sig ⟨S512, .f32⟩) (.of main_call0_v28 : StableHlo.TRef sig ⟨S512, .f32⟩) (.of main_call0_v29 : StableHlo.TRef sig ⟨S512, .f32⟩) maximumf,
    TRef.binary main_call0_call3.v5 (.of main_call0_v23 : StableHlo.TRef sig ⟨S512x10, .f32⟩) (.of main_call0_v30 : StableHlo.TRef sig ⟨S512x10, .f32⟩) mulf,
    TRef.nullary (.of main_call0_cst_6 : StableHlo.TRef sig ⟨S_, .f32⟩) (constant S_ .f32 0x00000000#32),
    TRef.binary (.of main_call0_v30 : StableHlo.TRef sig ⟨S512x10, .f32⟩) (.of main_call0_cst_6 : StableHlo.TRef sig ⟨S_, .f32⟩) (.of main_call0_v31 : StableHlo.TRef sig ⟨S512, .f32⟩) (fun x v => Host.reduceAdd x v reducesTo_S512x10_S512_d1 h_S_),
    TRef.binary (.of main_call0_v31 : StableHlo.TRef sig ⟨S512, .f32⟩) (.of main_call0_v29 : StableHlo.TRef sig ⟨S512, .f32⟩) (.of main_call0_v32 : StableHlo.TRef sig ⟨S512, .f32⟩) Host.divf,
    TRef.unary (.of main_call0_v32 : StableHlo.TRef sig ⟨S512, .f32⟩) (.of main_call0_v33 : StableHlo.TRef sig ⟨S512, .f32⟩) Host.negf,
    TRef.nullary (.of main_call0_call4_cst : StableHlo.TRef sig ⟨S_, .f32⟩) (constant S_ .f32 0x00000000#32),
    TRef.unary (.of main_call0_call4_cst : StableHlo.TRef sig ⟨S_, .f32⟩) (.of main_call0_call4_v0 : StableHlo.TRef sig ⟨S512, .f32⟩) (broadcastInDim S512 ![] bcast_S_S512),
    TRef.binary (.of main_call0_v33 : StableHlo.TRef sig ⟨S512, .f32⟩) (.of main_call0_call4_v0 : StableHlo.TRef sig ⟨S512, .f32⟩) (.of main_call0_call4_v1 : StableHlo.TRef sig ⟨S512, .f32⟩) maximumf,
    TRef.unary (.of main_call0_call4_cst : StableHlo.TRef sig ⟨S_, .f32⟩) (.of main_call0_call4_v2 : StableHlo.TRef sig ⟨S512, .f32⟩) (broadcastInDim S512 ![] bcast_S_S512),
    TRef.binary (.of main_call0_v33 : StableHlo.TRef sig ⟨S512, .f32⟩) (.of main_call0_call4_v2 : StableHlo.TRef sig ⟨S512, .f32⟩) (.of main_call0_call4_v3 : StableHlo.TRef sig ⟨S512, .f32⟩) subf,
    TRef.binary (.of main_call0_call4_v3 : StableHlo.TRef sig ⟨S512, .f32⟩) (.of main_call0_call4_v3 : StableHlo.TRef sig ⟨S512, .f32⟩) (.of main_call0_call4_v4 : StableHlo.TRef sig ⟨S512, .i1⟩) (cmpf .une),
    TRef.unary (.of main_call0_call4_cst : StableHlo.TRef sig ⟨S_, .f32⟩) (.of main_call0_call4_v5 : StableHlo.TRef sig ⟨S512, .f32⟩) (broadcastInDim S512 ![] bcast_S_S512),
    TRef.binary (.of main_call0_v33 : StableHlo.TRef sig ⟨S512, .f32⟩) (.of main_call0_call4_v5 : StableHlo.TRef sig ⟨S512, .f32⟩) (.of main_call0_call4_v6 : StableHlo.TRef sig ⟨S512, .f32⟩) addf,
    TRef.unary (.of main_call0_call4_v3 : StableHlo.TRef sig ⟨S512, .f32⟩) (.of main_call0_call4_v7 : StableHlo.TRef sig ⟨S512, .f32⟩) Host.absf,
    TRef.unary (.of main_call0_call4_v7 : StableHlo.TRef sig ⟨S512, .f32⟩) (.of main_call0_call4_v8 : StableHlo.TRef sig ⟨S512, .f32⟩) Host.negf,
    TRef.unary (.of main_call0_call4_v8 : StableHlo.TRef sig ⟨S512, .f32⟩) (.of main_call0_call4_v9 : StableHlo.TRef sig ⟨S512, .f32⟩) Host.exp,
    TRef.unary (.of main_call0_call4_v9 : StableHlo.TRef sig ⟨S512, .f32⟩) (.of main_call0_call4_v10 : StableHlo.TRef sig ⟨S512, .f32⟩) Host.log1p,
    TRef.binary (.of main_call0_call4_v1 : StableHlo.TRef sig ⟨S512, .f32⟩) (.of main_call0_call4_v10 : StableHlo.TRef sig ⟨S512, .f32⟩) (.of main_call0_call4_v11 : StableHlo.TRef sig ⟨S512, .f32⟩) addf,
    TRef.ternary (.of main_call0_call4_v4 : StableHlo.TRef sig ⟨S512, .i1⟩) (.of main_call0_call4_v6 : StableHlo.TRef sig ⟨S512, .f32⟩) (.of main_call0_call4_v11 : StableHlo.TRef sig ⟨S512, .f32⟩) (.of main_call0_v34 : StableHlo.TRef sig ⟨S512, .f32⟩) select ]

set_option maxRecDepth 8192 in
theorem hostOps0_eq : (hostOps0 : List (HloOp τ sig (Elt F))) = hs1 ++ (hs2 ++ hs3) := rfl

/-- Two stretches run one after the other. -/
private theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-! ## The stretches, each over any contents it starts from

The reductions, the gather, the broadcasts and the reshape stay folded: no equation here looks inside them. -/

attribute [local irreducible] Host.reduceAdd Host.reduce Host.gather broadcastInDim

section Stretches
set_option maxRecDepth 8192
set_option maxHeartbeats 4000000

theorem hs1_v1 (W : Valuation τ sig (Elt F)) : after hs1 W (main_call0_v1 : DevRef τ sig) = Terms.valid (W (main_arg1 : DevRef τ sig)) := by
  unfold hs1; after_results_simp; rfl
theorem hs1_v23 (W : Valuation τ sig (Elt F)) : after hs1 W (main_call0_v23 : DevRef τ sig) = Terms.uniqF (F := F) (W (main_arg1 : DevRef τ sig)) := by
  unfold hs1; after_results_simp; rfl
theorem hs1_arg0 (W : Valuation τ sig (Elt F)) : after hs1 W (main_arg0 : DevRef τ sig) = W (main_arg0 : DevRef τ sig) := by
  unfold hs1; after_results_simp
theorem hs1_arg1 (W : Valuation τ sig (Elt F)) : after hs1 W (main_arg1 : DevRef τ sig) = W (main_arg1 : DevRef τ sig) := by
  unfold hs1; after_results_simp

theorem hs2_v26 (W : Valuation τ sig (Elt F)) (cd : IVec S512x10 32) (hv : W (main_call0_v1 : DevRef τ sig) = Terms.valid cd)
    (ha : W (main_arg1 : DevRef τ sig) = cd) : after hs2 W (main_call0_v26 : DevRef τ sig) = Terms.gath (F := F) (W (main_arg0 : DevRef τ sig)) cd := by
  unfold hs2; after_results_simp; rw [hv, ha]; rfl
theorem hs2_v23 (W : Valuation τ sig (Elt F)) : after hs2 W (main_call0_v23 : DevRef τ sig) = W (main_call0_v23 : DevRef τ sig) := by
  unfold hs2; after_results_simp

theorem hs3_v34 (W : Valuation τ sig (Elt F)) : after hs3 W (main_call0_v34 : DevRef τ sig)
    = Terms.t1of (F := F) (Host.reduceAdd (W (main_call0_v23 : DevRef τ sig)) (constant S_ .f32 0x00000000#32) reducesTo_S512x10_S512_d1 h_S_)
        (Host.reduceAdd (mulf (W (main_call0_v26 : DevRef τ sig)) (W (main_call0_v23 : DevRef τ sig))) (constant S_ .f32 0x00000000#32) reducesTo_S512x10_S512_d1 h_S_) := by
  unfold hs3; after_results_simp; rfl

end Stretches

/-! ## The first term when the region is entered -/

variable (m : (ℓ : Loc nD τ sig) → Buf (Elt F) ℓ)

/-- The buffer of the first term, when the region is entered: softplus (-(sumlm / max card 1)) of the logits and the candidates. -/
theorem V_t1 (c : Dev nD) : V m c main_call0_v34
    = Terms.t1of (Terms.cardPre (m ((c.tc : Thread nD τ).loc main_arg1)))
        (Terms.sumlm (m ((c.tc : Thread nD τ).loc main_arg0)) (m ((c.tc : Thread nD τ).loc main_arg1))) := by
  show after (List.flatten [hostOps0]) (fun b => m (c, b)) (main_call0_v34 : DevRef τ sig) = _
  rw [List.flatten_cons, List.flatten_nil, List.append_nil, hostOps0_eq, after_append', after_append']
  rw [hs3_v34, hs2_v23, hs2_v26 _ _ (hs1_v1 _) (hs1_arg1 _), hs1_v23, hs1_arg0]
  rfl

end Cert.KernelIdeal.Hand

end
-- ==== Proof.KResult.lean ====
/- The kernel program's result as a function of its inputs. After the region, 73 host operations read six buffers:
   term1 (written before the region), the region's output array, the logits, the sampled indices, the candidates and
   the presence flags; for ANY contents W of the buffers their composition is

     resOf (W term1) (t2of (W out)) (t3of (tail (W x) (W sp)) (isCand (W cd) (W sp)))

   provided the presence flags are those of the candidates (tail_after). At the region's exit the output array holds
   what the region's write-backs left, the logits array (a window that is only read) holds its entry contents, and
   every other buffer is as the host operations before the region left it: hence the program's result
   (kernel_result_of, kernel_result). -/
import proofs.«406286_j15479062135299_3_alg».proof.Proof.KIBase
import proofs.«406286_j15479062135299_3_alg».proof.Proof.KTerms
import proofs.«406286_j15479062135299_3_alg».proof.Proof.KIData
import proofs.«406286_j15479062135299_3_alg».proof.Proof.KIFrame
import proofs.«406286_j15479062135299_3_alg».proof.Proof.KHead
import proofs.«406286_j15479062135299_3_alg».proof.Proof.KHeadT1
import Idealize.ShloMosaic.Lib.StableHlo.Run
import Idealize.ShloMosaic.Lib.Pipeline.FrameSuffix
import Idealize.ShloMosaic.Lib.Pipeline.Kit
import Idealize.ShloMosaic.Lib.Pipeline.Cells

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ)

/-- The logits the program is launched with, on core c. -/
abbrev xin (c : Dev nD) : FVec F S512x100000 .f32 := m ((c.tc : Thread nD τ).loc main_arg0)
/-- The candidates the program is launched with. -/
abbrev cdin (c : Dev nD) : IVec S512x10 32 := m ((c.tc : Thread nD τ).loc main_arg1)
/-- The sampled tail indices the program is launched with. -/
abbrev spin (c : Dev nD) : IVec S100 32 := m ((c.tc : Thread nD τ).loc main_arg2)

/-- Reading back what was written through one typed reference is the identity. -/
theorem ofBuf_toBuf {T : BufTy} (x : TRef sig T) (v : T.Contents (Elt F)) : x.ofBuf (x.toBuf v) = v := by
  obtain ⟨r, rfl, h1, h2⟩ := x
  rfl

attribute [local irreducible] Host.reduce Host.gather Host.reduceAdd in
set_option maxRecDepth 8192 in
set_option maxHeartbeats 800000 in
/-- The 73 host operations after the region, from any buffer contents W whose presence flags are those of its
    candidates: the result buffer holds the mean over the rows of term1 + term2 + term3, term2 the region's output
    read as 512 values, term3 computed from the logits, the sampled indices, the candidates and the flags. -/
theorem tail_after (W : Valuation τ sig (Elt F))
    (hv : W (Proc.devRef .tc main_call0_v1) = Terms.valid (W (Proc.devRef .tc main_arg1))) :
    StableHlo.after (Gen.hostOps1 (F := F)) W (Proc.devRef .tc main_v0)
      = Terms.resOf (W (Proc.devRef .tc main_call0_v34)) (Terms.t2of (W (Proc.devRef .tc main_call0_v35)))
          (Terms.t3of (Terms.tail (W (Proc.devRef .tc main_arg0)) (W (Proc.devRef .tc main_arg2)))
            (Terms.isCand (W (Proc.devRef .tc main_arg1)) (W (Proc.devRef .tc main_arg2)))) := by
  simp only [Gen.hostOps1]
  after_results_simp
  simp only [ofBuf_toBuf, hv]
  simp only [Terms.resOf, Terms.t2of, Terms.t3of, Terms.tail, Terms.tailRaw, Terms.tInb, Terms.tIdx2, Terms.tIdx, Terms.idxFull,
    Terms.isCand, Terms.clip512x100, Terms.softplus512x100]
  rfl

/-- The program's result for any proof data of the region: given what the host operations before the region leave
    in term1's buffer (t1), in the presence flags and in the three argument buffers, and that the region's logits
    window starts from the logits buffer, the result buffer holds resOf t1 (t2of (the output array at the region's
    exit)) (t3of …). The logits window is only read, so its array is at its entry contents at the exit. -/
theorem kernel_result_of
    (dats' : (p : Fin 1) → (c : Dev nD) → Pipeline.Dat τ (Elt F) Unit ℕ (UR sig nD τ) ℕ (cfgs p) c) (c : Dev nD)
    (t1 : FVec F S512 .f32)
    (hA : (dats' 0 c).A 1 = V m c main_arg0)
    (h34 : V m c main_call0_v34 = t1)
    (hv : V m c main_call0_v1 = Terms.valid (cdin m c))
    (h0 : V m c main_arg0 = xin m c) (h1 : V m c main_arg1 = cdin m c) (h2 : V m c main_arg2 = spin m c) :
    Pipeline.afterTail₀ cfgs dats' 0 (V0 m) [Gen.hostOps1] c main_v0
      = Terms.resOf t1 (Terms.t2of ((dats' 0 c).arrAt 2 cfg0.N))
          (Terms.t3of (Terms.tail (xin m c) (spin m c)) (Terms.isCand (cdin m c) (spin m c))) := by
  unfold Pipeline.afterTail₀
  show StableHlo.after (Gen.hostOps1 (F := F))
      (Pipeline.withArrays spec0 c (V0 m c) fun w => (dats' 0 c).arrAt w cfg0.N) (Proc.devRef .tc main_v0) = _
  have e34 := (Pipeline.withArrays_of_ne spec0 c (V0 m c) (fun w => (dats' 0 c).arrAt w cfg0.N) main_call0_v34 (by decide)).trans h34
  have ev := (Pipeline.withArrays_of_ne spec0 c (V0 m c) (fun w => (dats' 0 c).arrAt w cfg0.N) main_call0_v1 (by decide)).trans hv
  have e1 := (Pipeline.withArrays_of_ne spec0 c (V0 m c) (fun w => (dats' 0 c).arrAt w cfg0.N) main_arg1 (by decide)).trans h1
  have e2 := (Pipeline.withArrays_of_ne spec0 c (V0 m c) (fun w => (dats' 0 c).arrAt w cfg0.N) main_arg2 (by decide)).trans h2
  have e0 : Pipeline.withArrays spec0 c (V0 m c) (fun w => (dats' 0 c).arrAt w cfg0.N) (Proc.devRef .tc main_arg0) = xin m c :=
    (Pipeline.withArrays_arr spec0 Gen.launch0.win.arr_inj c (V0 m c) (fun w => (dats' 0 c).arrAt w cfg0.N) 1).trans
      (((dats' 0 c).arrAt_in 1 rfl cfg0.N).trans (hA.trans h0))
  have e35 : Pipeline.withArrays spec0 c (V0 m c) (fun w => (dats' 0 c).arrAt w cfg0.N) (Proc.devRef .tc main_call0_v35)
      = (dats' 0 c).arrAt 2 cfg0.N :=
    Pipeline.withArrays_arr spec0 Gen.launch0.win.arr_inj c (V0 m c) (fun w => (dats' 0 c).arrAt w cfg0.N) 2
  rw [tail_after _ (ev.trans (congrArg Terms.valid e1.symm)), e34, e35, e0, e1, e2]

/-- The program's result for any proof data of the region whose logits window starts from the logits buffer:
    term1 = softplus(-(sumlm / max card 1)) of the launched logits and candidates, term2 the region's output array at
    its exit read as 512 values, term3 of the launched logits, sampled indices and candidates. -/
theorem kernel_result_any
    (dats' : (p : Fin 1) → (c : Dev nD) → Pipeline.Dat τ (Elt F) Unit ℕ (UR sig nD τ) ℕ (cfgs p) c) (c : Dev nD)
    (hA : (dats' 0 c).A 1 = V m c main_arg0) :
    Pipeline.afterTail₀ cfgs dats' 0 (V0 m) [Gen.hostOps1] c main_v0
      = Terms.resOf (Terms.t1of (Terms.cardPre (cdin m c)) (Terms.sumlm (xin m c) (cdin m c)))
          (Terms.t2of ((dats' 0 c).arrAt 2 cfg0.N))
          (Terms.t3of (Terms.tail (xin m c) (spin m c)) (Terms.isCand (cdin m c) (spin m c))) :=
  kernel_result_of m dats' c _ hA (V_t1 m c) (V_valid m c) (V_main_arg0 m c) (V_main_arg1 m c) (V_main_arg2 m c)

/-- The same at the region's own proof data, whose arrays start from the buffers' contents at the region's entry. -/
theorem kernel_result (c : Dev nD) :
    Pipeline.afterTail₀ cfgs (dats m) 0 (V0 m) [Gen.hostOps1] c main_v0
      = Terms.resOf (Terms.t1of (Terms.cardPre (cdin m c)) (Terms.sumlm (xin m c) (cdin m c)))
          (Terms.t2of ((dats m 0 c).arrAt 2 cfg0.N))
          (Terms.t3of (Terms.tail (xin m c) (spin m c)) (Terms.isCand (cdin m c) (spin m c))) :=
  kernel_result_any m (dats m) c (A_eq m c 1)

end Cert.KernelIdeal.Hand

end
-- ==== Proof.KRegionDef.lean ====
/- What the one region of the kernel's program leaves in its output array, as a function of the two arrays it
   reads: row `g` of the 2 x 1 x 256 output is the body's result on the `g`-th block of 256 rows of the candidate
   table and of the first 2048 columns of the logits. Definitions only; the theorem that the region leaves this
   array is stated over them elsewhere. -/
import proofs.«406286_j15479062135299_3_alg».proof.Proof.Gen.KernelIdeal.Skeleton
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [FloatOps F]

/-- Row `p` of the `g`-th block of 256 rows: row `256 * g + p` of the 512. -/
def rowOf (g : Fin 2) (p : Fin 256) : Fin 512 := ⟨256 * g.val + p.val, by omega⟩

theorem rowOf_val (g : Fin 2) (p : Fin 256) : (rowOf g p).val = 256 * g.val + p.val := rfl

/-- A column of the first 2048, as a column of the 100000. -/
def colOf (q : Fin 2048) : Fin 100000 := ⟨q.val, by omega⟩

theorem colOf_val (q : Fin 2048) : (colOf q).val = q.val := rfl

/-- The `g`-th block of the logits the region reads: rows `256 * g …`, the first 2048 columns. -/
def xblk (x : FVec F S512x100000 .f32) (g : Fin 2) : Vec F S256x2048 .f32 :=
  fun y => x (ix2 (rowOf g (y 0)) (colOf (y 1)))

/-- The `g`-th block of the masked candidate table the region reads: rows `256 * g …`, all 10 columns. -/
def cmblk (cm : IVec S512x10 32) (g : Fin 2) : Vec F S256x10 .i32 :=
  fun y => cm (ix2 (rowOf g (y 0)) (y 1))

theorem xblk_apply (x : FVec F S512x100000 .f32) (g : Fin 2) (p : Fin 256) (q : Fin 2048) :
    xblk x g (ix2 p q) = x (ix2 (rowOf g p) (colOf q)) := rfl

theorem cmblk_apply (cm : IVec S512x10 32) (g : Fin 2) (p : Fin 256) (k : Fin 10) :
    cmblk (F := F) cm g (ix2 p k) = cm (ix2 (rowOf g p) k) := rfl

/-- The output array of the region as one function of the masked candidate table and the logits: at `(g, 0, r)` the
    body's stored value — the lane sums of the masked softplus of the clipped block, laid out as a row — of block `g`,
    read at `(0, 0, r)`. -/
def outArr (cm : IVec S512x10 32) (x : FVec F S512x100000 .f32) : FVec F S2x1x256 .f32 :=
  fun i => k0_pay1 (k0_pay2 (xblk x (i 0))) (k0_pay3 (cmblk (F := F) cm (i 0))) (Scalar.ofBits .f32 0x00000000#32)
    (k0_pay4 (F := F)) (ix3 0 0 (i 2))

theorem outArr_apply (cm : IVec S512x10 32) (x : FVec F S512x100000 .f32) (g : Fin 2) (z : Fin 1) (r : Fin 256) :
    outArr cm x (ix3 g z r) = k0_pay1 (k0_pay2 (xblk x g)) (k0_pay3 (cmblk (F := F) cm g)) (Scalar.ofBits .f32 0x00000000#32)
      (k0_pay4 (F := F)) (ix3 0 0 r) := rfl

end Cert.KernelIdeal.Hand

end
-- ==== Proof.KRegion.lean ====
/- What the one region of the kernel's program leaves in its output array, index by index: row `g` of the 2 x 1 x 256
   array is written by grid point `g` alone, and holds the body's result on the `g`-th block of 256 rows of the masked
   candidate table and of the first 2048 columns of the logits. -/
import proofs.«406286_j15479062135299_3_alg».proof.Proof.KIData
import proofs.«406286_j15479062135299_3_alg».proof.Proof.KRegionDef
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-! ## The printed index maps over the grid -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- At grid point `t` every window's block index is `t` along the rows (the output's first axis) and `0` along every other
    axis: decided over the two points. -/
theorem idx_facts : ∀ t : Fin cfg0.N,
    win0_2.index t (0 : Fin 3) = t.val ∧ win0_2.index t (1 : Fin 3) = 0 ∧ win0_2.index t (2 : Fin 3) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The logits block at either point lies inside the array: nothing of it is cut. -/
theorem xsize_facts : ∀ t : Fin cfg0.N,
    win0_1.xsize (grid0.coords t) (0 : Fin 2) = 256 ∧ win0_1.xsize (grid0.coords t) (1 : Fin 2) = 2048 :=
  (by decide +kernel : ∀ t : Fin grid0.N, _)

/-! ## The input blocks at a point -/

/-- The logits block the body finds at point `t` is block `t` of the array. -/
theorem blk1_eq (c : Dev nD) (t : Fin cfg0.N) (g : Fin 2) (hg : g.val = t.val) :
    blk1 m c t = xblk (V m c main_arg0) g := by
  obtain ⟨-, -, -, -, -, e0, e1⟩ := idx_facts t
  obtain ⟨s0, s1⟩ := xsize_facts t
  funext y
  have hy0 : (y 0).val < 256 := (y 0).isLt
  have hy1 : (y 1).val < 2048 := (y 1).isLt
  have hmv : (cfg0.win 1).moved (cfg0.grid.coords t) y = true :=
    ((cfg0.win 1).moved_iff _ _).mpr fun a => by
      match a with
      | ⟨0, _⟩ => show (y 0).val < win0_1.xsize (grid0.coords t) (0 : Fin 2); omega
      | ⟨1, _⟩ => show (y 1).val < win0_1.xsize (grid0.coords t) (1 : Fin 2); omega
  unfold blk1 Pipeline.Window.fill
  rw [dif_pos hmv]
  unfold iblk
  rw [View.read_apply]
  show V m c main_arg0 _ = V m c main_arg0 _
  congr 1
  funext a
  apply Fin.ext
  match a with
  | ⟨0, _⟩ => show win0_1.index t (0 : Fin 2) * 256 + 1 * (y 0).val = 256 * g.val + (y 0).val; omega
  | ⟨1, _⟩ => show win0_1.index t (1 : Fin 2) * 2048 + 1 * (y 1).val = (y 1).val; omega

/-- The candidate block the body finds at point `t` is block `t` of the masked candidate table. -/
theorem blk0_eq (c : Dev nD) (t : Fin cfg0.N) (g : Fin 2) (hg : g.val = t.val) :
    (iblk m c 0 t : Vec F S256x10 .i32) = cmblk (F := F) (V m c main_call0_v2) g := by
  obtain ⟨-, -, -, e0, e1, -⟩ := idx_facts t
  funext y
  have hy0 : (y 0).val < 256 := (y 0).isLt
  have hy1 : (y 1).val < 10 := (y 1).isLt
  unfold iblk
  rw [View.read_apply]
  show V m c main_call0_v2 _ = V m c main_call0_v2 _
  congr 1
  funext a
  apply Fin.ext
  match a with
  | ⟨0, _⟩ => show win0_0.index t (0 : Fin 2) * 256 + 1 * (y 0).val = 256 * g.val + (y 0).val; omega
  | ⟨1, _⟩ => show win0_0.index t (1 : Fin 2) * 10 + 1 * (y 1).val = (y 1).val; omega

/-! ## What a point writes back -/

/-- The array function at an index whose row is `g` and whose lane is `r`. -/
theorem outArr_at (cm : IVec S512x10 32) (x : FVec F S512x100000 .f32) (i : S2x1x256.Idx) (g : Fin 2) (r : Fin 256)
    (hg : (i 0).val = g.val) (hr : (i 2).val = r.val) :
    outArr cm x i = k0_pay1 (k0_pay2 (xblk x g)) (k0_pay3 (cmblk (F := F) cm g)) (Scalar.ofBits .f32 0x00000000#32)
      (k0_pay4 (F := F)) (ix3 0 0 r) := by
  have h0 : i 0 = g := Fin.ext hg
  have h2 : i 2 = r := Fin.ext hr
  unfold outArr
  rw [h0, h2]

/-- WHAT POINT `t` WRITES BACK is block `t` of `outArr` of the two arrays as the region finds them. -/
theorem flushed2_eq (c : Dev nD) (t : Fin cfg0.N) :
    (dats m 0 c).flushed 2 t
      = ((cfg0.win 2).blk t).view.read (Elt F) (outArr (V m c main_call0_v2) (V m c main_arg0)) := by
  show (cfg0.win 2).cut (grid0.coords t) ((dats m 0 c).after 2 t) = _
  rw [after0_2]
  unfold out0_2
  rw [View.canon_unit_zero zeros3]
  simp only [View.ld_unit_zero (S := S256x2048) zeros2, View.ld_unit_zero (S := S256x10) zeros2]
  have hN : cfg0.N = 2 := N_0
  have htl : t.val < 2 := by have := t.isLt; omega
  obtain ⟨e0, e1, e2, -⟩ := idx_facts t
  rw [blk1_eq m c t ⟨t.val, htl⟩ rfl, blk0_eq m c t ⟨t.val, htl⟩ rfl]
  funext j
  have hj0 : (j 0).val < 1 := (j 0).isLt
  have hj1 : (j 1).val < 1 := (j 1).isLt
  have hj2 : (j 2).val < 256 := (j 2).isLt
  rw [View.read_apply]
  show _ = outArr (V m c main_call0_v2) (V m c main_arg0) (((cfg0.win 2).blk t).view.emb j)
  rw [outArr_at (V m c main_call0_v2) (V m c main_arg0) _ ⟨t.val, htl⟩ ⟨(j 2).val, hj2⟩
    (by show win0_2.index t (0 : Fin 3) * 1 + 1 * (j 0).val = t.val; omega)
    (by show win0_2.index t (2 : Fin 3) * 256 + 1 * (j 2).val = (j 2).val; omega)]
  have hjx : j = ix3 (0 : Fin 1) (0 : Fin 1) (⟨(j 2).val, hj2⟩ : Fin 256) := by
    funext a
    apply Fin.ext
    match a with
    | ⟨0, _⟩ => show (j 0).val = 0; omega
    | ⟨1, _⟩ => show (j 1).val = 0; omega
    | ⟨2, _⟩ => rfl
  exact congrArg (k0_pay1 (k0_pay2 (xblk (V m c main_arg0) ⟨t.val, htl⟩))
    (k0_pay3 (cmblk (F := F) (V m c main_call0_v2) ⟨t.val, htl⟩)) (Scalar.ofBits .f32 0x00000000#32) (k0_pay4 (F := F))) hjx

/-! ## The blocks cover the array -/

/-- An index of the array is in point `t`'s block iff each coordinate is in the block's range on its axis. -/
theorem mem_blk2 (t : Fin cfg0.N) (i : S2x1x256.Idx) :
    i ∈ ((cfg0.win 2).blk t).view.set ↔ ∀ a : Fin 3, win0_2.index t a * S1x1x256.size a ≤ (i a).val ∧ (i a).val < win0_2.index t a * S1x1x256.size a + S1x1x256.size a := by
  show i ∈ ((View.whole main_call0_v35).slice (win0_2.rect t)).set ↔ _
  rw [View.set_slice_whole, Rect.mem_set_unit]
  exact Iff.rfl

/-- Row `g` of the array is point `g`'s block: every index is covered. -/
theorem cover2 (i : S2x1x256.Idx) : ∃ t : Fin cfg0.N, (cfg0.win 2).flush t = true ∧ i ∈ ((cfg0.win 2).blk t).view.set := by
  have hN : cfg0.N = 2 := N_0
  have hi0 : (i 0).val < 2 := (i 0).isLt
  have hi1 : (i 1).val < 1 := (i 1).isLt
  have hi2 : (i 2).val < 256 := (i 2).isLt
  have ht : (i 0).val < cfg0.N := by rw [hN]; exact hi0
  refine ⟨⟨(i 0).val, ht⟩, flush0_2 _, ?_⟩
  rw [mem_blk2]
  obtain ⟨e0, e1, e2, -⟩ := idx_facts ⟨(i 0).val, ht⟩
  have e0 : win0_2.index ⟨(i 0).val, ht⟩ (0 : Fin 3) = (i 0).val := e0
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 256 ≤ (i 2).val ∧ (i 2).val < win0_2.index _ (2 : Fin 3) * 256 + 256; rw [e2]; omega

/-! ## The array after the region -/

/-- THE ARRAY the region leaves: `outArr` of the masked candidate table and the logits as the region finds them. -/
theorem region_out (c : Dev nD) :
    (dats m 0 c).arrAt 2 cfg0.N = outArr (V m c main_call0_v2) (V m c main_arg0) :=
  (dats m 0 c).arrAt_eq_of_cover 2 (outArr (V m c main_call0_v2) (V m c main_arg0))
    (fun t _ => flushed2_eq m c t) cover2

end Cert.KernelIdeal.Hand

end
-- ==== Proof.RTerms.lean ====
/- The reference program's host operations as pure functions of its three arguments: the logits
   x : f32[512,100000], the candidate columns cd : i32[512,10] and the sampled tail columns sp : i32[100].
   Each function is the composition of the printed operations that produce the named buffer, over the
   printed side conditions, so that the run's composed term at that buffer is the function by unfolding. -/
import proofs.«406286_j15479062135299_3_alg».proof.Proof.Gen.ReferenceIdeal

noncomputable section

namespace Cert.ReferenceIdeal.Terms

open Cert.ReferenceIdeal Cert.ReferenceIdeal.Gen Idealize.ShloMosaic

variable {F : FTy → Type} [FloatOps F]

/-! ## Shared pieces -/

/-- The scalar 0.0 spread over a shape. -/
abbrev zerosF (s : Shape) (h : S_.BroadcastsInDim s (![] : Fin 0 → Fin s.rank)) : FVec F s .f32 :=
  broadcastInDim s ![] h (constant S_ .f32 0x00000000#32)

/-- Softplus as printed, at any shape: with d = v - 0, select (d ≠ d) (v + 0) (max v 0 + log1p (exp (-|d|))). -/
def softplusAt (s : Shape) (h : S_.BroadcastsInDim s (![] : Fin 0 → Fin s.rank)) (v : FVec F s .f32) : FVec F s .f32 :=
  select (cmpf .une (subf v (zerosF s h)) (subf v (zerosF s h)))
    (addf v (zerosF s h))
    (addf (maximumf v (zerosF s h)) (Host.log1p (Host.exp (Host.negf (Host.absf (subf v (zerosF s h)))))))

/-- The index column of a take along the 98000 tail columns: a negative index wrapped once by 98000, as a [100,1] table. -/
def takeIdx (sp : IVec S100 32) : IVec S100x1 32 :=
  broadcastInDim S100x1 ![0] bcast_S100_S100x1_0
    (select (cmpi .slt sp (broadcastInDim S100 ![] bcast_S_S100 (constantI S_ 32 0#32)))
      (addi sp (broadcastInDim S100 ![] bcast_S_S100 (constantI S_ 32 98000#32))) sp)

/-- Whether each wrapped index is inside 0 … 97999. -/
def takeOk (sp : IVec S100 32) : IVec S100 1 :=
  Host.reduce IntOp.andi
    (andi (cmpi .sge (takeIdx sp) (broadcastInDim S100x1 ![] bcast_S_S100x1 (constantI S_ 32 0#32)))
      (cmpi .sle (takeIdx sp)
        (broadcastInDim S100x1 ![0, 1] bcast_S1x1_S100x1_0_1
          (broadcastInDim S1x1 ![1] bcast_S1_S1x1_1 (constantI S1 32 97999#32)))))
    (constantI S_ 1 1#1) reducesTo_S100x1_S100_d1 h_S_

/-- The take of 100 of the 98000 tail columns: the gather where the index is inside, the NaN pattern elsewhere. -/
def takeAt (a : FVec F S512x98000 .f32) (sp : IVec S100 32) : FVec F S512x100 .f32 :=
  select (broadcastInDim S512x100 ![1] bcast_S100_S512x100_1 (takeOk sp))
    (Host.gather gather_S512x98000_S100x1_S512x100_0_1_n_n_1_1_5121 a (takeIdx sp))
    (broadcastInDim S512x100 ![] bcast_S_S512x100 (constant S_ .f32 0x7FC00000#32))

/-! ## The named buffers -/

/-- main_v0: the logits clipped to [-20, 20]. -/
def clipped (x : FVec F S512x100000 .f32) : FVec F S512x100000 .f32 :=
  minimumf (broadcastInDim S512x100000 ![] bcast_S_S512x100000 (id (constant S_ .f32 0x41A00000#32)))
    (maximumf (broadcastInDim S512x100000 ![] bcast_S_S512x100000 (id (constant S_ .f32 0xC1A00000#32))) x)

/-- main_v2: the candidate is present (signed cd ≥ 0). -/
def valid (cd : IVec S512x10 32) : IVec S512x10 1 :=
  cmpi .sge cd (broadcastInDim S512x10 ![] bcast_S_S512x10 (constantI S_ 32 0#32))

/-- main_v6: the candidate's column, 0 where absent. -/
def cols (cd : IVec S512x10 32) : IVec S512x10 32 :=
  select (valid cd) cd (broadcastInDim S512x10 ![] bcast_S_S512x10 (id (constantI S_ 32 0#32)))

/-- main_v5: the row number at each [b,k]. -/
def rowIota : IVec S512x10 32 :=
  broadcastInDim S512x10 ![0, 1] bcast_S512x1_S512x10_0_1
    (broadcastInDim S512x1 ![0] bcast_S512_S512x1_0 (iotaInDim S512 32 0))

/-- main_v13: the row number, a negative one wrapped once by 512. -/
def rowsW : IVec S512x10 32 :=
  select (cmpi .slt rowIota (broadcastInDim S512x10 ![] bcast_S_S512x10 (constantI S_ 32 0#32)))
    (addi rowIota (broadcastInDim S512x10 ![] bcast_S_S512x10 (constantI S_ 32 512#32))) rowIota

/-- main_v18: the column, a negative one wrapped once by 100000. -/
def colsW (cd : IVec S512x10 32) : IVec S512x10 32 :=
  select (cmpi .slt (cols cd) (broadcastInDim S512x10 ![] bcast_S_S512x10 (constantI S_ 32 0#32)))
    (addi (cols cd) (broadcastInDim S512x10 ![] bcast_S_S512x10 (constantI S_ 32 100000#32))) (cols cd)

/-- main_v21: the scatter's index table, (row, column) per [b,k]. -/
def scatIdx (cd : IVec S512x10 32) : IVec S512x10x2 32 :=
  concatenate S512x10x2 2
    [⟨S512x10x1, broadcastInDim S512x10x1 ![0, 1] bcast_S512x10_S512x10x1_0_1 rowsW⟩,
     ⟨S512x10x1, broadcastInDim S512x10x1 ![0, 1] bcast_S512x10_S512x10x1_0_1 (colsW cd)⟩]
    concatenates_S512x10x1_S512x10x1_S512x10x2_d2

/-- main_v22: the presence flags added into a zero array at (row, column). -/
def scat (cd : IVec S512x10 32) : FVec F S512x100000 .f32 :=
  Host.scatterAdd scatter_S512x100000_S512x10x2_S512x10_n_01_01_2
    (zerosF S512x100000 bcast_S_S512x100000) (scatIdx cd) (uitofp .f32 (valid cd))

/-- main_v25: 1.0 where some present candidate names the column, else 0.0. -/
def yMask (cd : IVec S512x10 32) : FVec F S512x100000 .f32 :=
  uitofp .f32 (cmpf .ogt (scat (F := F) cd) (zerosF S512x100000 bcast_S_S512x100000))

/-- main_v26: the row sums of the mask. -/
def card (cd : IVec S512x10 32) : FVec F S512 .f32 :=
  Host.reduceAdd (yMask (F := F) cd) (constant S_ .f32 0x00000000#32) reducesTo_S512x100000_S512_d1 h_S_

/-- main_v30: the row sums of the clipped logits under the mask. -/
def sumlm (x : FVec F S512x100000 .f32) (cd : IVec S512x10 32) : FVec F S512 .f32 :=
  Host.reduceAdd (mulf (clipped x) (yMask cd)) (constant S_ .f32 0x00000000#32) reducesTo_S512x100000_S512_d1 h_S_

/-- main_v33 from main_v26 and main_v30: softplus (-(sumlm / max card 1)). -/
def t1of (card sumlm : FVec F S512 .f32) : FVec F S512 .f32 :=
  softplusAt S512 bcast_S_S512
    (Host.negf (Host.divf sumlm (maximumf card (broadcastInDim S512 ![] bcast_S_S512 (constant S_ .f32 0x3F800000#32)))))

/-- main_v40: over the first 2000 columns, the row sums of softplus (clipped) · (1 - mask). -/
def t2 (x : FVec F S512x100000 .f32) (cd : IVec S512x10 32) : FVec F S512 .f32 :=
  Host.reduceAdd
    (mulf (softplusAt S512x2000 bcast_S_S512x2000 (extractStridedSlice S512x2000 ![0, 0] (clipped x) slices_S512x100000_S512x2000_0_0))
      (subf (broadcastInDim S512x2000 ![] bcast_S_S512x2000 (constant S_ .f32 0x3F800000#32))
        (extractStridedSlice S512x2000 ![0, 0] (yMask cd) slices_S512x100000_S512x2000_0_0)))
    (constant S_ .f32 0x00000000#32) reducesTo_S512x2000_S512_d1 h_S_

/-- main_v42: the clipped logits at the sampled tail columns. -/
def tail (x : FVec F S512x100000 .f32) (sp : IVec S100 32) : FVec F S512x100 .f32 :=
  takeAt (extractStridedSlice S512x98000 ![0, 2000] (clipped x) slices_S512x100000_S512x98000_0_2000) sp

/-- main_v44: the mask at the sampled tail columns. -/
def maskTail (cd : IVec S512x10 32) (sp : IVec S100 32) : FVec F S512x100 .f32 :=
  takeAt (extractStridedSlice S512x98000 ![0, 2000] (yMask cd) slices_S512x100000_S512x98000_0_2000) sp

/-- main_v46: the sampled tail column is a candidate's. -/
def isCand (cd : IVec S512x10 32) (sp : IVec S100 32) : IVec S512x100 1 :=
  cmpf .ogt (maskTail (F := F) cd sp) (zerosF S512x100 bcast_S_S512x100)

/-- main_v53 from main_v42 and main_v46: (the row sums of softplus tail · (not isCand)) · 980. -/
def t3of (tail : FVec F S512x100 .f32) (isCand : IVec S512x100 1) : FVec F S512 .f32 :=
  mulf
    (Host.reduceAdd (mulf (softplusAt S512x100 bcast_S_S512x100 tail) (uitofp .f32 (noti isCand)))
      (constant S_ .f32 0x00000000#32) reducesTo_S512x100_S512_d1 h_S_)
    (broadcastInDim S512 ![] bcast_S_S512 (constant S_ .f32 0x44750000#32))

/-- main_v57: the mean over the 512 rows of term1 + term2 + term3. -/
def resOf (t1 t2 t3 : FVec F S512 .f32) : FVec F S_ .f32 :=
  Host.divf (Host.reduceAdd (addf (addf t1 t2) t3) (constant S_ .f32 0x00000000#32) reducesTo_S512_S_d0 h_S_)
    (constant S_ .f32 0x44000000#32)

end Cert.ReferenceIdeal.Terms

end
-- ==== Proof.RefRun.lean ====
/- The reference program's @main as the list of its 168 host operations (the seven outlined functions' operations
   written at their call sites over each call's buffers), and its run read back: every weakly fair execution
   terminates with the result buffer at the composed pure functions of the three arguments' launch contents
   (RTerms), the arguments unchanged. The list is read in five consecutive stretches, each stated over any
   contents it starts from: up to the candidate mask, the first term, the second term, the two takes of the
   third term, and the rest. -/
import proofs.«406286_j15479062135299_3_alg».proof.Proof.RTerms
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- Operations 1 … 43: the clip, the presence flags, the scatter's index table, the scatter-add, the mask. -/
def segA : List (HloOp τ sig (Elt F)) :=
  [ nullary main_cst (constant S_ .f32 0xC1A00000#32),
    nullary main_cst_0 (constant S_ .f32 0x41A00000#32),
    TRef.unary (.of main_cst) main_call0.v0 id,
    TRef.unary main_call0.v0 main_call0.v1 (broadcastInDim S512x100000 ![] bcast_S_S512x100000),
    TRef.binary main_call0.v1 (.of main_arg0) main_call0.v2 maximumf,
    TRef.unary (.of main_cst_0) main_call0.v3 id,
    TRef.unary main_call0.v3 main_call0.v4 (broadcastInDim S512x100000 ![] bcast_S_S512x100000),
    TRef.binary main_call0.v4 main_call0.v2 main_call0.v5 minimumf,
    nullary main_c (constantI S_ 32 0#32),
    unary main_c main_v1 (broadcastInDim S512x10 ![] bcast_S_S512x10 : (⟨S_, .i32⟩ : BufTy).Contents (Elt F) → (⟨S512x10, .i32⟩ : BufTy).Contents (Elt F)),
    binary main_arg1 main_v1 main_v2 (cmpi .sge : (⟨S512x10, .i32⟩ : BufTy).Contents (Elt F) → (⟨S512x10, .i32⟩ : BufTy).Contents (Elt F) → (⟨S512x10, .i1⟩ : BufTy).Contents (Elt F)),
    nullary main_v3 (iotaInDim S512 32 0),
    unary main_v3 main_v4 (broadcastInDim S512x1 ![0] bcast_S512_S512x1_0 : (⟨S512, .i32⟩ : BufTy).Contents (Elt F) → (⟨S512x1, .i32⟩ : BufTy).Contents (Elt F)),
    unary main_v4 main_v5 (broadcastInDim S512x10 ![0, 1] bcast_S512x1_S512x10_0_1 : (⟨S512x1, .i32⟩ : BufTy).Contents (Elt F) → (⟨S512x10, .i32⟩ : BufTy).Contents (Elt F)),
    nullary main_c_1 (constantI S_ 32 0#32),
    TRef.unary (.of main_c_1) main_call1.v0 id,
    TRef.unary main_call1.v0 main_call1.v1 (broadcastInDim S512x10 ![] bcast_S_S512x10),
    TRef.ternary (.of main_v2) (.of main_arg1) main_call1.v1 main_call1.v2 select,
    nullary main_cst_2 (constant S_ .f32 0x00000000#32),
    unary main_cst_2 main_v7 (broadcastInDim S512x100000 ![] bcast_S_S512x100000 : (⟨S_, .f32⟩ : BufTy).Contents (Elt F) → (⟨S512x100000, .f32⟩ : BufTy).Contents (Elt F)),
    unary main_v2 main_v8 (uitofp .f32 : (⟨S512x10, .i1⟩ : BufTy).Contents (Elt F) → (⟨S512x10, .f32⟩ : BufTy).Contents (Elt F)),
    nullary main_c_3 (constantI S_ 32 0#32),
    unary main_c_3 main_v9 (broadcastInDim S512x10 ![] bcast_S_S512x10 : (⟨S_, .i32⟩ : BufTy).Contents (Elt F) → (⟨S512x10, .i32⟩ : BufTy).Contents (Elt F)),
    binary main_v5 main_v9 main_v10 (cmpi .slt : (⟨S512x10, .i32⟩ : BufTy).Contents (Elt F) → (⟨S512x10, .i32⟩ : BufTy).Contents (Elt F) → (⟨S512x10, .i1⟩ : BufTy).Contents (Elt F)),
    nullary main_c_4 (constantI S_ 32 512#32),
    unary main_c_4 main_v11 (broadcastInDim S512x10 ![] bcast_S_S512x10 : (⟨S_, .i32⟩ : BufTy).Contents (Elt F) → (⟨S512x10, .i32⟩ : BufTy).Contents (Elt F)),
    binary main_v5 main_v11 main_v12 (addi : (⟨S512x10, .i32⟩ : BufTy).Contents (Elt F) → (⟨S512x10, .i32⟩ : BufTy).Contents (Elt F) → (⟨S512x10, .i32⟩ : BufTy).Contents (Elt F)),
    ternary main_v10 main_v12 main_v5 main_v13 (select : (⟨S512x10, .i1⟩ : BufTy).Contents (Elt F) → (⟨S512x10, .i32⟩ : BufTy).Contents (Elt F) → (⟨S512x10, .i32⟩ : BufTy).Contents (Elt F) → (⟨S512x10, .i32⟩ : BufTy).Contents (Elt F)),
    nullary main_c_5 (constantI S_ 32 0#32),
    unary main_c_5 main_v14 (broadcastInDim S512x10 ![] bcast_S_S512x10 : (⟨S_, .i32⟩ : BufTy).Contents (Elt F) → (⟨S512x10, .i32⟩ : BufTy).Contents (Elt F)),
    binary main_v6 main_v14 main_v15 (cmpi .slt : (⟨S512x10, .i32⟩ : BufTy).Contents (Elt F) → (⟨S512x10, .i32⟩ : BufTy).Contents (Elt F) → (⟨S512x10, .i1⟩ : BufTy).Contents (Elt F)),
    nullary main_c_6 (constantI S_ 32 100000#32),
    unary main_c_6 main_v16 (broadcastInDim S512x10 ![] bcast_S_S512x10 : (⟨S_, .i32⟩ : BufTy).Contents (Elt F) → (⟨S512x10, .i32⟩ : BufTy).Contents (Elt F)),
    binary main_v6 main_v16 main_v17 (addi : (⟨S512x10, .i32⟩ : BufTy).Contents (Elt F) → (⟨S512x10, .i32⟩ : BufTy).Contents (Elt F) → (⟨S512x10, .i32⟩ : BufTy).Contents (Elt F)),
    ternary main_v15 main_v17 main_v6 main_v18 (select : (⟨S512x10, .i1⟩ : BufTy).Contents (Elt F) → (⟨S512x10, .i32⟩ : BufTy).Contents (Elt F) → (⟨S512x10, .i32⟩ : BufTy).Contents (Elt F) → (⟨S512x10, .i32⟩ : BufTy).Contents (Elt F)),
    unary main_v13 main_v19 (broadcastInDim S512x10x1 ![0, 1] bcast_S512x10_S512x10x1_0_1 : (⟨S512x10, .i32⟩ : BufTy).Contents (Elt F) → (⟨S512x10x1, .i32⟩ : BufTy).Contents (Elt F)),
    unary main_v18 main_v20 (broadcastInDim S512x10x1 ![0, 1] bcast_S512x10_S512x10x1_0_1 : (⟨S512x10, .i32⟩ : BufTy).Contents (Elt F) → (⟨S512x10x1, .i32⟩ : BufTy).Contents (Elt F)),
    binary main_v19 main_v20 main_v21 ((fun a b => concatenate S512x10x2 2 [⟨S512x10x1, a⟩, ⟨S512x10x1, b⟩] concatenates_S512x10x1_S512x10x1_S512x10x2_d2) : (⟨S512x10x1, .i32⟩ : BufTy).Contents (Elt F) → (⟨S512x10x1, .i32⟩ : BufTy).Contents (Elt F) → (⟨S512x10x2, .i32⟩ : BufTy).Contents (Elt F)),
    ternary main_v7 main_v21 main_v8 main_v22 ((fun x i u => Host.scatterAdd scatter_S512x100000_S512x10x2_S512x10_n_01_01_2 x i u) : (⟨S512x100000, .f32⟩ : BufTy).Contents (Elt F) → (⟨S512x10x2, .i32⟩ : BufTy).Contents (Elt F) → (⟨S512x10, .f32⟩ : BufTy).Contents (Elt F) → (⟨S512x100000, .f32⟩ : BufTy).Contents (Elt F)),
    nullary main_cst_7 (constant S_ .f32 0x00000000#32),
    unary main_cst_7 main_v23 (broadcastInDim S512x100000 ![] bcast_S_S512x100000 : (⟨S_, .f32⟩ : BufTy).Contents (Elt F) → (⟨S512x100000, .f32⟩ : BufTy).Contents (Elt F)),
    binary main_v22 main_v23 main_v24 (cmpf .ogt : (⟨S512x100000, .f32⟩ : BufTy).Contents (Elt F) → (⟨S512x100000, .f32⟩ : BufTy).Contents (Elt F) → (⟨S512x100000, .i1⟩ : BufTy).Contents (Elt F)),
    unary main_v24 main_v25 (uitofp .f32 : (⟨S512x100000, .i1⟩ : BufTy).Contents (Elt F) → (⟨S512x100000, .f32⟩ : BufTy).Contents (Elt F)) ]

/-- Operations 44 … 67: the mask's row sums, the masked row sums, their quotient negated, softplus. -/
def segB : List (HloOp τ sig (Elt F)) :=
  [ nullary main_cst_8 (constant S_ .f32 0x00000000#32),
    binary main_v25 main_cst_8 main_v26 ((fun x v => Host.reduceAdd x v reducesTo_S512x100000_S512_d1 h_S_) : (⟨S512x100000, .f32⟩ : BufTy).Contents (Elt F) → (⟨S_, .f32⟩ : BufTy).Contents (Elt F) → (⟨S512, .f32⟩ : BufTy).Contents (Elt F)),
    nullary main_cst_9 (constant S_ .f32 0x3F800000#32),
    unary main_cst_9 main_v27 (broadcastInDim S512 ![] bcast_S_S512 : (⟨S_, .f32⟩ : BufTy).Contents (Elt F) → (⟨S512, .f32⟩ : BufTy).Contents (Elt F)),
    binary main_v26 main_v27 main_v28 (maximumf : (⟨S512, .f32⟩ : BufTy).Contents (Elt F) → (⟨S512, .f32⟩ : BufTy).Contents (Elt F) → (⟨S512, .f32⟩ : BufTy).Contents (Elt F)),
    binary main_v0 main_v25 main_v29 (mulf : (⟨S512x100000, .f32⟩ : BufTy).Contents (Elt F) → (⟨S512x100000, .f32⟩ : BufTy).Contents (Elt F) → (⟨S512x100000, .f32⟩ : BufTy).Contents (Elt F)),
    nullary main_cst_10 (constant S_ .f32 0x00000000#32),
    binary main_v29 main_cst_10 main_v30 ((fun x v => Host.reduceAdd x v reducesTo_S512x100000_S512_d1 h_S_) : (⟨S512x100000, .f32⟩ : BufTy).Contents (Elt F) → (⟨S_, .f32⟩ : BufTy).Contents (Elt F) → (⟨S512, .f32⟩ : BufTy).Contents (Elt F)),
    binary main_v30 main_v28 main_v31 (Host.divf : (⟨S512, .f32⟩ : BufTy).Contents (Elt F) → (⟨S512, .f32⟩ : BufTy).Contents (Elt F) → (⟨S512, .f32⟩ : BufTy).Contents (Elt F)),
    unary main_v31 main_v32 (Host.negf : (⟨S512, .f32⟩ : BufTy).Contents (Elt F) → (⟨S512, .f32⟩ : BufTy).Contents (Elt F)),
    TRef.nullary main_call2.cst (constant S_ .f32 0x00000000#32),
    TRef.unary main_call2.cst main_call2.v0 (broadcastInDim S512 ![] bcast_S_S512),
    TRef.binary (.of main_v32) main_call2.v0 main_call2.v1 maximumf,
    TRef.unary main_call2.cst main_call2.v2 (broadcastInDim S512 ![] bcast_S_S512),
    TRef.binary (.of main_v32) main_call2.v2 main_call2.v3 subf,
    TRef.binary main_call2.v3 main_call2.v3 main_call2.v4 (cmpf .une),
    TRef.unary main_call2.cst main_call2.v5 (broadcastInDim S512 ![] bcast_S_S512),
    TRef.binary (.of main_v32) main_call2.v5 main_call2.v6 addf,
    TRef.unary main_call2.v3 main_call2.v7 Host.absf,
    TRef.unary main_call2.v7 main_call2.v8 Host.negf,
    TRef.unary main_call2.v8 main_call2.v9 Host.exp,
    TRef.unary main_call2.v9 main_call2.v10 Host.log1p,
    TRef.binary main_call2.v1 main_call2.v10 main_call2.v11 addf,
    TRef.ternary main_call2.v4 main_call2.v6 main_call2.v11 main_call2.v12 select ]

/-- Operations 68 … 89: the first 2000 columns, softplus, one minus the mask, the row sums. -/
def segC : List (HloOp τ sig (Elt F)) :=
  [ unary main_v0 main_v34 ((extractStridedSlice S512x2000 ![0, 0] · slices_S512x100000_S512x2000_0_0) : (⟨S512x100000, .f32⟩ : BufTy).Contents (Elt F) → (⟨S512x2000, .f32⟩ : BufTy).Contents (Elt F)),
    unary main_v25 main_v35 ((extractStridedSlice S512x2000 ![0, 0] · slices_S512x100000_S512x2000_0_0) : (⟨S512x100000, .f32⟩ : BufTy).Contents (Elt F) → (⟨S512x2000, .f32⟩ : BufTy).Contents (Elt F)),
    TRef.nullary main_call3.cst (constant S_ .f32 0x00000000#32),
    TRef.unary main_call3.cst main_call3.v0 (broadcastInDim S512x2000 ![] bcast_S_S512x2000),
    TRef.binary (.of main_v34) main_call3.v0 main_call3.v1 maximumf,
    TRef.unary main_call3.cst main_call3.v2 (broadcastInDim S512x2000 ![] bcast_S_S512x2000),
    TRef.binary (.of main_v34) main_call3.v2 main_call3.v3 subf,
    TRef.binary main_call3.v3 main_call3.v3 main_call3.v4 (cmpf .une),
    TRef.unary main_call3.cst main_call3.v5 (broadcastInDim S512x2000 ![] bcast_S_S512x2000),
    TRef.binary (.of main_v34) main_call3.v5 main_call3.v6 addf,
    TRef.unary main_call3.v3 main_call3.v7 Host.absf,
    TRef.unary main_call3.v7 main_call3.v8 Host.negf,
    TRef.unary main_call3.v8 main_call3.v9 Host.exp,
    TRef.unary main_call3.v9 main_call3.v10 Host.log1p,
    TRef.binary main_call3.v1 main_call3.v10 main_call3.v11 addf,
    TRef.ternary main_call3.v4 main_call3.v6 main_call3.v11 main_call3.v12 select,
    nullary main_cst_11 (constant S_ .f32 0x3F800000#32),
    unary main_cst_11 main_v37 (broadcastInDim S512x2000 ![] bcast_S_S512x2000 : (⟨S_, .f32⟩ : BufTy).Contents (Elt F) → (⟨S512x2000, .f32⟩ : BufTy).Contents (Elt F)),
    binary main_v37 main_v35 main_v38 (subf : (⟨S512x2000, .f32⟩ : BufTy).Contents (Elt F) → (⟨S512x2000, .f32⟩ : BufTy).Contents (Elt F) → (⟨S512x2000, .f32⟩ : BufTy).Contents (Elt F)),
    binary main_v36 main_v38 main_v39 (mulf : (⟨S512x2000, .f32⟩ : BufTy).Contents (Elt F) → (⟨S512x2000, .f32⟩ : BufTy).Contents (Elt F) → (⟨S512x2000, .f32⟩ : BufTy).Contents (Elt F)),
    nullary main_cst_12 (constant S_ .f32 0x00000000#32),
    binary main_v39 main_cst_12 main_v40 ((fun x v => Host.reduceAdd x v reducesTo_S512x2000_S512_d1 h_S_) : (⟨S512x2000, .f32⟩ : BufTy).Contents (Elt F) → (⟨S_, .f32⟩ : BufTy).Contents (Elt F) → (⟨S512, .f32⟩ : BufTy).Contents (Elt F)) ]

/-- Operations 90 … 140: the tail columns, the take of the clipped logits, the take of the mask, its comparison with zero. -/
def segD : List (HloOp τ sig (Elt F)) :=
  [ unary main_v0 main_v41 ((extractStridedSlice S512x98000 ![0, 2000] · slices_S512x100000_S512x98000_0_2000) : (⟨S512x100000, .f32⟩ : BufTy).Contents (Elt F) → (⟨S512x98000, .f32⟩ : BufTy).Contents (Elt F)),
    TRef.nullary main_call4.c (constantI S_ 32 0#32),
    TRef.unary main_call4.c main_call4.v0 (broadcastInDim S100 ![] bcast_S_S100),
    TRef.binary (.of main_arg2) main_call4.v0 main_call4.v1 (cmpi .slt),
    TRef.nullary main_call4.c_0 (constantI S_ 32 98000#32),
    TRef.unary main_call4.c_0 main_call4.v2 (broadcastInDim S100 ![] bcast_S_S100),
    TRef.binary (.of main_arg2) main_call4.v2 main_call4.v3 addi,
    TRef.ternary main_call4.v1 main_call4.v3 (.of main_arg2) main_call4.call0.v0 select,
    TRef.unary main_call4.call0.v0 main_call4.v5 (broadcastInDim S100x1 ![0] bcast_S100_S100x1_0),
    TRef.nullary main_call4.c_1 (constantI S1 32 97999#32),
    TRef.nullary main_call4.c_2 (constantI S_ 32 0#32),
    TRef.unary main_call4.c_2 main_call4.v6 (broadcastInDim S100x1 ![] bcast_S_S100x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S100x1 ![0, 1] bcast_S1x1_S100x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S100x1_S100_d1 h_S_),
    TRef.binary (.of main_v41) main_call4.v5 main_call4.v13 (fun x i => Host.gather gather_S512x98000_S100x1_S512x100_0_1_n_n_1_1_5121 x i),
    TRef.unary main_call4.v12 main_call4.v14 (broadcastInDim S512x100 ![1] bcast_S100_S512x100_1),
    TRef.nullary main_call4.cst (constant S_ .f32 0x7FC00000#32),
    TRef.unary main_call4.cst main_call4.v15 (broadcastInDim S512x100 ![] bcast_S_S512x100),
    TRef.ternary main_call4.v14 main_call4.v13 main_call4.v15 main_call4.v16 select,
    unary main_v25 main_v43 ((extractStridedSlice S512x98000 ![0, 2000] · slices_S512x100000_S512x98000_0_2000) : (⟨S512x100000, .f32⟩ : BufTy).Contents (Elt F) → (⟨S512x98000, .f32⟩ : BufTy).Contents (Elt F)),
    TRef.nullary main_call5.c (constantI S_ 32 0#32),
    TRef.unary main_call5.c main_call5.v0 (broadcastInDim S100 ![] bcast_S_S100),
    TRef.binary (.of main_arg2) main_call5.v0 main_call5.v1 (cmpi .slt),
    TRef.nullary main_call5.c_0 (constantI S_ 32 98000#32),
    TRef.unary main_call5.c_0 main_call5.v2 (broadcastInDim S100 ![] bcast_S_S100),
    TRef.binary (.of main_arg2) main_call5.v2 main_call5.v3 addi,
    TRef.ternary main_call5.v1 main_call5.v3 (.of main_arg2) main_call5.call0.v0 select,
    TRef.unary main_call5.call0.v0 main_call5.v5 (broadcastInDim S100x1 ![0] bcast_S100_S100x1_0),
    TRef.nullary main_call5.c_1 (constantI S1 32 97999#32),
    TRef.nullary main_call5.c_2 (constantI S_ 32 0#32),
    TRef.unary main_call5.c_2 main_call5.v6 (broadcastInDim S100x1 ![] bcast_S_S100x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S100x1 ![0, 1] bcast_S1x1_S100x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S100x1_S100_d1 h_S_),
    TRef.binary (.of main_v43) main_call5.v5 main_call5.v13 (fun x i => Host.gather gather_S512x98000_S100x1_S512x100_0_1_n_n_1_1_5121 x i),
    TRef.unary main_call5.v12 main_call5.v14 (broadcastInDim S512x100 ![1] bcast_S100_S512x100_1),
    TRef.nullary main_call5.cst (constant S_ .f32 0x7FC00000#32),
    TRef.unary main_call5.cst main_call5.v15 (broadcastInDim S512x100 ![] bcast_S_S512x100),
    TRef.ternary main_call5.v14 main_call5.v13 main_call5.v15 main_call5.v16 select,
    nullary main_cst_13 (constant S_ .f32 0x00000000#32),
    unary main_cst_13 main_v45 (broadcastInDim S512x100 ![] bcast_S_S512x100 : (⟨S_, .f32⟩ : BufTy).Contents (Elt F) → (⟨S512x100, .f32⟩ : BufTy).Contents (Elt F)),
    binary main_v44 main_v45 main_v46 (cmpf .ogt : (⟨S512x100, .f32⟩ : BufTy).Contents (Elt F) → (⟨S512x100, .f32⟩ : BufTy).Contents (Elt F) → (⟨S512x100, .i1⟩ : BufTy).Contents (Elt F)) ]

/-- Operations 141 … 168: softplus of the sampled tail, the row sums times 980, the three terms' sum, the mean. -/
def segE : List (HloOp τ sig (Elt F)) :=
  [ TRef.nullary main_call6.cst (constant S_ .f32 0x00000000#32),
    TRef.unary main_call6.cst main_call6.v0 (broadcastInDim S512x100 ![] bcast_S_S512x100),
    TRef.binary (.of main_v42) main_call6.v0 main_call6.v1 maximumf,
    TRef.unary main_call6.cst main_call6.v2 (broadcastInDim S512x100 ![] bcast_S_S512x100),
    TRef.binary (.of main_v42) main_call6.v2 main_call6.v3 subf,
    TRef.binary main_call6.v3 main_call6.v3 main_call6.v4 (cmpf .une),
    TRef.unary main_call6.cst main_call6.v5 (broadcastInDim S512x100 ![] bcast_S_S512x100),
    TRef.binary (.of main_v42) main_call6.v5 main_call6.v6 addf,
    TRef.unary main_call6.v3 main_call6.v7 Host.absf,
    TRef.unary main_call6.v7 main_call6.v8 Host.negf,
    TRef.unary main_call6.v8 main_call6.v9 Host.exp,
    TRef.unary main_call6.v9 main_call6.v10 Host.log1p,
    TRef.binary main_call6.v1 main_call6.v10 main_call6.v11 addf,
    TRef.ternary main_call6.v4 main_call6.v6 main_call6.v11 main_call6.v12 select,
    unary main_v46 main_v48 (noti : (⟨S512x100, .i1⟩ : BufTy).Contents (Elt F) → (⟨S512x100, .i1⟩ : BufTy).Contents (Elt F)),
    unary main_v48 main_v49 (uitofp .f32 : (⟨S512x100, .i1⟩ : BufTy).Contents (Elt F) → (⟨S512x100, .f32⟩ : BufTy).Contents (Elt F)),
    binary main_v47 main_v49 main_v50 (mulf : (⟨S512x100, .f32⟩ : BufTy).Contents (Elt F) → (⟨S512x100, .f32⟩ : BufTy).Contents (Elt F) → (⟨S512x100, .f32⟩ : BufTy).Contents (Elt F)),
    nullary main_cst_14 (constant S_ .f32 0x00000000#32),
    binary main_v50 main_cst_14 main_v51 ((fun x v => Host.reduceAdd x v reducesTo_S512x100_S512_d1 h_S_) : (⟨S512x100, .f32⟩ : BufTy).Contents (Elt F) → (⟨S_, .f32⟩ : BufTy).Contents (Elt F) → (⟨S512, .f32⟩ : BufTy).Contents (Elt F)),
    nullary main_cst_15 (constant S_ .f32 0x44750000#32),
    unary main_cst_15 main_v52 (broadcastInDim S512 ![] bcast_S_S512 : (⟨S_, .f32⟩ : BufTy).Contents (Elt F) → (⟨S512, .f32⟩ : BufTy).Contents (Elt F)),
    binary main_v51 main_v52 main_v53 (mulf : (⟨S512, .f32⟩ : BufTy).Contents (Elt F) → (⟨S512, .f32⟩ : BufTy).Contents (Elt F) → (⟨S512, .f32⟩ : BufTy).Contents (Elt F)),
    binary main_v33 main_v40 main_v54 (addf : (⟨S512, .f32⟩ : BufTy).Contents (Elt F) → (⟨S512, .f32⟩ : BufTy).Contents (Elt F) → (⟨S512, .f32⟩ : BufTy).Contents (Elt F)),
    binary main_v54 main_v53 main_v55 (addf : (⟨S512, .f32⟩ : BufTy).Contents (Elt F) → (⟨S512, .f32⟩ : BufTy).Contents (Elt F) → (⟨S512, .f32⟩ : BufTy).Contents (Elt F)),
    nullary main_cst_16 (constant S_ .f32 0x00000000#32),
    binary main_v55 main_cst_16 main_v56 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_17 (constant S_ .f32 0x44000000#32),
    binary main_v56 main_cst_17 main_v57 (Host.divf : (⟨S_, .f32⟩ : BufTy).Contents (Elt F) → (⟨S_, .f32⟩ : BufTy).Contents (Elt F) → (⟨S_, .f32⟩ : BufTy).Contents (Elt F)) ]

/-- @main's 168 operations, in order. -/
abbrev ops : List (HloOp τ sig (Elt F)) :=
  [ nullary main_cst (constant S_ .f32 0xC1A00000#32),
    nullary main_cst_0 (constant S_ .f32 0x41A00000#32),
    TRef.unary (.of main_cst) main_call0.v0 id,
    TRef.unary main_call0.v0 main_call0.v1 (broadcastInDim S512x100000 ![] bcast_S_S512x100000),
    TRef.binary main_call0.v1 (.of main_arg0) main_call0.v2 maximumf,
    TRef.unary (.of main_cst_0) main_call0.v3 id,
    TRef.unary main_call0.v3 main_call0.v4 (broadcastInDim S512x100000 ![] bcast_S_S512x100000),
    TRef.binary main_call0.v4 main_call0.v2 main_call0.v5 minimumf,
    nullary main_c (constantI S_ 32 0#32),
    unary main_c main_v1 (broadcastInDim S512x10 ![] bcast_S_S512x10 : (⟨S_, .i32⟩ : BufTy).Contents (Elt F) → (⟨S512x10, .i32⟩ : BufTy).Contents (Elt F)),
    binary main_arg1 main_v1 main_v2 (cmpi .sge : (⟨S512x10, .i32⟩ : BufTy).Contents (Elt F) → (⟨S512x10, .i32⟩ : BufTy).Contents (Elt F) → (⟨S512x10, .i1⟩ : BufTy).Contents (Elt F)),
    nullary main_v3 (iotaInDim S512 32 0),
    unary main_v3 main_v4 (broadcastInDim S512x1 ![0] bcast_S512_S512x1_0 : (⟨S512, .i32⟩ : BufTy).Contents (Elt F) → (⟨S512x1, .i32⟩ : BufTy).Contents (Elt F)),
    unary main_v4 main_v5 (broadcastInDim S512x10 ![0, 1] bcast_S512x1_S512x10_0_1 : (⟨S512x1, .i32⟩ : BufTy).Contents (Elt F) → (⟨S512x10, .i32⟩ : BufTy).Contents (Elt F)),
    nullary main_c_1 (constantI S_ 32 0#32),
    TRef.unary (.of main_c_1) main_call1.v0 id,
    TRef.unary main_call1.v0 main_call1.v1 (broadcastInDim S512x10 ![] bcast_S_S512x10),
    TRef.ternary (.of main_v2) (.of main_arg1) main_call1.v1 main_call1.v2 select,
    nullary main_cst_2 (constant S_ .f32 0x00000000#32),
    unary main_cst_2 main_v7 (broadcastInDim S512x100000 ![] bcast_S_S512x100000 : (⟨S_, .f32⟩ : BufTy).Contents (Elt F) → (⟨S512x100000, .f32⟩ : BufTy).Contents (Elt F)),
    unary main_v2 main_v8 (uitofp .f32 : (⟨S512x10, .i1⟩ : BufTy).Contents (Elt F) → (⟨S512x10, .f32⟩ : BufTy).Contents (Elt F)),
    nullary main_c_3 (constantI S_ 32 0#32),
    unary main_c_3 main_v9 (broadcastInDim S512x10 ![] bcast_S_S512x10 : (⟨S_, .i32⟩ : BufTy).Contents (Elt F) → (⟨S512x10, .i32⟩ : BufTy).Contents (Elt F)),
    binary main_v5 main_v9 main_v10 (cmpi .slt : (⟨S512x10, .i32⟩ : BufTy).Contents (Elt F) → (⟨S512x10, .i32⟩ : BufTy).Contents (Elt F) → (⟨S512x10, .i1⟩ : BufTy).Contents (Elt F)),
    nullary main_c_4 (constantI S_ 32 512#32),
    unary main_c_4 main_v11 (broadcastInDim S512x10 ![] bcast_S_S512x10 : (⟨S_, .i32⟩ : BufTy).Contents (Elt F) → (⟨S512x10, .i32⟩ : BufTy).Contents (Elt F)),
    binary main_v5 main_v11 main_v12 (addi : (⟨S512x10, .i32⟩ : BufTy).Contents (Elt F) → (⟨S512x10, .i32⟩ : BufTy).Contents (Elt F) → (⟨S512x10, .i32⟩ : BufTy).Contents (Elt F)),
    ternary main_v10 main_v12 main_v5 main_v13 (select : (⟨S512x10, .i1⟩ : BufTy).Contents (Elt F) → (⟨S512x10, .i32⟩ : BufTy).Contents (Elt F) → (⟨S512x10, .i32⟩ : BufTy).Contents (Elt F) → (⟨S512x10, .i32⟩ : BufTy).Contents (Elt F)),
    nullary main_c_5 (constantI S_ 32 0#32),
    unary main_c_5 main_v14 (broadcastInDim S512x10 ![] bcast_S_S512x10 : (⟨S_, .i32⟩ : BufTy).Contents (Elt F) → (⟨S512x10, .i32⟩ : BufTy).Contents (Elt F)),
    binary main_v6 main_v14 main_v15 (cmpi .slt : (⟨S512x10, .i32⟩ : BufTy).Contents (Elt F) → (⟨S512x10, .i32⟩ : BufTy).Contents (Elt F) → (⟨S512x10, .i1⟩ : BufTy).Contents (Elt F)),
    nullary main_c_6 (constantI S_ 32 100000#32),
    unary main_c_6 main_v16 (broadcastInDim S512x10 ![] bcast_S_S512x10 : (⟨S_, .i32⟩ : BufTy).Contents (Elt F) → (⟨S512x10, .i32⟩ : BufTy).Contents (Elt F)),
    binary main_v6 main_v16 main_v17 (addi : (⟨S512x10, .i32⟩ : BufTy).Contents (Elt F) → (⟨S512x10, .i32⟩ : BufTy).Contents (Elt F) → (⟨S512x10, .i32⟩ : BufTy).Contents (Elt F)),
    ternary main_v15 main_v17 main_v6 main_v18 (select : (⟨S512x10, .i1⟩ : BufTy).Contents (Elt F) → (⟨S512x10, .i32⟩ : BufTy).Contents (Elt F) → (⟨S512x10, .i32⟩ : BufTy).Contents (Elt F) → (⟨S512x10, .i32⟩ : BufTy).Contents (Elt F)),
    unary main_v13 main_v19 (broadcastInDim S512x10x1 ![0, 1] bcast_S512x10_S512x10x1_0_1 : (⟨S512x10, .i32⟩ : BufTy).Contents (Elt F) → (⟨S512x10x1, .i32⟩ : BufTy).Contents (Elt F)),
    unary main_v18 main_v20 (broadcastInDim S512x10x1 ![0, 1] bcast_S512x10_S512x10x1_0_1 : (⟨S512x10, .i32⟩ : BufTy).Contents (Elt F) → (⟨S512x10x1, .i32⟩ : BufTy).Contents (Elt F)),
    binary main_v19 main_v20 main_v21 ((fun a b => concatenate S512x10x2 2 [⟨S512x10x1, a⟩, ⟨S512x10x1, b⟩] concatenates_S512x10x1_S512x10x1_S512x10x2_d2) : (⟨S512x10x1, .i32⟩ : BufTy).Contents (Elt F) → (⟨S512x10x1, .i32⟩ : BufTy).Contents (Elt F) → (⟨S512x10x2, .i32⟩ : BufTy).Contents (Elt F)),
    ternary main_v7 main_v21 main_v8 main_v22 ((fun x i u => Host.scatterAdd scatter_S512x100000_S512x10x2_S512x10_n_01_01_2 x i u) : (⟨S512x100000, .f32⟩ : BufTy).Contents (Elt F) → (⟨S512x10x2, .i32⟩ : BufTy).Contents (Elt F) → (⟨S512x10, .f32⟩ : BufTy).Contents (Elt F) → (⟨S512x100000, .f32⟩ : BufTy).Contents (Elt F)),
    nullary main_cst_7 (constant S_ .f32 0x00000000#32),
    unary main_cst_7 main_v23 (broadcastInDim S512x100000 ![] bcast_S_S512x100000 : (⟨S_, .f32⟩ : BufTy).Contents (Elt F) → (⟨S512x100000, .f32⟩ : BufTy).Contents (Elt F)),
    binary main_v22 main_v23 main_v24 (cmpf .ogt : (⟨S512x100000, .f32⟩ : BufTy).Contents (Elt F) → (⟨S512x100000, .f32⟩ : BufTy).Contents (Elt F) → (⟨S512x100000, .i1⟩ : BufTy).Contents (Elt F)),
    unary main_v24 main_v25 (uitofp .f32 : (⟨S512x100000, .i1⟩ : BufTy).Contents (Elt F) → (⟨S512x100000, .f32⟩ : BufTy).Contents (Elt F)),
    nullary main_cst_8 (constant S_ .f32 0x00000000#32),
    binary main_v25 main_cst_8 main_v26 ((fun x v => Host.reduceAdd x v reducesTo_S512x100000_S512_d1 h_S_) : (⟨S512x100000, .f32⟩ : BufTy).Contents (Elt F) → (⟨S_, .f32⟩ : BufTy).Contents (Elt F) → (⟨S512, .f32⟩ : BufTy).Contents (Elt F)),
    nullary main_cst_9 (constant S_ .f32 0x3F800000#32),
    unary main_cst_9 main_v27 (broadcastInDim S512 ![] bcast_S_S512 : (⟨S_, .f32⟩ : BufTy).Contents (Elt F) → (⟨S512, .f32⟩ : BufTy).Contents (Elt F)),
    binary main_v26 main_v27 main_v28 (maximumf : (⟨S512, .f32⟩ : BufTy).Contents (Elt F) → (⟨S512, .f32⟩ : BufTy).Contents (Elt F) → (⟨S512, .f32⟩ : BufTy).Contents (Elt F)),
    binary main_v0 main_v25 main_v29 (mulf : (⟨S512x100000, .f32⟩ : BufTy).Contents (Elt F) → (⟨S512x100000, .f32⟩ : BufTy).Contents (Elt F) → (⟨S512x100000, .f32⟩ : BufTy).Contents (Elt F)),
    nullary main_cst_10 (constant S_ .f32 0x00000000#32),
    binary main_v29 main_cst_10 main_v30 ((fun x v => Host.reduceAdd x v reducesTo_S512x100000_S512_d1 h_S_) : (⟨S512x100000, .f32⟩ : BufTy).Contents (Elt F) → (⟨S_, .f32⟩ : BufTy).Contents (Elt F) → (⟨S512, .f32⟩ : BufTy).Contents (Elt F)),
    binary main_v30 main_v28 main_v31 (Host.divf : (⟨S512, .f32⟩ : BufTy).Contents (Elt F) → (⟨S512, .f32⟩ : BufTy).Contents (Elt F) → (⟨S512, .f32⟩ : BufTy).Contents (Elt F)),
    unary main_v31 main_v32 (Host.negf : (⟨S512, .f32⟩ : BufTy).Contents (Elt F) → (⟨S512, .f32⟩ : BufTy).Contents (Elt F)),
    TRef.nullary main_call2.cst (constant S_ .f32 0x00000000#32),
    TRef.unary main_call2.cst main_call2.v0 (broadcastInDim S512 ![] bcast_S_S512),
    TRef.binary (.of main_v32) main_call2.v0 main_call2.v1 maximumf,
    TRef.unary main_call2.cst main_call2.v2 (broadcastInDim S512 ![] bcast_S_S512),
    TRef.binary (.of main_v32) main_call2.v2 main_call2.v3 subf,
    TRef.binary main_call2.v3 main_call2.v3 main_call2.v4 (cmpf .une),
    TRef.unary main_call2.cst main_call2.v5 (broadcastInDim S512 ![] bcast_S_S512),
    TRef.binary (.of main_v32) main_call2.v5 main_call2.v6 addf,
    TRef.unary main_call2.v3 main_call2.v7 Host.absf,
    TRef.unary main_call2.v7 main_call2.v8 Host.negf,
    TRef.unary main_call2.v8 main_call2.v9 Host.exp,
    TRef.unary main_call2.v9 main_call2.v10 Host.log1p,
    TRef.binary main_call2.v1 main_call2.v10 main_call2.v11 addf,
    TRef.ternary main_call2.v4 main_call2.v6 main_call2.v11 main_call2.v12 select,
    unary main_v0 main_v34 ((extractStridedSlice S512x2000 ![0, 0] · slices_S512x100000_S512x2000_0_0) : (⟨S512x100000, .f32⟩ : BufTy).Contents (Elt F) → (⟨S512x2000, .f32⟩ : BufTy).Contents (Elt F)),
    unary main_v25 main_v35 ((extractStridedSlice S512x2000 ![0, 0] · slices_S512x100000_S512x2000_0_0) : (⟨S512x100000, .f32⟩ : BufTy).Contents (Elt F) → (⟨S512x2000, .f32⟩ : BufTy).Contents (Elt F)),
    TRef.nullary main_call3.cst (constant S_ .f32 0x00000000#32),
    TRef.unary main_call3.cst main_call3.v0 (broadcastInDim S512x2000 ![] bcast_S_S512x2000),
    TRef.binary (.of main_v34) main_call3.v0 main_call3.v1 maximumf,
    TRef.unary main_call3.cst main_call3.v2 (broadcastInDim S512x2000 ![] bcast_S_S512x2000),
    TRef.binary (.of main_v34) main_call3.v2 main_call3.v3 subf,
    TRef.binary main_call3.v3 main_call3.v3 main_call3.v4 (cmpf .une),
    TRef.unary main_call3.cst main_call3.v5 (broadcastInDim S512x2000 ![] bcast_S_S512x2000),
    TRef.binary (.of main_v34) main_call3.v5 main_call3.v6 addf,
    TRef.unary main_call3.v3 main_call3.v7 Host.absf,
    TRef.unary main_call3.v7 main_call3.v8 Host.negf,
    TRef.unary main_call3.v8 main_call3.v9 Host.exp,
    TRef.unary main_call3.v9 main_call3.v10 Host.log1p,
    TRef.binary main_call3.v1 main_call3.v10 main_call3.v11 addf,
    TRef.ternary main_call3.v4 main_call3.v6 main_call3.v11 main_call3.v12 select,
    nullary main_cst_11 (constant S_ .f32 0x3F800000#32),
    unary main_cst_11 main_v37 (broadcastInDim S512x2000 ![] bcast_S_S512x2000 : (⟨S_, .f32⟩ : BufTy).Contents (Elt F) → (⟨S512x2000, .f32⟩ : BufTy).Contents (Elt F)),
    binary main_v37 main_v35 main_v38 (subf : (⟨S512x2000, .f32⟩ : BufTy).Contents (Elt F) → (⟨S512x2000, .f32⟩ : BufTy).Contents (Elt F) → (⟨S512x2000, .f32⟩ : BufTy).Contents (Elt F)),
    binary main_v36 main_v38 main_v39 (mulf : (⟨S512x2000, .f32⟩ : BufTy).Contents (Elt F) → (⟨S512x2000, .f32⟩ : BufTy).Contents (Elt F) → (⟨S512x2000, .f32⟩ : BufTy).Contents (Elt F)),
    nullary main_cst_12 (constant S_ .f32 0x00000000#32),
    binary main_v39 main_cst_12 main_v40 ((fun x v => Host.reduceAdd x v reducesTo_S512x2000_S512_d1 h_S_) : (⟨S512x2000, .f32⟩ : BufTy).Contents (Elt F) → (⟨S_, .f32⟩ : BufTy).Contents (Elt F) → (⟨S512, .f32⟩ : BufTy).Contents (Elt F)),
    unary main_v0 main_v41 ((extractStridedSlice S512x98000 ![0, 2000] · slices_S512x100000_S512x98000_0_2000) : (⟨S512x100000, .f32⟩ : BufTy).Contents (Elt F) → (⟨S512x98000, .f32⟩ : BufTy).Contents (Elt F)),
    TRef.nullary main_call4.c (constantI S_ 32 0#32),
    TRef.unary main_call4.c main_call4.v0 (broadcastInDim S100 ![] bcast_S_S100),
    TRef.binary (.of main_arg2) main_call4.v0 main_call4.v1 (cmpi .slt),
    TRef.nullary main_call4.c_0 (constantI S_ 32 98000#32),
    TRef.unary main_call4.c_0 main_call4.v2 (broadcastInDim S100 ![] bcast_S_S100),
    TRef.binary (.of main_arg2) main_call4.v2 main_call4.v3 addi,
    TRef.ternary main_call4.v1 main_call4.v3 (.of main_arg2) main_call4.call0.v0 select,
    TRef.unary main_call4.call0.v0 main_call4.v5 (broadcastInDim S100x1 ![0] bcast_S100_S100x1_0),
    TRef.nullary main_call4.c_1 (constantI S1 32 97999#32),
    TRef.nullary main_call4.c_2 (constantI S_ 32 0#32),
    TRef.unary main_call4.c_2 main_call4.v6 (broadcastInDim S100x1 ![] bcast_S_S100x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S100x1 ![0, 1] bcast_S1x1_S100x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S100x1_S100_d1 h_S_),
    TRef.binary (.of main_v41) main_call4.v5 main_call4.v13 (fun x i => Host.gather gather_S512x98000_S100x1_S512x100_0_1_n_n_1_1_5121 x i),
    TRef.unary main_call4.v12 main_call4.v14 (broadcastInDim S512x100 ![1] bcast_S100_S512x100_1),
    TRef.nullary main_call4.cst (constant S_ .f32 0x7FC00000#32),
    TRef.unary main_call4.cst main_call4.v15 (broadcastInDim S512x100 ![] bcast_S_S512x100),
    TRef.ternary main_call4.v14 main_call4.v13 main_call4.v15 main_call4.v16 select,
    unary main_v25 main_v43 ((extractStridedSlice S512x98000 ![0, 2000] · slices_S512x100000_S512x98000_0_2000) : (⟨S512x100000, .f32⟩ : BufTy).Contents (Elt F) → (⟨S512x98000, .f32⟩ : BufTy).Contents (Elt F)),
    TRef.nullary main_call5.c (constantI S_ 32 0#32),
    TRef.unary main_call5.c main_call5.v0 (broadcastInDim S100 ![] bcast_S_S100),
    TRef.binary (.of main_arg2) main_call5.v0 main_call5.v1 (cmpi .slt),
    TRef.nullary main_call5.c_0 (constantI S_ 32 98000#32),
    TRef.unary main_call5.c_0 main_call5.v2 (broadcastInDim S100 ![] bcast_S_S100),
    TRef.binary (.of main_arg2) main_call5.v2 main_call5.v3 addi,
    TRef.ternary main_call5.v1 main_call5.v3 (.of main_arg2) main_call5.call0.v0 select,
    TRef.unary main_call5.call0.v0 main_call5.v5 (broadcastInDim S100x1 ![0] bcast_S100_S100x1_0),
    TRef.nullary main_call5.c_1 (constantI S1 32 97999#32),
    TRef.nullary main_call5.c_2 (constantI S_ 32 0#32),
    TRef.unary main_call5.c_2 main_call5.v6 (broadcastInDim S100x1 ![] bcast_S_S100x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S100x1 ![0, 1] bcast_S1x1_S100x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S100x1_S100_d1 h_S_),
    TRef.binary (.of main_v43) main_call5.v5 main_call5.v13 (fun x i => Host.gather gather_S512x98000_S100x1_S512x100_0_1_n_n_1_1_5121 x i),
    TRef.unary main_call5.v12 main_call5.v14 (broadcastInDim S512x100 ![1] bcast_S100_S512x100_1),
    TRef.nullary main_call5.cst (constant S_ .f32 0x7FC00000#32),
    TRef.unary main_call5.cst main_call5.v15 (broadcastInDim S512x100 ![] bcast_S_S512x100),
    TRef.ternary main_call5.v14 main_call5.v13 main_call5.v15 main_call5.v16 select,
    nullary main_cst_13 (constant S_ .f32 0x00000000#32),
    unary main_cst_13 main_v45 (broadcastInDim S512x100 ![] bcast_S_S512x100 : (⟨S_, .f32⟩ : BufTy).Contents (Elt F) → (⟨S512x100, .f32⟩ : BufTy).Contents (Elt F)),
    binary main_v44 main_v45 main_v46 (cmpf .ogt : (⟨S512x100, .f32⟩ : BufTy).Contents (Elt F) → (⟨S512x100, .f32⟩ : BufTy).Contents (Elt F) → (⟨S512x100, .i1⟩ : BufTy).Contents (Elt F)),
    TRef.nullary main_call6.cst (constant S_ .f32 0x00000000#32),
    TRef.unary main_call6.cst main_call6.v0 (broadcastInDim S512x100 ![] bcast_S_S512x100),
    TRef.binary (.of main_v42) main_call6.v0 main_call6.v1 maximumf,
    TRef.unary main_call6.cst main_call6.v2 (broadcastInDim S512x100 ![] bcast_S_S512x100),
    TRef.binary (.of main_v42) main_call6.v2 main_call6.v3 subf,
    TRef.binary main_call6.v3 main_call6.v3 main_call6.v4 (cmpf .une),
    TRef.unary main_call6.cst main_call6.v5 (broadcastInDim S512x100 ![] bcast_S_S512x100),
    TRef.binary (.of main_v42) main_call6.v5 main_call6.v6 addf,
    TRef.unary main_call6.v3 main_call6.v7 Host.absf,
    TRef.unary main_call6.v7 main_call6.v8 Host.negf,
    TRef.unary main_call6.v8 main_call6.v9 Host.exp,
    TRef.unary main_call6.v9 main_call6.v10 Host.log1p,
    TRef.binary main_call6.v1 main_call6.v10 main_call6.v11 addf,
    TRef.ternary main_call6.v4 main_call6.v6 main_call6.v11 main_call6.v12 select,
    unary main_v46 main_v48 (noti : (⟨S512x100, .i1⟩ : BufTy).Contents (Elt F) → (⟨S512x100, .i1⟩ : BufTy).Contents (Elt F)),
    unary main_v48 main_v49 (uitofp .f32 : (⟨S512x100, .i1⟩ : BufTy).Contents (Elt F) → (⟨S512x100, .f32⟩ : BufTy).Contents (Elt F)),
    binary main_v47 main_v49 main_v50 (mulf : (⟨S512x100, .f32⟩ : BufTy).Contents (Elt F) → (⟨S512x100, .f32⟩ : BufTy).Contents (Elt F) → (⟨S512x100, .f32⟩ : BufTy).Contents (Elt F)),
    nullary main_cst_14 (constant S_ .f32 0x00000000#32),
    binary main_v50 main_cst_14 main_v51 ((fun x v => Host.reduceAdd x v reducesTo_S512x100_S512_d1 h_S_) : (⟨S512x100, .f32⟩ : BufTy).Contents (Elt F) → (⟨S_, .f32⟩ : BufTy).Contents (Elt F) → (⟨S512, .f32⟩ : BufTy).Contents (Elt F)),
    nullary main_cst_15 (constant S_ .f32 0x44750000#32),
    unary main_cst_15 main_v52 (broadcastInDim S512 ![] bcast_S_S512 : (⟨S_, .f32⟩ : BufTy).Contents (Elt F) → (⟨S512, .f32⟩ : BufTy).Contents (Elt F)),
    binary main_v51 main_v52 main_v53 (mulf : (⟨S512, .f32⟩ : BufTy).Contents (Elt F) → (⟨S512, .f32⟩ : BufTy).Contents (Elt F) → (⟨S512, .f32⟩ : BufTy).Contents (Elt F)),
    binary main_v33 main_v40 main_v54 (addf : (⟨S512, .f32⟩ : BufTy).Contents (Elt F) → (⟨S512, .f32⟩ : BufTy).Contents (Elt F) → (⟨S512, .f32⟩ : BufTy).Contents (Elt F)),
    binary main_v54 main_v53 main_v55 (addf : (⟨S512, .f32⟩ : BufTy).Contents (Elt F) → (⟨S512, .f32⟩ : BufTy).Contents (Elt F) → (⟨S512, .f32⟩ : BufTy).Contents (Elt F)),
    nullary main_cst_16 (constant S_ .f32 0x00000000#32),
    binary main_v55 main_cst_16 main_v56 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_17 (constant S_ .f32 0x44000000#32),
    binary main_v56 main_cst_17 main_v57 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = segA ++ (segB ++ (segC ++ (segD ++ segE))) := rfl

-- 168 binds re-associated: the rewrite under the chain recurses once per statement
set_option maxRecDepth 8192 in
set_option maxHeartbeats 4000000 in
/-- @main is that straight line: the two windows and the functions' definitions unfolded at their calls, both sides are
    one chain of steps once sequencing is reassociated. -/
theorem main_eq (c : Dev nD) : main (F := F) c = seq ops := by
  simp only [main, main_part0, main_part1, fn_clip.body, fn_where.body, fn_softplus.body, fn_softplus_0.body, fn_where_1.body,
    fn_take.body, fn_softplus_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., unary_bufs_sub .., nullary_bufs_sub .., unary_bufs_sub .., unary_bufs_sub .., ternary_bufs_sub ..,
    nullary_bufs_sub .., unary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., ternary_bufs_sub .., nullary_bufs_sub .., unary_bufs_sub .., binary_bufs_sub ..,
    unary_bufs_sub .., nullary_bufs_sub .., binary_bufs_sub .., nullary_bufs_sub .., unary_bufs_sub .., binary_bufs_sub ..,
    binary_bufs_sub .., nullary_bufs_sub .., binary_bufs_sub .., binary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., unary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., nullary_bufs_sub ..,
    unary_bufs_sub .., binary_bufs_sub .., binary_bufs_sub .., nullary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., unary_bufs_sub ..,
    binary_bufs_sub .., nullary_bufs_sub .., binary_bufs_sub .., nullary_bufs_sub .., unary_bufs_sub .., binary_bufs_sub ..,
    binary_bufs_sub .., binary_bufs_sub .., nullary_bufs_sub .., binary_bufs_sub .., nullary_bufs_sub .., binary_bufs_sub ..⟩

/-- Two stretches run one after the other. -/
private theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-! ## The stretches, each over any contents it starts from

The operations that reduce, scatter and gather over the 512 x 100000 array stay folded: no equation here looks inside them. -/

attribute [local irreducible] Host.reduceAdd Host.reduce Host.gather Host.scatterAdd concatenate extractStridedSlice broadcastInDim

section Stretches
set_option maxRecDepth 8192
set_option maxHeartbeats 4000000

theorem segA_v0 (W : Valuation τ sig (Elt F)) : after segA W (main_v0 : DevRef τ sig) = Terms.clipped (F := F) (W (main_arg0 : DevRef τ sig)) := by
  unfold segA; after_results_simp; rfl
theorem segA_v25 (W : Valuation τ sig (Elt F)) : after segA W (main_v25 : DevRef τ sig) = Terms.yMask (F := F) (W (main_arg1 : DevRef τ sig)) := by
  unfold segA; after_results_simp; rfl
theorem segA_arg0 (W : Valuation τ sig (Elt F)) : after segA W (main_arg0 : DevRef τ sig) = W (main_arg0 : DevRef τ sig) := by
  unfold segA; after_results_simp
theorem segA_arg1 (W : Valuation τ sig (Elt F)) : after segA W (main_arg1 : DevRef τ sig) = W (main_arg1 : DevRef τ sig) := by
  unfold segA; after_results_simp
theorem segA_arg2 (W : Valuation τ sig (Elt F)) : after segA W (main_arg2 : DevRef τ sig) = W (main_arg2 : DevRef τ sig) := by
  unfold segA; after_results_simp

theorem segB_v33 (W : Valuation τ sig (Elt F)) : after segB W (main_v33 : DevRef τ sig)
    = Terms.t1of (F := F) (Host.reduceAdd (W (main_v25 : DevRef τ sig)) (constant S_ .f32 0x00000000#32) reducesTo_S512x100000_S512_d1 h_S_)
        (Host.reduceAdd (mulf (W (main_v0 : DevRef τ sig)) (W (main_v25 : DevRef τ sig))) (constant S_ .f32 0x00000000#32) reducesTo_S512x100000_S512_d1 h_S_) := by
  unfold segB; after_results_simp; rfl
theorem segB_v0 (W : Valuation τ sig (Elt F)) : after segB W (main_v0 : DevRef τ sig) = W (main_v0 : DevRef τ sig) := by
  unfold segB; after_results_simp
theorem segB_v25 (W : Valuation τ sig (Elt F)) : after segB W (main_v25 : DevRef τ sig) = W (main_v25 : DevRef τ sig) := by
  unfold segB; after_results_simp
theorem segB_arg0 (W : Valuation τ sig (Elt F)) : after segB W (main_arg0 : DevRef τ sig) = W (main_arg0 : DevRef τ sig) := by
  unfold segB; after_results_simp
theorem segB_arg1 (W : Valuation τ sig (Elt F)) : after segB W (main_arg1 : DevRef τ sig) = W (main_arg1 : DevRef τ sig) := by
  unfold segB; after_results_simp
theorem segB_arg2 (W : Valuation τ sig (Elt F)) : after segB W (main_arg2 : DevRef τ sig) = W (main_arg2 : DevRef τ sig) := by
  unfold segB; after_results_simp

theorem segC_v40 (W : Valuation τ sig (Elt F)) : after segC W (main_v40 : DevRef τ sig)
    = Host.reduceAdd
        (mulf (Terms.softplusAt (F := F) S512x2000 bcast_S_S512x2000 (extractStridedSlice S512x2000 ![0, 0] (W (main_v0 : DevRef τ sig)) slices_S512x100000_S512x2000_0_0))
          (subf (broadcastInDim S512x2000 ![] bcast_S_S512x2000 (constant S_ .f32 0x3F800000#32))
            (extractStridedSlice S512x2000 ![0, 0] (W (main_v25 : DevRef τ sig)) slices_S512x100000_S512x2000_0_0)))
        (constant S_ .f32 0x00000000#32) reducesTo_S512x2000_S512_d1 h_S_ := by
  unfold segC; after_results_simp; rfl
theorem segC_v33 (W : Valuation τ sig (Elt F)) : after segC W (main_v33 : DevRef τ sig) = W (main_v33 : DevRef τ sig) := by
  unfold segC; after_results_simp
theorem segC_v0 (W : Valuation τ sig (Elt F)) : after segC W (main_v0 : DevRef τ sig) = W (main_v0 : DevRef τ sig) := by
  unfold segC; after_results_simp
theorem segC_v25 (W : Valuation τ sig (Elt F)) : after segC W (main_v25 : DevRef τ sig) = W (main_v25 : DevRef τ sig) := by
  unfold segC; after_results_simp
theorem segC_arg0 (W : Valuation τ sig (Elt F)) : after segC W (main_arg0 : DevRef τ sig) = W (main_arg0 : DevRef τ sig) := by
  unfold segC; after_results_simp
theorem segC_arg1 (W : Valuation τ sig (Elt F)) : after segC W (main_arg1 : DevRef τ sig) = W (main_arg1 : DevRef τ sig) := by
  unfold segC; after_results_simp
theorem segC_arg2 (W : Valuation τ sig (Elt F)) : after segC W (main_arg2 : DevRef τ sig) = W (main_arg2 : DevRef τ sig) := by
  unfold segC; after_results_simp

theorem segD_v42 (W : Valuation τ sig (Elt F)) : after segD W (main_v42 : DevRef τ sig)
    = Terms.takeAt (F := F) (extractStridedSlice S512x98000 ![0, 2000] (W (main_v0 : DevRef τ sig)) slices_S512x100000_S512x98000_0_2000) (W (main_arg2 : DevRef τ sig)) := by
  unfold segD; after_results_simp; rfl
theorem segD_v46 (W : Valuation τ sig (Elt F)) : after segD W (main_v46 : DevRef τ sig)
    = cmpf .ogt (Terms.takeAt (F := F) (extractStridedSlice S512x98000 ![0, 2000] (W (main_v25 : DevRef τ sig)) slices_S512x100000_S512x98000_0_2000) (W (main_arg2 : DevRef τ sig)))
        (Terms.zerosF S512x100 bcast_S_S512x100) := by
  unfold segD; after_results_simp; rfl
theorem segD_v33 (W : Valuation τ sig (Elt F)) : after segD W (main_v33 : DevRef τ sig) = W (main_v33 : DevRef τ sig) := by
  unfold segD; after_results_simp
theorem segD_v40 (W : Valuation τ sig (Elt F)) : after segD W (main_v40 : DevRef τ sig) = W (main_v40 : DevRef τ sig) := by
  unfold segD; after_results_simp
theorem segD_arg0 (W : Valuation τ sig (Elt F)) : after segD W (main_arg0 : DevRef τ sig) = W (main_arg0 : DevRef τ sig) := by
  unfold segD; after_results_simp
theorem segD_arg1 (W : Valuation τ sig (Elt F)) : after segD W (main_arg1 : DevRef τ sig) = W (main_arg1 : DevRef τ sig) := by
  unfold segD; after_results_simp
theorem segD_arg2 (W : Valuation τ sig (Elt F)) : after segD W (main_arg2 : DevRef τ sig) = W (main_arg2 : DevRef τ sig) := by
  unfold segD; after_results_simp

theorem segE_v57 (W : Valuation τ sig (Elt F)) : after segE W (main_v57 : DevRef τ sig)
    = Terms.resOf (F := F) (W (main_v33 : DevRef τ sig)) (W (main_v40 : DevRef τ sig)) (Terms.t3of (W (main_v42 : DevRef τ sig)) (W (main_v46 : DevRef τ sig))) := by
  unfold segE; after_results_simp; rfl
theorem segE_arg0 (W : Valuation τ sig (Elt F)) : after segE W (main_arg0 : DevRef τ sig) = W (main_arg0 : DevRef τ sig) := by
  unfold segE; after_results_simp
theorem segE_arg1 (W : Valuation τ sig (Elt F)) : after segE W (main_arg1 : DevRef τ sig) = W (main_arg1 : DevRef τ sig) := by
  unfold segE; after_results_simp
theorem segE_arg2 (W : Valuation τ sig (Elt F)) : after segE W (main_arg2 : DevRef τ sig) = W (main_arg2 : DevRef τ sig) := by
  unfold segE; after_results_simp

end Stretches

/-! ## The whole line -/

/-- The result buffer after the 168 operations, from any contents: the mean of the three terms as functions of the arguments. -/
theorem v57_eq (V : Valuation τ sig (Elt F)) : after ops V (main_v57 : DevRef τ sig)
    = Terms.resOf (Terms.t1of (Terms.card (V (main_arg1 : DevRef τ sig))) (Terms.sumlm (V (main_arg0 : DevRef τ sig)) (V (main_arg1 : DevRef τ sig))))
        (Terms.t2 (V (main_arg0 : DevRef τ sig)) (V (main_arg1 : DevRef τ sig)))
        (Terms.t3of (Terms.tail (V (main_arg0 : DevRef τ sig)) (V (main_arg2 : DevRef τ sig))) (Terms.isCand (F := F) (V (main_arg1 : DevRef τ sig)) (V (main_arg2 : DevRef τ sig)))) := by
  rw [ops_eq, after_append', after_append', after_append', after_append', segE_v57]
  rw [segD_v33, segD_v40, segD_v42, segD_v46]
  rw [segC_v33, segC_v40, segC_v0, segC_v25, segC_arg2]
  rw [segB_v33, segB_v0, segB_v25, segB_arg2]
  rw [segA_v0, segA_v25, segA_arg2]
  rfl

theorem arg0_eq (V : Valuation τ sig (Elt F)) : after ops V (main_arg0 : DevRef τ sig) = V (main_arg0 : DevRef τ sig) := by
  rw [ops_eq, after_append', after_append', after_append', after_append', segE_arg0, segD_arg0, segC_arg0, segB_arg0, segA_arg0]
theorem arg1_eq (V : Valuation τ sig (Elt F)) : after ops V (main_arg1 : DevRef τ sig) = V (main_arg1 : DevRef τ sig) := by
  rw [ops_eq, after_append', after_append', after_append', after_append', segE_arg1, segD_arg1, segC_arg1, segB_arg1, segA_arg1]
theorem arg2_eq (V : Valuation τ sig (Elt F)) : after ops V (main_arg2 : DevRef τ sig) = V (main_arg2 : DevRef τ sig) := by
  rw [ops_eq, after_append', after_append', after_append', after_append', segE_arg2, segD_arg2, segC_arg2, segB_arg2, segA_arg2]

/-- On every device, for any float values, from any memory with zero counters: every weakly fair execution of @main
    terminates with the result at the composed functions of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
          = Terms.resOf
              (Terms.t1of (Terms.card (m ((c.tc : Thread nD τ).loc main_arg1)))
                (Terms.sumlm (m ((c.tc : Thread nD τ).loc main_arg0)) (m ((c.tc : Thread nD τ).loc main_arg1))))
              (Terms.t2 (m ((c.tc : Thread nD τ).loc main_arg0)) (m ((c.tc : Thread nD τ).loc main_arg1)))
              (Terms.t3of (Terms.tail (m ((c.tc : Thread nD τ).loc main_arg0)) (m ((c.tc : Thread nD τ).loc main_arg2)))
                (Terms.isCand (F := F) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v57).trans (v57_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.Value

end
-- ==== Proof.PreDom.lean ====
/-
  The added domain precondition, read back element by element. The precondition is a conjunction of four
  "for all entries" statements; each is a reduction by `and` of an array of comparison words, from the
  constant 1, and the hypothesis says the whole conjunction is the word 1. So every comparison word is 1:
  every candidate entry is below 100000 (signed), and every sampled index lies in [0, 98000) (signed).
  The finiteness conjunct is not needed and is dropped.
-/
import proofs.«406286_j15479062135299_3_alg».proof.Pre_finite_inputs
import proofs.«406286_j15479062135299_3_alg».proof.Proof.Gen.Pre_finite_inputs
import Idealize.ShloMosaic.Lib.StableHlo.Predicate
import Idealize.ShloMosaic.Lib.ReduceAll
import Idealize.ShloMosaic.Lib.ValueIdx

noncomputable section

namespace Cert.Pre_finite_inputs.Dom

open Idealize.ShloMosaic Cert.Pre_finite_inputs

/-- A rank-0 array has one index. -/
instance subsingleton_S_ : Subsingleton S_.Idx := ⟨fun a b => funext fun d => d.elim0⟩

/-- The words 100000, 0 and 98000 read as signed integers. -/
theorem toInt_100000 : (100000#32 : BitVec 32).toInt = 100000 := by decide
theorem toInt_0 : (0#32 : BitVec 32).toInt = 0 := by decide
theorem toInt_98000 : (98000#32 : BitVec 32).toInt = 98000 := by decide

/-- The precondition gives: every candidate entry is below 100000 and every sampled index is in [0, 98000),
    all read as signed integers. -/
theorem dom_of_pre {F : FTy → Type} [FloatOps F] [Cert.Pre_finite_inputs.Facts]
    (x : FVec F S512x100000 .f32) (cd : IVec S512x10 32) (sp : IVec S100 32)
    (h : Cert.Pre_finite_inputs.fn (F := F) x cd sp = fun _ => 1#1) :
    (∀ i, (cd i).toInt < 100000) ∧ (∀ s, 0 ≤ (sp s).toInt ∧ (sp s).toInt < 98000) := by
  have h0 := congrFun h ValueIdx.ix0
  dsimp only [Cert.Pre_finite_inputs.fn] at h0
  -- the outer conjunctions: ((fin ∧ cand) ∧ ge) ∧ lt
  obtain ⟨h11, h14⟩ := IntOp.andi_eq_one.1 h0
  obtain ⟨h7, h10⟩ := IntOp.andi_eq_one.1 h11
  obtain ⟨_, h6⟩ := IntOp.andi_eq_one.1 h7
  refine ⟨fun i => ?_, fun s => ⟨?_, ?_⟩⟩
  · have e := Host.reduce_andi_all _ _ _ _ _ h6 i
    have e' := IntOp.cmpi_slt.1 e
    simpa [broadcastInDim, constantI, toInt_100000] using e'
  · have e := Host.reduce_andi_all _ _ _ _ _ h10 s
    have e' := IntOp.cmpi_sge.1 e
    simpa [broadcastInDim, constantI, toInt_0] using e'
  · have e := Host.reduce_andi_all _ _ _ _ _ h14 s
    have e' := IntOp.cmpi_slt.1 e
    simpa [broadcastInDim, constantI, toInt_98000] using e'

end Cert.Pre_finite_inputs.Dom

end
-- ==== Proof.YMask.lean ====
/- The reference's candidate mask, element by element.

   y_mask = [scat > 0] where scat adds, into a zero [512,100000] array, the presence flag of each candidate (b,k) at
   the element (row b, column cols[b,k]), cols = the candidate where present and 0 where absent. An index pair outside
   the array lands nowhere; an absent candidate adds 0.0 at column 0. So scat[b,j] is the number of present candidates
   of row b that name column j, an exact sum of zeros and ones, and y_mask[b,j] = 1 exactly when there is one. -/
import proofs.«406286_j15479062135299_3_alg».proof.Proof.RTerms
import Idealize.ShloMosaic.Lib.ValueIdx
import Idealize.ShloMosaic.Lib.IdealHost
import Idealize.ShloMosaic.Lib.Pipeline.Value
import Idealize.ShloMosaic.Lib.StableHlo.Predicate

noncomputable section
open Cert.ReferenceIdeal Cert.ReferenceIdeal.Gen
open Idealize.ShloMosaic Idealize.ShloMosaic.ValueIdx
open scoped BigOperators

namespace Cert.ReferenceIdeal.YMask

/-- The scatter's dimension numbers: the index vector is the last axis of the [512,10,2] index array, its two
    components are the operand's row and column, no window. -/
abbrev dS := scatter_S512x100000_S512x10x2_S512x10_n_01_01_2

theorem siIdx0 (b : Fin 512) (k : Fin 10) :
    dS.siIdx (ix2 b k) ⟨0, by decide⟩ = ix3 b k (0 : Fin 2) := by
  funext b'
  match b' with
  | ⟨0, _⟩ => rfl
  | ⟨1, _⟩ => rfl
  | ⟨2, _⟩ => rfl

theorem siIdx1 (b : Fin 512) (k : Fin 10) :
    dS.siIdx (ix2 b k) ⟨1, by decide⟩ = ix3 b k (1 : Fin 2) := by
  funext b'
  match b' with
  | ⟨0, _⟩ => rfl
  | ⟨1, _⟩ => rfl
  | ⟨2, _⟩ => rfl

theorem start0 (b : Fin 512) (k : Fin 10) (idx : IVec S512x10x2 32) :
    dS.start (ix2 b k) idx 0 = (idx (ix3 b k (0 : Fin 2))).toInt := by
  have h : dS.start (ix2 b k) idx 0 = (idx (dS.siIdx (ix2 b k) ⟨0, by decide⟩)).toInt := rfl
  rw [h, siIdx0]

theorem start1 (b : Fin 512) (k : Fin 10) (idx : IVec S512x10x2 32) :
    dS.start (ix2 b k) idx 1 = (idx (ix3 b k (1 : Fin 2))).toInt := by
  have h : dS.start (ix2 b k) idx 1 = (idx (dS.siIdx (ix2 b k) ⟨1, by decide⟩)).toInt := rfl
  rw [h, siIdx1]

theorem window0 (j : S512x10.Idx) (a : Fin 2) : dS.window j a = 0 := by
  match a with
  | ⟨0, _⟩ => rfl
  | ⟨1, _⟩ => rfl

/-- Update (b, k) lands on element (r, j) exactly when its index pair, read signed, is (r, j); a pair outside the
    operand lands nowhere. -/
theorem resultIdx_iff (b : Fin 512) (k : Fin 10) (idx : IVec S512x10x2 32) (r : Fin 512) (j : Fin 100000) :
    dS.resultIdx? (ix2 b k) idx = some (ix2 r j) ↔
      (idx (ix3 b k (0 : Fin 2))).toInt = (r : ℤ) ∧ (idx (ix3 b k (1 : Fin 2))).toInt = (j : ℤ) := by
  unfold ScatterDims.resultIdx?
  have hw0 := window0 (ix2 b k) 0
  have hw1 := window0 (ix2 b k) 1
  have hs0 := start0 b k idx
  have hs1 := start1 b k idx
  split_ifs with h
  · have h0 := h 0
    have h1 := h 1
    rw [hw0, hs0] at h0
    rw [hw1, hs1] at h1
    simp only [Option.some.injEq]
    constructor
    · intro e
      have e0 := congrFun e 0
      have e1 := congrFun e 1
      have e0' := congrArg Fin.val e0
      have e1' := congrArg Fin.val e1
      simp only [hw0, hs0, hw1, hs1] at e0' e1'
      change _ = (r : ℕ) at e0'
      change _ = (j : ℕ) at e1'
      constructor <;> omega
    · rintro ⟨e0, e1⟩
      funext a
      match a with
      | ⟨0, _⟩ =>
        apply Fin.ext
        show (dS.start (ix2 b k) idx 0 + dS.window (ix2 b k) 0).toNat = (r : ℕ)
        rw [hw0, hs0]; omega
      | ⟨1, _⟩ =>
        apply Fin.ext
        show (dS.start (ix2 b k) idx 1 + dS.window (ix2 b k) 1).toNat = (j : ℕ)
        rw [hw1, hs1]; omega
  · simp only [reduceCtorEq, false_iff]
    rintro ⟨e0, e1⟩
    apply h
    intro a
    match a with
    | ⟨0, _⟩ =>
      show 0 ≤ dS.start (ix2 b k) idx 0 + dS.window (ix2 b k) 0 ∧ dS.start (ix2 b k) idx 0 + dS.window (ix2 b k) 0 < 512
      rw [hw0, hs0]; have := r.isLt; omega
    | ⟨1, _⟩ =>
      show 0 ≤ dS.start (ix2 b k) idx 1 + dS.window (ix2 b k) 1 ∧ dS.start (ix2 b k) idx 1 + dS.window (ix2 b k) 1 < 100000
      rw [hw1, hs1]; have := j.isLt; omega

/-- The index array: the [512,10] rows and columns laid side by side along a new last axis. -/
theorem sidx_apply0 (hb : S512x10.BroadcastsInDim S512x10x1 (![0, 1] : Fin 2 → Fin S512x10x1.rank))
    (hc : Shape.Concatenates [S512x10x1, S512x10x1] S512x10x2 2)
    (R C : IVec S512x10 32) (b : Fin 512) (k : Fin 10) :
    concatenate S512x10x2 2 [⟨S512x10x1, broadcastInDim S512x10x1 ![0, 1] hb R⟩,
      ⟨S512x10x1, broadcastInDim S512x10x1 ![0, 1] hb C⟩] hc (ix3 b k (0 : Fin 2)) = R (ix2 b k) := by
  rw [concatenate_pair_apply_left (t := S512x10x2) (s₁ := S512x10x1) (s₂ := S512x10x1) (2 : Fin 3) _ _ hc
    (ix3 b k (0 : Fin 2)) rfl (ix3 b k (0 : Fin 1))
    (by intro a; match a with | ⟨0, _⟩ => rfl | ⟨1, _⟩ => rfl | ⟨2, _⟩ => rfl)]
  exact broadcastInDim_apply _ hb R _ (ix2 b k)
    (by intro a; match a with | ⟨0, _⟩ => rfl | ⟨1, _⟩ => rfl)

theorem sidx_apply1 (hb : S512x10.BroadcastsInDim S512x10x1 (![0, 1] : Fin 2 → Fin S512x10x1.rank))
    (hc : Shape.Concatenates [S512x10x1, S512x10x1] S512x10x2 2)
    (R C : IVec S512x10 32) (b : Fin 512) (k : Fin 10) :
    concatenate S512x10x2 2 [⟨S512x10x1, broadcastInDim S512x10x1 ![0, 1] hb R⟩,
      ⟨S512x10x1, broadcastInDim S512x10x1 ![0, 1] hb C⟩] hc (ix3 b k (1 : Fin 2)) = C (ix2 b k) := by
  rw [concatenate_pair_apply_right (t := S512x10x2) (s₁ := S512x10x1) (s₂ := S512x10x1) (2 : Fin 3) _ _ hc
    (ix3 b k (1 : Fin 2)) rfl rfl (ix3 b k (0 : Fin 1))
    (by intro a ha; match a with | ⟨0, _⟩ => rfl | ⟨1, _⟩ => rfl | ⟨2, _⟩ => exact absurd rfl ha)
    rfl]
  exact broadcastInDim_apply _ hb C _ (ix2 b k)
    (by intro a; match a with | ⟨0, _⟩ => rfl | ⟨1, _⟩ => rfl)

open Cert.ReferenceIdeal.Terms
open Idealize.ShloMosaic.StableHlo.Predicate (ofBool_eq_one_iff toInt_ofNat_small)

/-! ## The words of the index table -/

/-- A scalar word spread over the [512,10] shape reads that word. -/
theorem splatI_apply (h : S_.BroadcastsInDim S512x10 (![] : Fin 0 → Fin S512x10.rank)) (c : BitVec 32) (i : S512x10.Idx) :
    broadcastInDim S512x10 ![] h (constantI S_ 32 c) i = c := by
  rw [broadcastInDim_scalar_apply]; rfl

/-- The presence bit: the candidate, read signed, is not negative. -/
theorem valid_iff (cd : IVec S512x10 32) (i : S512x10.Idx) : valid cd i = 1#1 ↔ 0 ≤ (cd i).toInt := by
  show IntOp.cmpi .sge (cd i) (broadcastInDim S512x10 ![] _ (constantI S_ 32 0#32) i) = 1#1 ↔ _
  rw [splatI_apply]
  show BitVec.ofBool ((0#32).sle (cd i)) = 1#1 ↔ _
  rw [ofBool_eq_one_iff, BitVec.sle_iff_toInt_le]; rfl

/-- The column word: the candidate where present, 0 where absent. -/
theorem cols_apply (cd : IVec S512x10 32) (i : S512x10.Idx) :
    cols cd i = if 0 ≤ (cd i).toInt then cd i else 0#32 := by
  show Scalar.select (valid cd i) (cd i) (broadcastInDim S512x10 ![] _ (constantI S_ 32 0#32) i) = _
  rw [splatI_apply]
  by_cases hv : 0 ≤ (cd i).toInt
  · rw [if_pos hv, (valid_iff cd i).2 hv]; rfl
  · rw [if_neg hv]
    have : ¬ valid cd i = 1#1 := fun h => hv ((valid_iff cd i).1 h)
    rw [eq_zero_of_ne_one this]; rfl

theorem cols_toInt_nonneg (cd : IVec S512x10 32) (i : S512x10.Idx) : 0 ≤ (cols cd i).toInt := by
  rw [cols_apply]; split_ifs with h
  · exact h
  · decide

/-- A word that is not negative is left alone by the wrap of negative indices. -/
theorem wrap_of_nonneg (v N : BitVec 32) (h : 0 ≤ v.toInt) :
    Scalar.select (IntOp.cmpi .slt v 0#32) (IntOp.addi v N) v = v := by
  have : IntOp.cmpi .slt v 0#32 = 0#1 := by
    apply eq_zero_of_ne_one
    show ¬ BitVec.ofBool (v.slt 0#32) = 1#1
    rw [ofBool_eq_one_iff, BitVec.slt_iff_toInt_lt]
    have : (0#32 : BitVec 32).toInt = 0 := rfl
    omega
  rw [this]; rfl

theorem colsW_apply (cd : IVec S512x10 32) (i : S512x10.Idx) : colsW cd i = cols cd i := by
  show Scalar.select (IntOp.cmpi .slt (cols cd i) (broadcastInDim S512x10 ![] _ (constantI S_ 32 0#32) i))
    (IntOp.addi (cols cd i) (broadcastInDim S512x10 ![] _ (constantI S_ 32 100000#32) i)) (cols cd i) = _
  rw [splatI_apply, splatI_apply]
  exact wrap_of_nonneg _ _ (cols_toInt_nonneg cd i)

theorem rowIota_apply (b : Fin 512) (k : Fin 10) : rowIota (ix2 b k) = BitVec.ofNat 32 b.val := by
  unfold rowIota
  rw [broadcastInDim_apply _ _ _ (ix2 b k) (ix2 b (0 : Fin 1))
    (by intro a; match a with | ⟨0, _⟩ => rfl | ⟨1, _⟩ => rfl)]
  rw [broadcastInDim_apply _ _ _ (ix2 b (0 : Fin 1)) (ix1 b)
    (by intro a; match a with | ⟨0, _⟩ => rfl)]
  rfl

theorem rowsW_toInt (b : Fin 512) (k : Fin 10) : (rowsW (ix2 b k)).toInt = (b : ℤ) := by
  have hr : (rowIota (ix2 b k)).toInt = (b : ℤ) := by
    rw [rowIota_apply]; exact toInt_ofNat_small _ (by have := b.isLt; omega)
  have : rowsW (ix2 b k) = rowIota (ix2 b k) := by
    show Scalar.select (IntOp.cmpi .slt (rowIota (ix2 b k)) (broadcastInDim S512x10 ![] _ (constantI S_ 32 0#32) (ix2 b k)))
      (IntOp.addi (rowIota (ix2 b k)) (broadcastInDim S512x10 ![] _ (constantI S_ 32 512#32) (ix2 b k))) (rowIota (ix2 b k)) = _
    rw [splatI_apply, splatI_apply]
    exact wrap_of_nonneg _ _ (by rw [hr]; omega)
  rw [this, hr]

theorem scatIdx_apply0 (cd : IVec S512x10 32) (b : Fin 512) (k : Fin 10) :
    scatIdx cd (ix3 b k (0 : Fin 2)) = rowsW (ix2 b k) := sidx_apply0 _ _ _ _ b k

theorem scatIdx_apply1 (cd : IVec S512x10 32) (b : Fin 512) (k : Fin 10) :
    scatIdx cd (ix3 b k (1 : Fin 2)) = colsW cd (ix2 b k) := sidx_apply1 _ _ _ _ b k

/-! ## The scattered sum and the mask at an element -/

/-- A bit turned into a float is its value, 0 or 1. -/
theorem uitofp_bit_apply {s : Shape} (m : IVec s 1) (i : s.Idx) :
    (uitofp .f32 m : FVec Ideal s .f32) i = (((m i).toNat : ℝ) : EReal) := rfl

/-- A presence flag as a float: 1 where present, 0 where absent. -/
theorem validF_apply (cd : IVec S512x10 32) (i : S512x10.Idx) :
    (uitofp .f32 (valid cd) : FVec Ideal S512x10 .f32) i = if 0 ≤ (cd i).toInt then 1 else 0 := by
  rw [uitofp_bit_apply]
  by_cases hv : 0 ≤ (cd i).toInt
  · rw [if_pos hv, (valid_iff cd i).2 hv]; simp
  · rw [if_neg hv]
    have : ¬ valid cd i = 1#1 := fun h => hv ((valid_iff cd i).1 h)
    rw [eq_zero_of_ne_one this]; simp

theorem zerosF_apply (s : Shape) (h : S_.BroadcastsInDim s (![] : Fin 0 → Fin s.rank)) (i : s.Idx) :
    (zerosF s h : FVec Ideal s .f32) i = 0 := by
  show broadcastInDim s ![] h (constant (F := Ideal) S_ .f32 0x00000000#32) i = 0
  rw [broadcastInDim_scalar_apply]; exact Ideal.ofBits_zero_f32

theorem scat_eq (cd : IVec S512x10 32) (i : S512x100000.Idx) :
    scat (F := Ideal) cd i = (zerosF S512x100000 bcast_S_S512x100000 : FVec Ideal S512x100000 .f32) i
      + ∑ p ∈ Finset.univ.filter (fun p => dS.resultIdx? p (scatIdx cd) = some i),
          (uitofp .f32 (valid cd) : FVec Ideal S512x10 .f32) p := rfl

/-- The scattered array at (r, j): the number of present candidates of row r that name column j. -/
theorem scat_apply (cd : IVec S512x10 32) (r : Fin 512) (j : Fin 100000) :
    scat (F := Ideal) cd (ix2 r j)
      = ∑ k : Fin 10, if 0 ≤ (cd (ix2 r k)).toInt ∧ (cd (ix2 r k)).toInt = (j : ℤ) then (1 : EReal) else 0 := by
  rw [scat_eq, zerosF_apply, zero_add, Finset.sum_filter, sum_idx2, Finset.sum_eq_single r]
  · refine Finset.sum_congr rfl fun k _ => ?_
    have hiff := resultIdx_iff r k (scatIdx cd) r j
    rw [scatIdx_apply0, scatIdx_apply1, rowsW_toInt, colsW_apply, cols_apply] at hiff
    rw [validF_apply]
    by_cases hv : 0 ≤ (cd (ix2 r k)).toInt
    · rw [if_pos hv] at hiff
      by_cases hj : (cd (ix2 r k)).toInt = (j : ℤ)
      · rw [if_pos (hiff.2 ⟨rfl, hj⟩), if_pos hv, if_pos ⟨hv, hj⟩]
      · rw [if_neg (fun h => hj (hiff.1 h).2), if_neg (fun h => hj h.2)]
    · rw [if_neg hv, ite_self, if_neg (fun h => hv h.1)]
  · intro b _ hb
    refine Finset.sum_eq_zero fun k _ => ?_
    rw [if_neg]
    intro h
    have h0 := ((resultIdx_iff b k (scatIdx cd) r j).1 h).1
    rw [scatIdx_apply0, rowsW_toInt] at h0
    exact hb (Fin.ext (by exact_mod_cast h0))
  · intro h; exact absurd (Finset.mem_univ r) h

/-- A sum of indicators is positive exactly when one of them is set. -/
theorem sum_ind_pos {n : ℕ} (P : Fin n → Prop) [DecidablePred P] :
    (0 : EReal) < ∑ k : Fin n, (if P k then (1 : EReal) else 0) ↔ ∃ k, P k := by
  constructor
  · intro h
    by_contra hne
    have hne' : ∀ k, ¬ P k := fun k hk => hne ⟨k, hk⟩
    have : ∑ k : Fin n, (if P k then (1 : EReal) else 0) = 0 := Finset.sum_eq_zero (fun k _ => if_neg (hne' k))
    rw [this] at h; exact lt_irrefl _ h
  · rintro ⟨k, hk⟩
    have h1 : (if P k then (1 : EReal) else 0) ≤ ∑ k : Fin n, (if P k then (1 : EReal) else 0) :=
      Finset.single_le_sum (f := fun k => if P k then (1 : EReal) else 0)
        (fun i _ => by split_ifs <;> simp) (Finset.mem_univ k)
    rw [if_pos hk] at h1
    exact lt_of_lt_of_le zero_lt_one h1

theorem cmp_ogt_zero (v : EReal) :
    FloatOps.cmpf (F := Ideal) (φ := .f32) .ogt v 0 = BitVec.ofBool (decide ((0 : EReal) < v)) := rfl

/-- The candidate mask at (b, j): 1 where some present candidate of row b names column j, else 0. -/
theorem yMask_apply (cd : IVec S512x10 32) (b : Fin 512) (j : Fin 100000) :
    yMask (F := Ideal) cd (ix2 b j)
      = if ∃ k : Fin 10, 0 ≤ (cd (ix2 b k)).toInt ∧ (cd (ix2 b k)).toInt = (j : ℤ) then 1 else 0 := by
  unfold yMask
  rw [uitofp_bit_apply, cmpf_apply, zerosF_apply, scat_apply, cmp_ogt_zero]
  by_cases h : ∃ k : Fin 10, 0 ≤ (cd (ix2 b k)).toInt ∧ (cd (ix2 b k)).toInt = (j : ℤ)
  · rw [if_pos h, decide_eq_true ((sum_ind_pos _).2 h)]; simp
  · rw [if_neg h, decide_eq_false (fun hh => h ((sum_ind_pos _).1 hh))]; simp

end Cert.ReferenceIdeal.YMask

end
-- ==== Proof.RRows.lean ====
/- The reference program's clip and its two row reductions over the 100000 columns, read at an index, at the ideal
   values: the clip is `min 20 (max (-20) ·)` element by element; the cardinality is the row sum of the mask; the
   masked logit sum is the row sum of the clipped logits times the mask. -/
import proofs.«406286_j15479062135299_3_alg».proof.Proof.RTerms
import Idealize.ShloMosaic.Lib.ValueIdx
import Idealize.ShloMosaic.Lib.IdealHost
import Idealize.ShloMosaic.PureOps.Ideal.Laws

noncomputable section

open scoped BigOperators

namespace Cert.Proof.RRows

open Cert.ReferenceIdeal Cert.ReferenceIdeal.Gen
open Idealize.ShloMosaic Idealize.ShloMosaic.ValueIdx

/-- The clip at an index: `min 20 (max (-20) x)`, the two bounds as their bit patterns' values. -/
theorem clipped_apply (x : FVec Ideal S512x100000 .f32) (i : S512x100000.Idx) :
    Terms.clipped (F := Ideal) x i
      = min (Ideal.ofBits .f32 0x41A00000#32) (max (Ideal.ofBits .f32 0xC1A00000#32) (x i)) := rfl

/-- The one-axis reduction's shape fact in the form that names the inserted index. -/
theorem reduces_cols : S512x100000.Reduces [1] S512 :=
  ⟨reducesTo_S512x100000_S512_d1.1, Nat.one_pos, reducesTo_S512x100000_S512_d1.2⟩

/-- The source index over row `b` with column `j` inserted is `(b, j)`. -/
theorem lift_row (b : Fin 512) (j : Fin 100000) : reduces_cols.lift (ix1 b) j = ix2 b j := by
  funext a
  apply Fin.ext
  match a with
  | ⟨0, _⟩ => rfl
  | ⟨1, _⟩ => rfl

/-- A row reduction with `add` from the zero word, over the 100000 columns, is the row's sum. -/
theorem rowSum_apply (v : FVec Ideal S512x100000 .f32) (b : Fin 512) :
    Host.reduceAdd v (constant (F := Ideal) S_ .f32 0x00000000#32) reducesTo_S512x100000_S512_d1 h_S_ (ix1 b)
      = ∑ j : Fin 100000, v (ix2 b j) := by
  rw [hostReduceAdd_apply, Ideal.hostReduceAdd_single reducesTo_S512x100000_S512_d1 reduces_cols, constant_apply,
    Ideal.ofBits_zero_f32, zero_add]
  exact Finset.sum_congr rfl fun j _ => congrArg v (lift_row b j)

/-- The cardinality of row `b`: the sum of the mask over the row. -/
theorem card_apply (cd : IVec S512x10 32) (b : Fin 512) :
    Terms.card (F := Ideal) cd (ix1 b) = ∑ j : Fin 100000, Terms.yMask (F := Ideal) cd (ix2 b j) := by
  unfold Terms.card
  exact rowSum_apply _ b

/-- The masked logit sum of row `b`: the sum over the row of the clipped logit times the mask. -/
theorem sumlm_apply (x : FVec Ideal S512x100000 .f32) (cd : IVec S512x10 32) (b : Fin 512) :
    Terms.sumlm (F := Ideal) x cd (ix1 b)
      = ∑ j : Fin 100000, Terms.clipped (F := Ideal) x (ix2 b j) * Terms.yMask (F := Ideal) cd (ix2 b j) := by
  unfold Terms.sumlm
  rw [rowSum_apply]
  rfl

end Cert.Proof.RRows

end
-- ==== Proof.KUniq.lean ====
/-
  The kernel side of term 1, read at an index, at the ideal instance.

  uniq[b,k] is the bit "entry k of row b is valid (≥ 0, signed) and no earlier valid entry of the row equals it":
  the printed composition is valid ∧ ¬dup, with dup[b,k] the or over j of (cd[b,k] = cd[b,j]) ∧ (k > j) ∧ valid[b,j],
  the comparison k > j taken on two 10-element iotas; an or-fold from 0 is 1 exactly when some summand is 1.
  Converted to a number the bit is 1 or 0. The cardinality before the maximum and the masked sum are reductions by
  addition along the row from 0: finite sums over the 10 entries.
-/
import proofs.«406286_j15479062135299_3_alg».proof.Proof.KTerms
import Idealize.ShloMosaic.Lib.ValueIdx
import Idealize.ShloMosaic.Lib.IdealHost
import Idealize.ShloMosaic.Lib.Affine
import Idealize.ShloMosaic.Lib.StableHlo.Predicate
import Idealize.ShloMosaic.PureOps.Ideal
import Idealize.ShloMosaic.PureOps.Ideal.Laws
import Idealize.ShloMosaic.PureOps.Reduce

noncomputable section

namespace Cert.Proof.KUniq

open Idealize.ShloMosaic Idealize.ShloMosaic.ValueIdx
open Cert.KernelIdeal Cert.KernelIdeal.Gen Cert.KernelIdeal.Terms

/-! ## Bits and folds -/

theorem fold_ori_eq_one {ι : Type} [DecidableEq ι] (S : Finset ι) (f : ι → BitVec 1) :
    S.fold IntOp.ori 0#1 f = 1#1 ↔ ∃ i ∈ S, f i = 1#1 := by
  induction S using Finset.induction_on with
  | empty => simp
  | insert a S ha ih =>
    rw [Finset.fold_insert ha, IntOp.ori_eq_one, ih]
    simp [Finset.exists_mem_insert]

theorem toInt_ofNat_lt10 (k : Fin 10) : (BitVec.ofNat 32 k.val).toInt = (k.val : Int) :=
  StableHlo.Predicate.toInt_ofNat_small k.val (by have := k.isLt; omega)

/-! ## The reductions' shape facts -/

theorem red3 : S512x10x10.Reduces [2] S512x10 := by decide
theorem red2 : S512x10.Reduces [1] S512 := by decide

theorem lift3 (b : Fin 512) (k j : Fin 10) : red3.lift (ix2 b k) j = ix3 b k j := by
  funext a
  refine Fin.ext ?_
  match a with
  | ⟨0, _⟩ => rfl
  | ⟨1, _⟩ => rfl
  | ⟨2, _⟩ => rfl

theorem lift2 (b : Fin 512) (k : Fin 10) : red2.lift (ix1 b) k = ix2 b k := by
  funext a
  refine Fin.ext ?_
  match a with
  | ⟨0, _⟩ => rfl
  | ⟨1, _⟩ => rfl

/-! ## The masks at an index -/

theorem valid_apply (cd : IVec S512x10 32) (i : S512x10.Idx) : valid cd i = IntOp.cmpi .sge (cd i) 0#32 := rfl

theorem valid_eq_one (cd : IVec S512x10 32) (i : S512x10.Idx) : valid cd i = 1#1 ↔ 0 ≤ (cd i).toInt := by
  rw [valid_apply, IntOp.cmpi_sge]; rfl

theorem lower_apply (k j : Fin 10) : lower (ix2 k j) = IntOp.cmpi .sgt (BitVec.ofNat 32 k.val) (BitVec.ofNat 32 j.val) := rfl

theorem lower_eq_one (k j : Fin 10) : lower (ix2 k j) = 1#1 ↔ j < k := by
  rw [lower_apply, IntOp.cmpi_sgt, toInt_ofNat_lt10, toInt_ofNat_lt10]
  exact ⟨fun h => Fin.lt_def.2 (by omega), fun h => by have := Fin.lt_def.1 h; omega⟩

theorem eqKJ_apply (cd : IVec S512x10 32) (b : Fin 512) (k j : Fin 10) :
    eqKJ cd (ix3 b k j) = IntOp.cmpi .eq (cd (ix2 b k)) (cd (ix2 b j)) := by
  show IntOp.cmpi .eq (cd _) (cd _) = _
  congr 2
  · funext a; match a with
    | ⟨0, _⟩ => rfl
    | ⟨1, _⟩ => rfl
  · funext a; match a with
    | ⟨0, _⟩ => rfl
    | ⟨1, _⟩ => rfl

/-- The array the or-reduction runs over. -/
def dupTerm (cd : IVec S512x10 32) : IVec S512x10x10 1 :=
  andi
    (andi (eqKJ cd)
      (broadcastInDim S512x10x10 ![0, 1, 2] bcast_S1x10x10_S512x10x10_0_1_2
        (broadcastInDim S1x10x10 ![1, 2] bcast_S10x10_S1x10x10_1_2 lower)))
    (broadcastInDim S512x10x10 ![0, 1, 2] bcast_S512x1x10_S512x10x10_0_1_2
      (broadcastInDim S512x1x10 ![0, 2] bcast_S512x10_S512x1x10_0_2 (valid cd)))

theorem dup_eq (cd : IVec S512x10 32) :
    dup cd = Host.reduce IntOp.ori (dupTerm cd) (constantI S_ 1 0#1) reducesTo_S512x10x10_S512x10_d2 h_S_ := rfl

/-- The summand of the or-reduction at (b, k, j). -/
theorem dupTerm_apply (cd : IVec S512x10 32) (b : Fin 512) (k j : Fin 10) :
    dupTerm cd (ix3 b k j) = IntOp.andi (IntOp.andi (eqKJ cd (ix3 b k j)) (lower (ix2 k j))) (valid cd (ix2 b j)) := by
  show IntOp.andi (IntOp.andi (eqKJ cd (ix3 b k j)) (lower _)) (valid cd _) = _
  refine congrArg₂ IntOp.andi (congrArg₂ IntOp.andi rfl (congrArg lower ?_)) (congrArg (valid cd) ?_)
  · funext a; match a with
    | ⟨0, _⟩ => rfl
    | ⟨1, _⟩ => rfl
  · funext a; match a with
    | ⟨0, _⟩ => rfl
    | ⟨1, _⟩ => rfl

theorem dupTerm_eq_one (cd : IVec S512x10 32) (b : Fin 512) (k j : Fin 10) :
    dupTerm cd (ix3 b k j) = 1#1 ↔ (j < k ∧ 0 ≤ (cd (ix2 b j)).toInt ∧ cd (ix2 b j) = cd (ix2 b k)) := by
  rw [dupTerm_apply, IntOp.andi_eq_one, IntOp.andi_eq_one, eqKJ_apply, IntOp.cmpi_eq, lower_eq_one, valid_eq_one]
  exact ⟨fun h => ⟨h.1.2, h.2, h.1.1.symm⟩, fun h => ⟨⟨h.2.2.symm, h.1⟩, h.2.1⟩⟩

theorem dup_eq_one (cd : IVec S512x10 32) (b : Fin 512) (k : Fin 10) :
    dup cd (ix2 b k) = 1#1 ↔ ∃ j : Fin 10, j < k ∧ 0 ≤ (cd (ix2 b j)).toInt ∧ cd (ix2 b j) = cd (ix2 b k) := by
  rw [dup_eq, Host.reduce_eq_fold_single IntOp.ori _ _ reducesTo_S512x10x10_S512x10_d2 red3 h_S_ (ix2 b k)]
  show Finset.fold IntOp.ori 0#1 _ Finset.univ = 1#1 ↔ _
  rw [fold_ori_eq_one]
  have e : ∀ j : Fin 10, (dupTerm cd ∘ red3.lift (ix2 b k)) j = dupTerm cd (ix3 b k j) :=
    fun j => congrArg (dupTerm cd) (lift3 b k j)
  constructor
  · rintro ⟨j, -, hj⟩
    exact ⟨j, (dupTerm_eq_one cd b k j).1 ((e j).symm.trans hj)⟩
  · rintro ⟨j, hj⟩
    exact ⟨j, Finset.mem_univ _, (e j).trans ((dupTerm_eq_one cd b k j).2 hj)⟩

theorem uniqB_eq_one (cd : IVec S512x10 32) (b : Fin 512) (k : Fin 10) :
    uniqB cd (ix2 b k) = 1#1 ↔
      (0 ≤ (cd (ix2 b k)).toInt ∧ ¬ ∃ j : Fin 10, j < k ∧ 0 ≤ (cd (ix2 b j)).toInt ∧ cd (ix2 b j) = cd (ix2 b k)) := by
  show IntOp.andi (valid cd (ix2 b k)) (~~~ (dup cd (ix2 b k))) = 1#1 ↔ _
  rw [IntOp.andi_eq_one, IntOp.not_eq_one, dup_eq_one, valid_eq_one]

theorem uitofp_bit (c : BitVec 1) : FloatOps.uitofp (F := Ideal) .f32 c = if c = 1#1 then (1 : EReal) else 0 := by
  show ((c.toNat : ℝ) : EReal) = _
  by_cases h : c = 1#1
  · subst h; simp
  · rw [if_neg h, eq_zero_of_ne_one h]; simp

/-- uniq[b,k] as a number: 1 when the entry is valid and no earlier valid entry of the row equals it, else 0. -/
theorem uniqF_apply (cd : IVec S512x10 32) (b : Fin 512) (k : Fin 10) :
    uniqF (F := Ideal) cd (ix2 b k)
      = if (0 ≤ (cd (ix2 b k)).toInt ∧ ¬ ∃ j : Fin 10, j < k ∧ 0 ≤ (cd (ix2 b j)).toInt ∧ cd (ix2 b j) = cd (ix2 b k))
        then (1 : EReal) else 0 := by
  show FloatOps.uitofp (F := Ideal) .f32 (uniqB cd (ix2 b k)) = _
  rw [uitofp_bit]
  exact if_congr (uniqB_eq_one cd b k) rfl rfl

/-! ## The two row sums -/

theorem cardPre_apply (cd : IVec S512x10 32) (b : Fin 512) :
    cardPre (F := Ideal) cd (ix1 b) = ∑ k : Fin 10, uniqF (F := Ideal) cd (ix2 b k) := by
  show Ideal.hostReduceAdd reducesTo_S512x10_S512_d1 (uniqF (F := Ideal) cd) (Ideal.ofBits .f32 0x00000000#32) (ix1 b) = _
  rw [Ideal.hostReduceAdd_single reducesTo_S512x10_S512_d1 red2, Ideal.ofBits_zero_f32, zero_add]
  exact Finset.sum_congr rfl fun k _ => congrArg (uniqF (F := Ideal) cd) (lift2 b k)

theorem sumlm_apply (x : FVec Ideal S512x100000 .f32) (cd : IVec S512x10 32) (b : Fin 512) :
    sumlm (F := Ideal) x cd (ix1 b)
      = ∑ k : Fin 10, gath (F := Ideal) x cd (ix2 b k) * uniqF (F := Ideal) cd (ix2 b k) := by
  show Ideal.hostReduceAdd reducesTo_S512x10_S512_d1 (mulf (gath (F := Ideal) x cd) (uniqF (F := Ideal) cd))
    (Ideal.ofBits .f32 0x00000000#32) (ix1 b) = _
  rw [Ideal.hostReduceAdd_single reducesTo_S512x10_S512_d1 red2, Ideal.ofBits_zero_f32, zero_add]
  exact Finset.sum_congr rfl fun k _ =>
    congrArg (mulf (gath (F := Ideal) x cd) (uniqF (F := Ideal) cd)) (lift2 b k)

end Cert.Proof.KUniq
end
-- ==== Proof.KGath.lean ====
/-
  The kernel's clipped gather, read at an index, at the ideal instance.

  The gather reads, for row b and entry k, the logit of row b at the column idx[b,k], the column read signed and
  clamped into [0, 99999]; the row is a batching axis, the column the one start index. The column index is the entry
  itself at a valid entry (a negative safe index would have 100000 added; a valid entry is not negative), and the
  in-range bit — an and-reduction over a unit axis of 0 ≤ idx ≤ 99999 — is 1 when the entry is below 100000, so the
  select keeps the read. The clip min 20 (max (-20) ·) makes the value a real number in [-20, 20] at every index.
-/
import proofs.«406286_j15479062135299_3_alg».proof.Proof.KUniq

noncomputable section

namespace Cert.Proof.KUniq

open Idealize.ShloMosaic Idealize.ShloMosaic.ValueIdx
open Cert.KernelIdeal Cert.KernelIdeal.Gen Cert.KernelIdeal.Terms

/-! ## The clip bounds as numbers -/

theorem ofBits_twenty : Ideal.ofBits .f32 0x41A00000#32 = ((20 : ℝ) : EReal) := by
  simp [Ideal.ofBits, Ideal.ieee, -EReal.coe_mul]; norm_num

theorem ofBits_neg_twenty : Ideal.ofBits .f32 0xC1A00000#32 = ((-20 : ℝ) : EReal) := by
  simp [Ideal.ofBits, Ideal.ieee, -EReal.coe_mul]; norm_num

theorem clip_apply (v : FVec Ideal S512x10 .f32) (i : S512x10.Idx) :
    clip512x10 (F := Ideal) v i = min ((20 : ℝ) : EReal) (max ((-20 : ℝ) : EReal) (v i)) := by
  show min (Ideal.ofBits .f32 0x41A00000#32) (max (Ideal.ofBits .f32 0xC1A00000#32) (v i)) = _
  rw [ofBits_twenty, ofBits_neg_twenty]

/-- The clipped gather is a real number in [-20, 20] at every index. -/
theorem gath_bdd (x : FVec Ideal S512x100000 .f32) (cd : IVec S512x10 32) (i : S512x10.Idx) :
    ((-20 : ℝ) : EReal) ≤ gath (F := Ideal) x cd i ∧ gath (F := Ideal) x cd i ≤ ((20 : ℝ) : EReal) := by
  show _ ≤ clip512x10 (F := Ideal) (gathRaw x cd) i ∧ clip512x10 (F := Ideal) (gathRaw x cd) i ≤ _
  rw [clip_apply]
  refine ⟨le_min ?_ (le_max_left _ _), min_le_left _ _⟩
  exact EReal.coe_le_coe_iff.2 (by norm_num)

/-! ## The index of the gather -/

theorem fold_andi_eq_one {ι : Type} [DecidableEq ι] (S : Finset ι) (f : ι → BitVec 1) :
    S.fold IntOp.andi 1#1 f = 1#1 ↔ ∀ i ∈ S, f i = 1#1 := by
  induction S using Finset.induction_on with
  | empty => simp
  | insert a S ha ih =>
    rw [Finset.fold_insert ha, IntOp.andi_eq_one, ih]
    simp [Finset.forall_mem_insert]

theorem red1 : S512x10x1.Reduces [2] S512x10 := by decide

theorem lift1 (b : Fin 512) (k : Fin 10) (u : Fin 1) : red1.lift (ix2 b k) u = ix3 b k u := by
  funext a
  refine Fin.ext ?_
  match a with
  | ⟨0, _⟩ => rfl
  | ⟨1, _⟩ => rfl
  | ⟨2, _⟩ => rfl

theorem gIdx3_apply (cd : IVec S512x10 32) (b : Fin 512) (k : Fin 10) (u : Fin 1) :
    gIdx3 cd (ix3 b k u) = gIdx cd (ix2 b k) := by
  unfold gIdx3 shapeCast
  refine congrArg (gIdx cd) (Shape.reshapeEquiv_eq_of_rowMajor _ ?_)
  rw [Shape.rowMajor_val_two, Shape.rowMajor_val_three]
  show b.val * 10 + k.val = (b.val * 10 + k.val) * 1 + u.val
  have := u.isLt; omega

theorem toInt_zero32 : (0#32 : BitVec 32).toInt = 0 := by decide
theorem toInt_99999 : (99999#32 : BitVec 32).toInt = 99999 := by decide

/-- At a valid entry the gather's column index is the entry itself. -/
theorem gIdx_of_valid (cd : IVec S512x10 32) (i : S512x10.Idx) (hv : 0 ≤ (cd i).toInt) : gIdx cd i = cd i := by
  have hc : candSafe cd i = cd i := by
    show Scalar.select (valid cd i) (cd i) _ = _
    rw [(valid_eq_one cd i).2 hv]; exact select_one _ _
  show Scalar.select (IntOp.cmpi .slt (candSafe cd i) 0#32) (IntOp.addi (candSafe cd i) 100000#32) (candSafe cd i) = cd i
  rw [hc]
  have hn : ¬ IntOp.cmpi .slt (cd i) 0#32 = 1#1 := by
    rw [IntOp.cmpi_slt, toInt_zero32]; omega
  rw [eq_zero_of_ne_one hn]; exact select_zero _ _

/-- The array the in-range and-reduction runs over. -/
def inbTerm (cd : IVec S512x10 32) : IVec S512x10x1 1 :=
  andi
    (cmpi .sge (gIdx3 cd) (broadcastInDim S512x10x1 ![] bcast_S_S512x10x1 (constantI S_ 32 0#32)))
    (cmpi .sle (gIdx3 cd)
      (broadcastInDim S512x10x1 ![0, 1, 2] bcast_S1x1x1_S512x10x1_0_1_2
        (broadcastInDim S1x1x1 ![2] bcast_S1_S1x1x1_2 (constantI S1 32 99999#32))))

theorem gInb_eq (cd : IVec S512x10 32) :
    gInb cd = Host.reduce IntOp.andi (inbTerm cd) (constantI S_ 1 1#1) reducesTo_S512x10x1_S512x10_d2 h_S_ := rfl

theorem inbTerm_apply (cd : IVec S512x10 32) (b : Fin 512) (k : Fin 10) (u : Fin 1) :
    inbTerm cd (ix3 b k u)
      = IntOp.andi (IntOp.cmpi .sge (gIdx cd (ix2 b k)) 0#32) (IntOp.cmpi .sle (gIdx cd (ix2 b k)) 99999#32) := by
  show IntOp.andi (IntOp.cmpi .sge (gIdx3 cd (ix3 b k u)) 0#32) (IntOp.cmpi .sle (gIdx3 cd (ix3 b k u)) 99999#32) = _
  rw [gIdx3_apply]

/-- The in-range bit: the column index lies in [0, 99999]. -/
theorem gInb_eq_one (cd : IVec S512x10 32) (b : Fin 512) (k : Fin 10) :
    gInb cd (ix2 b k) = 1#1 ↔ (0 ≤ (gIdx cd (ix2 b k)).toInt ∧ (gIdx cd (ix2 b k)).toInt ≤ 99999) := by
  rw [gInb_eq, Host.reduce_eq_fold_single IntOp.andi _ _ reducesTo_S512x10x1_S512x10_d2 red1 h_S_ (ix2 b k)]
  show Finset.fold IntOp.andi 1#1 _ Finset.univ = 1#1 ↔ _
  rw [fold_andi_eq_one]
  have e : ∀ u : Fin 1, (inbTerm cd ∘ red1.lift (ix2 b k)) u = inbTerm cd (ix3 b k u) :=
    fun u => congrArg (inbTerm cd) (lift1 b k u)
  have t : ∀ u : Fin 1, inbTerm cd (ix3 b k u) = 1#1 ↔
      (0 ≤ (gIdx cd (ix2 b k)).toInt ∧ (gIdx cd (ix2 b k)).toInt ≤ 99999) := fun u => by
    rw [inbTerm_apply, IntOp.andi_eq_one, IntOp.cmpi_sge, IntOp.cmpi_sle, toInt_zero32, toInt_99999]
  show (∀ u ∈ (Finset.univ : Finset (Fin 1)), (inbTerm cd ∘ red1.lift (ix2 b k)) u = 1#1) ↔ _
  constructor
  · intro h
    exact (t (0 : Fin 1)).1 ((e (0 : Fin 1)).symm.trans (h (0 : Fin 1) (Finset.mem_univ _)))
  · intro h u _
    exact (e u).trans ((t u).2 h)

/-! ## The gather read at an index -/

/-- The gather's dimension numbers: one column per (row, entry), the row a batching axis. -/
abbrev gd := gather_S512x100000_S512x10x1_S512x10_n_1_0_0_1_2_11

/-- The gather at (b, k) reads row b at the start index idx[b,k,0], read signed and clamped into [0, 99999]. -/
theorem gather_apply {α : Type} (x : S512x100000.Idx → α) (idx : IVec S512x10x1 32) (b : Fin 512) (k : Fin 10) :
    Host.gather gd x idx (ix2 b k)
      = x (ix2 b ⟨min (idx (ix3 b k (0 : Fin 1))).toInt.toNat 99999, by omega⟩) := by
  unfold Host.gather
  congr 1
  funext a
  refine Fin.ext ?_
  match a with
  | ⟨0, _⟩ =>
    show gd.start (ix2 b k) idx 0 + gd.batchCoord (ix2 b k) 0 + gd.offCoord (ix2 b k) 0 = b.val
    rw [GatherDims.start_batching _ _ _ _ (show (0 : Fin 2) ∈ gd.operandBatchingDims from List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show gd.start (ix2 b k) idx 1 + gd.batchCoord (ix2 b k) 1 + gd.offCoord (ix2 b k) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    have hsi : gd.siIdx (ix2 b k) ⟨List.idxOf (1 : Fin 2) gd.startIndexMap,
        List.idxOf_lt_length_iff.2 (List.mem_singleton.mpr rfl)⟩ = ix3 b k (0 : Fin 1) := by
      funext c; refine Fin.ext ?_
      match c with
      | ⟨0, _⟩ => rfl
      | ⟨1, _⟩ => rfl
      | ⟨2, _⟩ => rfl
    rw [hsi]
    rfl

/-- A word that is nonnegative read signed has the same value read unsigned. -/
theorem toInt_toNat_of_nonneg (w : BitVec 32) (h : 0 ≤ w.toInt) : w.toInt.toNat = w.toNat := by
  have hw := w.isLt
  rw [BitVec.toInt_eq_toNat_cond] at h ⊢
  split_ifs at h ⊢ with hc
  · simp
  · exfalso; omega

theorem col_lt (w : BitVec 32) (h0 : 0 ≤ w.toInt) (h1 : w.toInt < 100000) : w.toNat < 100000 := by
  have := toInt_toNat_of_nonneg w h0; omega

/-- At a valid entry below 100000 the unclipped gather reads the logit at that column. -/
theorem gathRaw_apply (x : FVec Ideal S512x100000 .f32) (cd : IVec S512x10 32) (b : Fin 512) (k : Fin 10)
    (hv : 0 ≤ (cd (ix2 b k)).toInt) (hlt : (cd (ix2 b k)).toInt < 100000) :
    gathRaw (F := Ideal) x cd (ix2 b k) = x (ix2 b ⟨(cd (ix2 b k)).toNat, col_lt _ hv hlt⟩) := by
  have hg := gIdx_of_valid cd (ix2 b k) hv
  have hin : gInb cd (ix2 b k) = 1#1 := (gInb_eq_one cd b k).2 (by rw [hg]; exact ⟨hv, by omega⟩)
  show Scalar.select (gInb cd (ix2 b k)) (Host.gather gd x (gIdx3 cd) (ix2 b k)) _ = _
  rw [hin, select_one, gather_apply]
  refine congrArg x (congrArg (ix2 b) (Fin.ext ?_))
  show min (gIdx3 cd (ix3 b k (0 : Fin 1))).toInt.toNat 99999 = (cd (ix2 b k)).toNat
  rw [gIdx3_apply, hg, toInt_toNat_of_nonneg _ hv]
  have := col_lt _ hv hlt
  omega

/-- At a valid entry below 100000 the clipped gather is the clipped logit at that column. -/
theorem gath_apply (x : FVec Ideal S512x100000 .f32) (cd : IVec S512x10 32) (b : Fin 512) (k : Fin 10)
    (hv : 0 ≤ (cd (ix2 b k)).toInt) (hlt : (cd (ix2 b k)).toInt < 100000) :
    gath (F := Ideal) x cd (ix2 b k)
      = min ((20 : ℝ) : EReal) (max ((-20 : ℝ) : EReal) (x (ix2 b ⟨(cd (ix2 b k)).toNat, col_lt _ hv hlt⟩))) := by
  show clip512x10 (F := Ideal) (gathRaw x cd) (ix2 b k) = _
  rw [clip_apply, gathRaw_apply x cd b k hv hlt]

end Cert.Proof.KUniq
end
-- ==== Proof.CardSum.lean ====
/- Term 1's two sums, kernel against reference.

   The kernel marks the first occurrence of each present candidate of a row (uniq[b,k]: present, and no earlier present
   candidate of the row is equal to it) and sums over the 10 candidates; the reference marks the columns some present
   candidate names (y_mask[b,j]) and sums over the 100000 columns. Under the bound cd < 100000 the map k ↦ cd[b,k] is a
   bijection from the first occurrences onto the marked columns: it is injective on first occurrences (of two equal
   present candidates the later is not a first occurrence), and every marked column is named by a present candidate,
   hence by its first occurrence (strong induction on the position). So Σ_k g(cd[b,k])·uniq[b,k] = Σ_j g(j)·y_mask[b,j]
   for every g: g ≡ 1 is the cardinality, g = the clipped logit of the row is the masked sum. -/
import proofs.«406286_j15479062135299_3_alg».proof.Proof.YMask
import proofs.«406286_j15479062135299_3_alg».proof.Proof.RRows
import proofs.«406286_j15479062135299_3_alg».proof.Proof.KUniq
import proofs.«406286_j15479062135299_3_alg».proof.Proof.KGath

noncomputable section
open Idealize.ShloMosaic Idealize.ShloMosaic.ValueIdx
open scoped BigOperators

namespace Cert.Proof.CardSum
open Cert.KernelIdeal (S512x10 S512x100000 S512)

/-! ## First occurrences against marked columns -/

/-- A present candidate has a first occurrence naming the same column. -/
theorem exists_first {n : ℕ} (c : Fin n → ℤ) (v : ℤ) :
    ∀ (m : ℕ) (k : Fin n), k.val = m → 0 ≤ c k → c k = v →
      ∃ k0 : Fin n, (0 ≤ c k0 ∧ ¬ ∃ j : Fin n, j < k0 ∧ 0 ≤ c j ∧ c j = c k0) ∧ c k0 = v := by
  intro m
  induction m using Nat.strong_induction_on with
  | _ m ih =>
    intro k hk h0 hv
    by_cases hd : ∃ j : Fin n, j < k ∧ 0 ≤ c j ∧ c j = c k
    · obtain ⟨j, hjk, hj0, hjc⟩ := hd
      exact ih j.val (by rw [← hk]; exact hjk) j rfl hj0 (hjc.trans hv)
    · exact ⟨k, ⟨h0, hd⟩, hv⟩

/-- Summing over the marked columns (those some present candidate names) is summing over the first occurrences
    of the present candidates, each read at the column it names. -/
theorem sum_marked_eq_sum_first {M : Type*} [AddCommMonoid M] {n N : ℕ} (c : Fin n → ℤ) (hC : ∀ k, c k < N)
    (g : Fin N → M) (G : Fin n → M)
    (hG : ∀ k (h0 : 0 ≤ c k), G k = g ⟨(c k).toNat, by have := hC k; omega⟩) :
    ∑ j ∈ Finset.univ.filter (fun j : Fin N => ∃ k, 0 ≤ c k ∧ c k = (j : ℤ)), g j
      = ∑ k ∈ Finset.univ.filter (fun k : Fin n => 0 ≤ c k ∧ ¬ ∃ j : Fin n, j < k ∧ 0 ≤ c j ∧ c j = c k), G k := by
  symm
  refine Finset.sum_bij (fun k hk => (⟨(c k).toNat, by
      have := hC k; have := (Finset.mem_filter.1 hk).2.1; omega⟩ : Fin N)) ?_ ?_ ?_ ?_
  · intro k hk
    have h0 := (Finset.mem_filter.1 hk).2.1
    refine Finset.mem_filter.2 ⟨Finset.mem_univ _, k, h0, ?_⟩
    show c k = ((c k).toNat : ℤ)
    omega
  · intro k1 hk1 k2 hk2 he
    have h1 := (Finset.mem_filter.1 hk1).2
    have h2 := (Finset.mem_filter.1 hk2).2
    have he' : (c k1).toNat = (c k2).toNat := congrArg Fin.val he
    have hc : c k1 = c k2 := by have := h1.1; have := h2.1; omega
    rcases lt_trichotomy k1 k2 with hlt | heq | hgt
    · exact absurd ⟨k1, hlt, h1.1, hc⟩ h2.2
    · exact heq
    · exact absurd ⟨k2, hgt, h2.1, hc.symm⟩ h1.2
  · intro j hj
    obtain ⟨k, hk0, hkj⟩ := (Finset.mem_filter.1 hj).2
    obtain ⟨k0, hU, hv⟩ := exists_first c (j : ℤ) k.val k rfl hk0 hkj
    refine ⟨k0, Finset.mem_filter.2 ⟨Finset.mem_univ _, hU⟩, ?_⟩
    apply Fin.ext
    show (c k0).toNat = (j : ℕ)
    omega
  · intro k hk
    exact hG k (Finset.mem_filter.1 hk).2.1

/-- The same for extended-real sums against indicator factors. -/
theorem sum_mul_marked_eq_sum_mul_first {n N : ℕ} (c : Fin n → ℤ) (hC : ∀ k, c k < N)
    (g : Fin N → EReal) (G : Fin n → EReal)
    (hG : ∀ k (h0 : 0 ≤ c k), G k = g ⟨(c k).toNat, by have := hC k; omega⟩) :
    ∑ j : Fin N, g j * (if ∃ k, 0 ≤ c k ∧ c k = (j : ℤ) then (1 : EReal) else 0)
      = ∑ k : Fin n, G k * (if 0 ≤ c k ∧ ¬ ∃ j : Fin n, j < k ∧ 0 ≤ c j ∧ c j = c k then (1 : EReal) else 0) := by
  simp only [mul_ite, mul_one, mul_zero]
  rw [← Finset.sum_filter, ← Finset.sum_filter]
  exact sum_marked_eq_sum_first c hC g G hG

theorem sum_marked_eq_sum_first_one {n N : ℕ} (c : Fin n → ℤ) (hC : ∀ k, c k < N) :
    ∑ j : Fin N, (if ∃ k, 0 ≤ c k ∧ c k = (j : ℤ) then (1 : EReal) else 0)
      = ∑ k : Fin n, (if 0 ≤ c k ∧ ¬ ∃ j : Fin n, j < k ∧ 0 ≤ c j ∧ c j = c k then (1 : EReal) else 0) := by
  rw [← Finset.sum_filter, ← Finset.sum_filter]
  exact sum_marked_eq_sum_first c hC (fun _ => 1) (fun _ => 1) (fun _ _ => rfl)

/-! ## Term 1's two sums -/

/-- The candidates of row b, read signed. -/
abbrev cRow (cd : IVec S512x10 32) (b : Fin 512) : Fin 10 → ℤ := fun k => (cd (ix2 b k)).toInt

/-- "First occurrence" said on the words is the same as said on their signed readings. -/
theorem first_iff (cd : IVec S512x10 32) (b : Fin 512) (k : Fin 10) :
    (0 ≤ (cd (ix2 b k)).toInt ∧ ¬ ∃ j : Fin 10, j < k ∧ 0 ≤ (cd (ix2 b j)).toInt ∧ cd (ix2 b j) = cd (ix2 b k))
      ↔ (0 ≤ cRow cd b k ∧ ¬ ∃ j : Fin 10, j < k ∧ 0 ≤ cRow cd b j ∧ cRow cd b j = cRow cd b k) := by
  simp only [cRow, BitVec.toInt_inj]

theorem uniqF_apply' (cd : IVec S512x10 32) (b : Fin 512) (k : Fin 10) :
    Cert.KernelIdeal.Terms.uniqF (F := Ideal) cd (ix2 b k)
      = if 0 ≤ cRow cd b k ∧ ¬ ∃ j : Fin 10, j < k ∧ 0 ≤ cRow cd b j ∧ cRow cd b j = cRow cd b k
        then (1 : EReal) else 0 := by
  rw [Cert.Proof.KUniq.uniqF_apply]
  exact if_congr (first_iff cd b k) rfl rfl

theorem yMask_apply' (cd : IVec S512x10 32) (b : Fin 512) (j : Fin 100000) :
    Cert.ReferenceIdeal.Terms.yMask (F := Ideal) cd (ix2 b j)
      = if ∃ k : Fin 10, 0 ≤ cRow cd b k ∧ cRow cd b k = (j : ℤ) then (1 : EReal) else 0 :=
  Cert.ReferenceIdeal.YMask.yMask_apply cd b j

/-- Σ_k uniq[b,k] = Σ_j y_mask[b,j]: both count the distinct present candidates of the row. -/
theorem card_eq (cd : IVec S512x10 32) (hC : ∀ i : S512x10.Idx, (cd i).toInt < 100000) :
    Cert.KernelIdeal.Terms.cardPre (F := Ideal) cd = Cert.ReferenceIdeal.Terms.card (F := Ideal) cd := by
  funext i
  obtain ⟨b, rfl⟩ : ∃ b : Fin 512, i = ix1 b := ⟨i 0, eq_ix1 i⟩
  rw [Cert.Proof.KUniq.cardPre_apply, Cert.Proof.RRows.card_apply]
  simp only [uniqF_apply', yMask_apply']
  exact (sum_marked_eq_sum_first_one (N := 100000) (cRow cd b) (fun k => hC (ix2 b k))).symm

/-- The gathered, clipped logit of a present candidate is the reference's clipped logit at the column it names. -/
theorem gath_eq_clipped (x : FVec Ideal S512x100000 .f32) (cd : IVec S512x10 32)
    (hC : ∀ i : S512x10.Idx, (cd i).toInt < 100000) (b : Fin 512) (k : Fin 10) (h0 : 0 ≤ cRow cd b k) :
    Cert.KernelIdeal.Terms.gath (F := Ideal) x cd (ix2 b k)
      = Cert.ReferenceIdeal.Terms.clipped (F := Ideal) x
          (ix2 b (⟨(cRow cd b k).toNat, by have := hC (ix2 b k); show ((cd (ix2 b k)).toInt).toNat < 100000; omega⟩ : Fin 100000)) := by
  rw [Cert.Proof.KUniq.gath_apply x cd b k h0 (hC (ix2 b k)), Cert.Proof.RRows.clipped_apply,
    Cert.Proof.KUniq.ofBits_twenty, Cert.Proof.KUniq.ofBits_neg_twenty]
  have hcol : (cd (ix2 b k)).toNat = (cRow cd b k).toNat := by
    have := BitVec.toInt_eq_toNat_cond (cd (ix2 b k))
    have h0' : 0 ≤ (cd (ix2 b k)).toInt := h0
    show _ = ((cd (ix2 b k)).toInt).toNat
    split_ifs at this <;> omega
  congr 4
  exact Fin.ext hcol

/-- Σ_k clip(x[b,cd[b,k]])·uniq[b,k] = Σ_j clip(x[b,j])·y_mask[b,j]. -/
theorem sumlm_eq (x : FVec Ideal S512x100000 .f32) (cd : IVec S512x10 32)
    (hC : ∀ i : S512x10.Idx, (cd i).toInt < 100000) :
    Cert.KernelIdeal.Terms.sumlm (F := Ideal) x cd = Cert.ReferenceIdeal.Terms.sumlm (F := Ideal) x cd := by
  funext i
  obtain ⟨b, rfl⟩ : ∃ b : Fin 512, i = ix1 b := ⟨i 0, eq_ix1 i⟩
  rw [Cert.Proof.KUniq.sumlm_apply, Cert.Proof.RRows.sumlm_apply]
  simp only [uniqF_apply', yMask_apply']
  exact (sum_mul_marked_eq_sum_mul_first (N := 100000) (cRow cd b) (fun k => hC (ix2 b k))
    (fun j => Cert.ReferenceIdeal.Terms.clipped (F := Ideal) x (ix2 b j))
    (fun k => Cert.KernelIdeal.Terms.gath (F := Ideal) x cd (ix2 b k))
    (fun k h0 => gath_eq_clipped x cd hC b k h0)).symm

end Cert.Proof.CardSum

end
-- ==== Proof.Term2.lean ====
/- The second term, index by index, at the ideal values.

   Kernel side: the value the region's body stores at lane r of a block is the sum over the block's 2048 columns of
   the softplus of the clipped logit, with the row's ten masked candidate columns and the columns past 2000 left
   out. Reference side: row b of the second term is the sum over the 2000 head columns of the softplus of the clipped
   logit times one minus the mask. The join: the 48 columns past 2000 contribute nothing; a head column j equals a
   masked candidate (the candidate where it is present, else -1) exactly when a present candidate equals j, which is
   when the mask is one there; a · (1 - 1) = 0 and a · (1 - 0) = a. No bound on the candidates is needed: a candidate
   that is negative or at least 2000 meets no head column on either side. -/
import proofs.«406286_j15479062135299_3_alg».proof.Proof.KTerms
import proofs.«406286_j15479062135299_3_alg».proof.Proof.RTerms
import proofs.«406286_j15479062135299_3_alg».proof.Proof.KRegionDef
import proofs.«406286_j15479062135299_3_alg».proof.Proof.YMask
import Idealize.ShloMosaic.Lib.ValueIdx
import Idealize.ShloMosaic.Lib.ValueLayout
import Idealize.ShloMosaic.Lib.Pipeline.Value
import Idealize.ShloMosaic.Lib.WordArith
import Idealize.ShloMosaic.Lib.IdealHost
import Idealize.ShloMosaic.PureOps.Ideal.Laws
import Mathlib.Algebra.BigOperators.Fin
import Mathlib.Data.EReal.Operations

noncomputable section

namespace Cert.Proof.Term2

open Idealize.ShloMosaic Idealize.ShloMosaic.ValueIdx Idealize.SL.Sem
open scoped BigOperators
open Idealize.ShloMosaic.WordArith

/-- The lower and the upper clipping bounds, as the extended reals the two printed constants denote. -/
def lo : EReal := Ideal.ofBits .f32 0xC1A00000#32
def hi : EReal := Ideal.ofBits .f32 0x41A00000#32

/-- The printed clip: the minimum with the upper bound of the maximum with the lower bound. -/
def clipE (v : EReal) : EReal := min hi (max lo v)

/-- The printed softplus at a value (whose difference with itself is never unordered): max v 0 + log (1 + exp (-|v|)). -/
def splus (v : EReal) : EReal := max v 0 + Ideal.log1p (Ideal.exp (-(max v (-v))))

theorem cmp_one_self (a : EReal) : Ideal.cmp .one a a = 0#1 := by simp [Ideal.cmp]
theorem cmp_une_self (a : EReal) : Ideal.cmp .une a a = 0#1 := by simp [Ideal.cmp]

section Kernel

open Cert.KernelIdeal Cert.KernelIdeal.Gen

/-- The layout tail of the payload: the row sums stored as a lane-dense row. -/
theorem tail_apply (v : FVec Ideal S256 .f32) (r : Fin 256) :
    shapeCast S1x1x256 (transpose S1x256 [1, 0] (shapeCast S256x1 v shapeCasts_S256_S256x1) transposes_S256x1_p1_0_S1x256)
      shapeCasts_S1x256_S1x1x256 (ix3 0 0 r) = v (ix1 r) := by
  rw [shapeCast_ab_1ab_apply, transpose_ix2_apply]
  refine shapeCast_apply _ _ _ (ix1 r) ?_
  rw [Shape.rowMajor_val_one, Shape.rowMajor_val_two]
  show r.val = r.val * 1 + 0
  omega

theorem lift_eq (r : Fin 256) (k : Fin 2048) :
    reduces_S256x2048_S256.lift (ix1 r) k = ix2 r k := by
  funext a
  match a with
  | ⟨0, _⟩ => rfl
  | ⟨1, _⟩ => rfl

theorem col_apply (cb : IVec S256x10 32) (k : Nat) (hk : k < 10) (hs : S256x10.Slices ![0, k] S256x1)
    (r : Fin 256) (j : Fin 2048) :
    broadcastTo S256x2048 (extractStridedSlice S256x1 ![0, k] (shapeCast S256x10 cb shapeCasts_S256x10_S256x10) hs)
      broadcasts_S256x1_S256x2048 (ix2 r j) = cb (ix2 r ⟨k, hk⟩) := by
  refine (broadcastTo_apply _ _ (ix2 r j) (ix2 r (0 : Fin 1)) ?_).trans ?_
  · intro a
    match a with
    | ⟨0, _⟩ => rfl
    | ⟨1, _⟩ => rfl
  refine (extractStridedSlice_apply _ _ _ (ix2 r (0 : Fin 1)) (ix2 r ⟨k, hk⟩) ?_).trans ?_
  · intro a
    match a with
    | ⟨0, _⟩ => show r.val = 0 + r.val; omega
    | ⟨1, _⟩ => show k = k + 0; omega
  rw [shapeCast_self]

theorem exists_fin10 (P : Fin 10 → Prop) :
    (∃ k : Fin 10, P k) ↔ (P ⟨0, by decide⟩ ∨ P ⟨1, by decide⟩ ∨ P ⟨2, by decide⟩ ∨ P ⟨3, by decide⟩ ∨ P ⟨4, by decide⟩ ∨
      P ⟨5, by decide⟩ ∨ P ⟨6, by decide⟩ ∨ P ⟨7, by decide⟩ ∨ P ⟨8, by decide⟩ ∨ P ⟨9, by decide⟩) := by
  constructor
  · rintro ⟨⟨k, hk⟩, h⟩
    have hc : k = 0 ∨ k = 1 ∨ k = 2 ∨ k = 3 ∨ k = 4 ∨ k = 5 ∨ k = 6 ∨ k = 7 ∨ k = 8 ∨ k = 9 := by omega
    rcases hc with rfl | rfl | rfl | rfl | rfl | rfl | rfl | rfl | rfl | rfl <;> tauto
  · rintro (h | h | h | h | h | h | h | h | h | h) <;> exact ⟨_, h⟩

theorem iota_apply (r : Fin 256) (j : Fin 2048) :
    iota .tc S256x2048 32 [1] iota_S256x2048_d1_w32 (ix2 r j) = BitVec.ofNat 32 j.val := by
  exact (iota_single_apply .tc S256x2048 32 1 iota_S256x2048_d1_w32 (ix2 r j)).trans rfl

/-- The lane sum of a block at row r, as a sum over the 2048 columns. -/
theorem rowsum_apply (src : FVec Ideal S256x2048 .f32) (hφ : FKind.Formats .f32)
    (hacc : (0x00000000#32 : BitVec 32) = FKind.add.neutral .f32 hφ) (r : Fin 256) :
    multiReduction .add [1] S256 src 0x00000000#32 reduces_S256x2048_S256 hφ hacc (ix1 r)
      = ∑ j : Fin 2048, src (ix2 r j) := by
  refine (Ideal.multiReduction_add_single src 0x00000000#32 reduces_S256x2048_S256 hφ hacc (ix1 r)).trans ?_
  show ∑ j : Fin 2048, src (reduces_S256x2048_S256.lift (ix1 r) j) = _
  refine Finset.sum_congr rfl fun j _ => ?_
  rw [lift_eq]

theorem toInt_ofNat_lt (n : Nat) (hn : n < 2147483648) : (BitVec.ofNat 32 n).toInt = (n : ℤ) := by
  rw [BitVec.toInt_ofNat']
  have : (n : ℤ) < 2147483648 := by exact_mod_cast hn
  have h0 : (0 : ℤ) ≤ (n : ℤ) := by exact_mod_cast Nat.zero_le _
  simp only [Int.bmod]
  omega

theorem sge_iff (j : Fin 2048) : (2000#32).sle (BitVec.ofNat 32 j.val) = true ↔ 2000 ≤ j.val := by
  have hj := j.isLt
  have h1 : (BitVec.ofNat 32 j.val).toInt = (j.val : ℤ) := toInt_ofNat_lt j.val (by omega)
  have h2 : (2000#32).toInt = 2000 := by decide
  rw [BitVec.sle_iff_toInt_le, h1, h2]
  exact_mod_cast Iff.rfl

/-- The body's mask at (r, j): column j is one of row r's ten masked candidates, or lies past the 2000 head columns. -/
theorem mask_apply (cb : Vec Ideal S256x10 .i32) (r : Fin 256) (j : Fin 2048) :
    k0_pay3 (F := Ideal) cb (ix2 r j) = 1#1 ↔
      ((∃ k : Fin 10, BitVec.ofNat 32 j.val = cb (ix2 r k)) ∨ 2000 ≤ j.val) := by
  unfold k0_pay3
  simp only [Idealize.ShloMosaic.ori, Idealize.ShloMosaic.cmpi, broadcast]
  rw [col_apply cb 0 (by decide), col_apply cb 1 (by decide), col_apply cb 2 (by decide), col_apply cb 3 (by decide),
    col_apply cb 4 (by decide), col_apply cb 5 (by decide), col_apply cb 6 (by decide), col_apply cb 7 (by decide),
    col_apply cb 8 (by decide), col_apply cb 9 (by decide), iota_apply]
  show IntOp.ori _ _ = 1#1 ↔ _
  simp only [IntOp.cmpi, ori_ofBool, ofBool_eq_one_iff, Bool.or_eq_true, beq_iff_eq, sge_iff, exists_fin10]
  simp only [or_assoc]

theorem pay2_apply (xb : Vec Ideal S256x2048 .f32) (i : S256x2048.Idx) :
    k0_pay2 (F := Ideal) xb i = clipE (xb i) := rfl

theorem pay4_apply (i : S256x2048.Idx) : k0_pay4 (F := Ideal) i = 0 := by
  unfold k0_pay4
  show Ideal.ofBits .f32 0x00000000#32 = 0
  exact Ideal.ofBits_zero_f32

/-- The printed softplus at one value. -/
theorem softplus_pt (v : EReal) :
    Scalar.select (Ideal.cmp .one (v - 0) (v - 0)) (v + 0)
      (max v 0 + Ideal.log1p (Ideal.exp (0 - max (v - 0) (-(v - 0))))) = splus v := by
  rw [cmp_one_self, select_zero, sub_zero, zero_sub]
  rfl

/-- The body's stored value at lane r: the sum over the 2048 columns of the softplus of the clipped logit, with the
    candidate columns and the columns past 2000 left out. -/
theorem pay1_apply (xb : Vec Ideal S256x2048 .f32) (cb : Vec Ideal S256x10 .i32) (r : Fin 256) :
    k0_pay1 (F := Ideal) (k0_pay2 xb) (k0_pay3 cb) (Scalar.ofBits .f32 0x00000000#32) (k0_pay4 (F := Ideal)) (ix3 0 0 r)
      = ∑ j : Fin 2048, (if (∃ k : Fin 10, BitVec.ofNat 32 j.val = cb (ix2 r k)) ∨ 2000 ≤ j.val then 0
          else splus (clipE (xb (ix2 r j)))) := by
  unfold k0_pay1
  refine (tail_apply _ r).trans ?_
  refine (rowsum_apply _ _ _ r).trans ?_
  refine Finset.sum_congr rfl fun j _ => ?_
  have hm := mask_apply cb r j
  have hz : (Scalar.ofBits .f32 0x00000000#32 : Ideal .f32) = 0 := Ideal.ofBits_zero_f32
  by_cases h : (∃ k : Fin 10, BitVec.ofNat 32 j.val = cb (ix2 r k)) ∨ 2000 ≤ j.val
  · rw [if_pos h]
    show Scalar.select (k0_pay3 (F := Ideal) cb (ix2 r j)) (Scalar.ofBits .f32 0x00000000#32 : Ideal .f32) _ = 0
    rw [hm.2 h, select_one, hz]
  · rw [if_neg h]
    show Scalar.select (k0_pay3 (F := Ideal) cb (ix2 r j)) (Scalar.ofBits .f32 0x00000000#32 : Ideal .f32) _ = _
    rw [eq_zero_of_ne_one (mt hm.1 h), select_zero]
    show Scalar.select (Ideal.cmp .one (clipE (xb (ix2 r j)) - (Scalar.ofBits .f32 0x00000000#32 : Ideal .f32))
        (clipE (xb (ix2 r j)) - (Scalar.ofBits .f32 0x00000000#32 : Ideal .f32)))
      (clipE (xb (ix2 r j)) + (Scalar.ofBits .f32 0x00000000#32 : Ideal .f32))
      (max (clipE (xb (ix2 r j))) (k0_pay4 (F := Ideal) (ix2 r j)) + Ideal.log1p (Ideal.exp
        ((Scalar.ofBits .f32 0x00000000#32 : Ideal .f32) - max (clipE (xb (ix2 r j)) - (Scalar.ofBits .f32 0x00000000#32 : Ideal .f32))
          (-(clipE (xb (ix2 r j)) - (Scalar.ofBits .f32 0x00000000#32 : Ideal .f32)))))) = _
    rw [hz, pay4_apply]
    exact softplus_pt _

end Kernel

section Reference

open Cert.ReferenceIdeal Cert.ReferenceIdeal.Gen Cert.ReferenceIdeal.Terms

/-- A column of the first 2000, as a column of the 100000. -/
def colH (j : Fin 2000) : Fin 100000 := ⟨j.val, by omega⟩

theorem colH_val (j : Fin 2000) : (colH j).val = j.val := rfl

theorem red2000 : S512x2000.Reduces [1] S512 := by decide

theorem softplus_pt_une (v z : EReal) (hz : z = 0) :
    Scalar.select (Ideal.cmp .une (v - z) (v - z)) (v + z)
      (max v z + Ideal.log1p (Ideal.exp (-(max (v - z) (-(v - z)))))) = splus v := by
  subst hz
  rw [cmp_une_self, select_zero, sub_zero]
  rfl

/-- The reference's softplus at an index. -/
theorem softplusAt_apply (s : Shape) (h : S_.BroadcastsInDim s (![] : Fin 0 → Fin s.rank)) (v : FVec Ideal s .f32) (i : s.Idx) :
    softplusAt s h v i = splus (v i) := by
  have hz : zerosF (F := Ideal) s h i = 0 := by
    show broadcastInDim s ![] h (constant (F := Ideal) S_ .f32 0x00000000#32) i = 0
    rw [broadcastInDim_scalar_apply]; exact Ideal.ofBits_zero_f32
  exact softplus_pt_une (v i) (zerosF (F := Ideal) s h i) hz

/-- The reference's clipped logits at an index. -/
theorem clipped_apply (x : FVec Ideal S512x100000 .f32) (i : S512x100000.Idx) :
    clipped (F := Ideal) x i = clipE (x i) := by
  show min (broadcastInDim S512x100000 ![] bcast_S_S512x100000 (id (constant (F := Ideal) S_ .f32 0x41A00000#32)) i)
    (max (broadcastInDim S512x100000 ![] bcast_S_S512x100000 (id (constant (F := Ideal) S_ .f32 0xC1A00000#32)) i) (x i)) = _
  rw [broadcastInDim_scalar_apply, broadcastInDim_scalar_apply]
  rfl

/-- The host's row sum over the 2000 head columns. -/
theorem hsum_apply (src : FVec Ideal S512x2000 .f32) (b : Fin 512) :
    Host.reduceAdd src (constant (F := Ideal) S_ .f32 0x00000000#32) reducesTo_S512x2000_S512_d1 h_S_ (ix1 b)
      = ∑ j : Fin 2000, src (ix2 b j) := by
  refine (hostReduceAdd_apply _ _ _ _ _).trans ?_
  refine (Ideal.hostReduceAdd_single reducesTo_S512x2000_S512_d1 red2000 src _ (ix1 b)).trans ?_
  have h0 : constant (F := Ideal) S_ .f32 0x00000000#32 (Shape.Idx.first h_S_) = 0 := Ideal.ofBits_zero_f32
  rw [h0, zero_add]
  show ∑ j : Fin 2000, src (red2000.lift (ix1 b) j) = _
  refine Finset.sum_congr rfl fun j _ => ?_
  congr 1
  funext a
  match a with
  | ⟨0, _⟩ => rfl
  | ⟨1, _⟩ => rfl

/-- The reference's second term at row b: over the 2000 head columns, softplus of the clipped logit times one minus the mask. -/
theorem t2_apply (x : FVec Ideal S512x100000 .f32) (cd : IVec S512x10 32) (b : Fin 512) :
    t2 (F := Ideal) x cd (ix1 b)
      = ∑ j : Fin 2000, splus (clipE (x (ix2 b (colH j)))) * (1 - yMask (F := Ideal) cd (ix2 b (colH j))) := by
  unfold t2
  refine (hsum_apply _ b).trans ?_
  refine Finset.sum_congr rfl fun j _ => ?_
  rw [mulf_apply, subf_apply, softplusAt_apply, broadcastInDim_scalar_apply,
    slice2_axis1_apply 0 _ slices_S512x100000_S512x2000_0_0 b j (colH j) (by rw [colH_val]; omega),
    slice2_axis1_apply 0 _ slices_S512x100000_S512x2000_0_0 b j (colH j) (by rw [colH_val]; omega),
    clipped_apply]
  show _ * (Ideal.ofBits .f32 0x3F800000#32 - _) = _
  rw [Ideal.ofBits_one_f32]

end Reference

section Join

open Cert.KernelIdeal.Hand

/-- A 32-bit word is the word of a small natural number exactly when its signed value is that number. -/
theorem ofNat_eq_iff (c : BitVec 32) (j : Nat) (hj : j < 2147483648) : BitVec.ofNat 32 j = c ↔ c.toInt = (j : ℤ) := by
  constructor
  · rintro rfl
    exact toInt_ofNat_lt j hj
  · intro h
    have h1 : BitVec.ofInt 32 c.toInt = c := BitVec.ofInt_toInt
    rw [h, BitVec.ofInt_natCast] at h1
    exact h1

/-- The masked candidate table at an index: the candidate where it is present (signed, at least 0), else -1. -/
theorem candMasked_apply (cd : IVec Cert.KernelIdeal.S512x10 32) (b : Fin 512) (k : Fin 10) :
    Cert.KernelIdeal.Terms.candMasked cd (ix2 b k)
      = if 0 ≤ (cd (ix2 b k)).toInt then cd (ix2 b k) else 4294967295#32 := by
  show Scalar.select (IntOp.cmpi .sge (cd (ix2 b k))
      (broadcastInDim Cert.KernelIdeal.S512x10 ![] Cert.KernelIdeal.Gen.bcast_S_S512x10 (constantI Cert.KernelIdeal.S_ 32 0#32) (ix2 b k)))
    (cd (ix2 b k))
    (broadcastInDim Cert.KernelIdeal.S512x10 ![] Cert.KernelIdeal.Gen.bcast_S_S512x10 (id (constantI Cert.KernelIdeal.S_ 32 4294967295#32)) (ix2 b k)) = _
  rw [broadcastInDim_scalar_apply, broadcastInDim_scalar_apply]
  show Scalar.select (BitVec.ofBool ((0#32).sle (cd (ix2 b k)))) (cd (ix2 b k)) 4294967295#32 = _
  by_cases h : 0 ≤ (cd (ix2 b k)).toInt
  · have hs : (0#32).sle (cd (ix2 b k)) = true := by
      rw [BitVec.sle_iff_toInt_le]; exact h
    rw [hs, if_pos h]
    exact select_one _ _
  · have hs : (0#32).sle (cd (ix2 b k)) = false := by
      rw [Bool.eq_false_iff, Ne, BitVec.sle_iff_toInt_le]; exact h
    rw [hs, if_neg h]
    exact select_zero _ _

/-- For a head column j, some masked candidate of the row is j exactly when some present candidate is j. -/
theorem cand_iff (cd : IVec Cert.KernelIdeal.S512x10 32) (b : Fin 512) (j : Nat) (hj : j < 2000) :
    (∃ k : Fin 10, BitVec.ofNat 32 j = Cert.KernelIdeal.Terms.candMasked cd (ix2 b k)) ↔
      (∃ k : Fin 10, 0 ≤ (cd (ix2 b k)).toInt ∧ (cd (ix2 b k)).toInt = (j : ℤ)) := by
  refine exists_congr fun k => ?_
  rw [candMasked_apply]
  by_cases h : 0 ≤ (cd (ix2 b k)).toInt
  · rw [if_pos h, ofNat_eq_iff _ _ (by omega)]
    exact ⟨fun e => ⟨h, e⟩, fun e => e.2⟩
  · rw [if_neg h]
    constructor
    · intro e
      have e1 := (ofNat_eq_iff _ j (by omega)).1 e
      have e2 : (4294967295#32 : BitVec 32).toInt = -1 := by decide
      omega
    · rintro ⟨h', _⟩
      exact absurd h' h

/-- A sum over the 2048 columns whose terms past column 2000 vanish is the sum over the 2000 head columns. -/
theorem sum_split (f : Fin 2048 → EReal) (hf : ∀ j : Fin 2048, 2000 ≤ j.val → f j = 0) :
    ∑ j : Fin 2048, f j = ∑ j : Fin 2000, f ⟨j.val, by have := j.isLt; omega⟩ := by
  have h := Fin.sum_univ_add (a := 2000) (b := 48) (fun i : Fin (2000 + 48) => f ⟨i.val, i.isLt⟩)
  have h2 : ∑ i : Fin 48, f ⟨(Fin.natAdd 2000 i).val, (Fin.natAdd 2000 i).isLt⟩ = 0 :=
    Finset.sum_eq_zero fun i _ => hf _ (by show 2000 ≤ 2000 + i.val; omega)
  rw [h2, add_zero] at h
  exact h

theorem one_sub_one : (1 : EReal) - 1 = 0 := by
  rw [← EReal.coe_one, ← EReal.coe_sub, sub_self, EReal.coe_zero]

/-- One row: the body's stored value at lane r of block g is the reference's second term at row 256 g + r. -/
theorem row_eq (x : FVec Ideal Cert.KernelIdeal.S512x100000 .f32) (cd : IVec Cert.KernelIdeal.S512x10 32)
    (hy : ∀ (b : Fin 512) (j : Fin 100000), Cert.ReferenceIdeal.Terms.yMask (F := Ideal) cd (ix2 b j)
      = if ∃ k : Fin 10, 0 ≤ (cd (ix2 b k)).toInt ∧ (cd (ix2 b k)).toInt = (j.val : ℤ) then 1 else 0)
    (g : Fin 2) (r : Fin 256) :
    Cert.KernelIdeal.Gen.k0_pay1 (F := Ideal) (Cert.KernelIdeal.Gen.k0_pay2 (xblk x g))
        (Cert.KernelIdeal.Gen.k0_pay3 (cmblk (F := Ideal) (Cert.KernelIdeal.Terms.candMasked cd) g))
        (Scalar.ofBits .f32 0x00000000#32) (Cert.KernelIdeal.Gen.k0_pay4 (F := Ideal)) (ix3 0 0 r)
      = Cert.ReferenceIdeal.Terms.t2 (F := Ideal) x cd (ix1 (rowOf g r)) := by
  rw [pay1_apply, t2_apply, sum_split _ (fun j hj => if_pos (Or.inr hj))]
  refine Finset.sum_congr rfl fun j _ => ?_
  have hj := j.isLt
  rw [hy]
  show (if (∃ k : Fin 10, BitVec.ofNat 32 j.val = Cert.KernelIdeal.Terms.candMasked cd (ix2 (rowOf g r) k)) ∨ 2000 ≤ j.val
    then (0 : EReal) else splus (clipE (x (ix2 (rowOf g r) (colH j))))) = _
  have hiff := cand_iff cd (rowOf g r) j.val hj
  by_cases h : ∃ k : Fin 10, 0 ≤ (cd (ix2 (rowOf g r) k)).toInt ∧ (cd (ix2 (rowOf g r) k)).toInt = ((colH j).val : ℤ)
  · rw [if_pos h, if_pos (Or.inl (hiff.2 h)), one_sub_one, mul_zero]
  · rw [if_neg h, if_neg (by
      rintro (h' | h')
      · exact h (hiff.1 h')
      · exact absurd h' (by omega)), sub_zero, mul_one]

/-- The second term: the region's output read as 512 row values is the reference's second term, given the mask's
    value at an index. -/
theorem term2_eq_of (x : FVec Ideal Cert.KernelIdeal.S512x100000 .f32) (cd : IVec Cert.KernelIdeal.S512x10 32)
    (hy : ∀ (b : Fin 512) (j : Fin 100000), Cert.ReferenceIdeal.Terms.yMask (F := Ideal) cd (ix2 b j)
      = if ∃ k : Fin 10, 0 ≤ (cd (ix2 b k)).toInt ∧ (cd (ix2 b k)).toInt = (j.val : ℤ) then 1 else 0) :
    Cert.KernelIdeal.Terms.t2of (F := Ideal) (outArr (Cert.KernelIdeal.Terms.candMasked cd) x)
      = Cert.ReferenceIdeal.Terms.t2 (F := Ideal) x cd := by
  funext i
  obtain ⟨b, rfl⟩ : ∃ b : Fin 512, i = ix1 b := ⟨i 0, eq_ix1 i⟩
  have hb := b.isLt
  have hbr : rowOf ⟨b.val / 256, by omega⟩ ⟨b.val % 256, Nat.mod_lt _ (by decide)⟩ = b :=
    Fin.ext (by rw [rowOf_val]; show 256 * (b.val / 256) + b.val % 256 = b.val; omega)
  unfold Cert.KernelIdeal.Terms.t2of
  refine (shapeCast_apply _ _ (ix1 b) (ix3 (⟨b.val / 256, by omega⟩ : Fin 2) (0 : Fin 1) (⟨b.val % 256, Nat.mod_lt _ (by decide)⟩ : Fin 256)) ?_).trans ?_
  · rw [Shape.rowMajor_val_three, Shape.rowMajor_val_one]
    show (b.val / 256 * 1 + 0) * 256 + b.val % 256 = b.val
    omega
  rw [outArr_apply]
  refine (row_eq x cd hy _ _).trans ?_
  rw [hbr]

/-- The second term: the region's output read as 512 row values is the reference's second term. -/
theorem term2_eq (x : FVec Ideal Cert.KernelIdeal.S512x100000 .f32) (cd : IVec Cert.KernelIdeal.S512x10 32) :
    Cert.KernelIdeal.Terms.t2of (F := Ideal) (outArr (Cert.KernelIdeal.Terms.candMasked cd) x)
      = Cert.ReferenceIdeal.Terms.t2 (F := Ideal) x cd :=
  term2_eq_of x cd (fun b j => Cert.ReferenceIdeal.YMask.yMask_apply cd b j)

end Join

end Cert.Proof.Term2

end
-- ==== Proof.Term3.lean ====
/- TERM 3, index by index, at the ideal values. Both programs read 100 sampled tail columns of the clipped logits and
   flag the samples that are some present candidate's column.
   The kernel takes column 2000 + sp[s] of the whole [512, 100000] array and clips what it read; the reference clips
   the array, cuts columns 2000 … 99999 out and takes column sp[s] of the cut. A take is a gather of whole columns at a
   start index that is wrapped once when negative, with the NaN pattern where the wrapped index is outside the operand;
   for 0 ≤ sp[s] < 98000 both indices are inside, nothing wraps (2000 + sp[s] < 100000 as a signed word), and both
   programs read clip(x[b, 2000 + sp[s]]) at (b, s).
   The kernel's flag is the or over k of (cd[b,k] = 2000 + sp[s]) ∧ (cd[b,k] ≥ 0); the reference's is
   y_mask[b, 2000 + sp[s]] > 0, and y_mask[b, j] is 1 where some k has cd[b,k] ≥ 0 and cd[b,k] = j, else 0. Both are
   the one-bit word of: some k has cd[b,k] ≥ 0 and cd[b,k] = 2000 + sp[s] as integers. -/
import proofs.«406286_j15479062135299_3_alg».proof.Proof.KTerms
import proofs.«406286_j15479062135299_3_alg».proof.Proof.RTerms
import proofs.«406286_j15479062135299_3_alg».proof.Proof.YMask
import Idealize.ShloMosaic.Lib.ValueIdx
import Idealize.ShloMosaic.Lib.ValueLayout
import Idealize.ShloMosaic.Lib.IdealHost
import Idealize.ShloMosaic.Lib.Pipeline.Value
import Idealize.ShloMosaic.Lib.WordArith
import Idealize.ShloMosaic.Lib.Affine
import Idealize.ShloMosaic.Lib.ReduceAll
import Idealize.ShloMosaic.PureOps.Reduce
import Idealize.ShloMosaic.PureOps.Ideal.Laws

noncomputable section

namespace Cert.Take3
open Idealize.ShloMosaic Idealize.ShloMosaic.ValueIdx

/-! ## A gather of whole columns, read at an index -/

section ColTake
variable {α : Type}

abbrev colTakeDims (R N C : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

theorem gather_colTake_apply {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (b : Fin R) (s : Fin C) :
    Host.gather (colTakeDims R N C wf) x idx (ix2 b s)
      = x (ix2 b ⟨min (idx (ix2 s ⟨0, Nat.one_pos⟩)).toInt.toNat (N - 1), by omega⟩) := by
  unfold Host.gather
  congr 1
  funext a
  refine Fin.ext ?_
  show (colTakeDims R N C wf).start (ix2 b s) idx a + (colTakeDims R N C wf).batchCoord (ix2 b s) a
    + (colTakeDims R N C wf).offCoord (ix2 b s) a = _
  rw [GatherDims.batchCoord_eq_zero _ _ _ List.not_mem_nil]
  match a with
  | ⟨0, _⟩ =>
    have h0 : (0 : Fin 2) ∉ (colTakeDims R N C wf).startIndexMap :=
      fun h => absurd (congrArg Fin.val (List.mem_singleton.mp h)) Nat.zero_ne_one
    show (colTakeDims R N C wf).start (ix2 b s) idx (0 : Fin 2) + 0 + (colTakeDims R N C wf).offCoord (ix2 b s) (0 : Fin 2) = b.val
    unfold GatherDims.start
    rw [dif_neg h0, Nat.add_zero, Nat.zero_add]
    rfl
  | ⟨1, _⟩ =>
    have h1 : (1 : Fin 2) ∈ (colTakeDims R N C wf).startIndexMap := List.mem_singleton.mpr rfl
    show (colTakeDims R N C wf).start (ix2 b s) idx (1 : Fin 2) + 0 + (colTakeDims R N C wf).offCoord (ix2 b s) (1 : Fin 2) = _
    rw [GatherDims.offCoord_eq_zero _ _ _ (fun h => ((GatherDims.mem_sKept _ _).mp h).1 (List.mem_singleton.mpr rfl))]
    unfold GatherDims.start
    rw [dif_pos h1]
    have hsi : (colTakeDims R N C wf).siIdx (ix2 b s) ⟨List.idxOf (1 : Fin 2) (colTakeDims R N C wf).startIndexMap,
        List.idxOf_lt_length_iff.2 h1⟩ = ix2 s ⟨0, Nat.one_pos⟩ := by
      funext c; refine Fin.ext ?_
      match c with
      | ⟨0, _⟩ => rfl
      | ⟨1, _⟩ => rfl
    rw [hsi]
    rfl

end ColTake

/-! ## One-bit reductions by `and` and by `or`, read back both ways -/

section Reduce1
variable {s t u : Shape} {axes : List (Fin s.rank)}

theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_one f l _ ?_ (fun n hn => hl n (List.mem_cons_of_mem _ hn))
    rw [h, hl a (List.mem_cons_self ..)]; decide

theorem foldl_ori_eq_one {ι : Type} (f : ι → BitVec 1) :
    ∀ (l : List ι) (init : BitVec 1),
      l.foldl (fun r n => IntOp.ori r (f n)) init = 1#1 ↔ init = 1#1 ∨ ∃ n ∈ l, f n = 1#1
  | [], init => by simp
  | a :: l, init => by
    rw [List.foldl_cons, foldl_ori_eq_one f l, IntOp.ori_eq_one]
    constructor
    · rintro ((h | h) | ⟨n, hn, h⟩)
      · exact .inl h
      · exact .inr ⟨a, List.mem_cons_self .., h⟩
      · exact .inr ⟨n, List.mem_cons_of_mem _ hn, h⟩
    · rintro (h | ⟨n, hn, h⟩)
      · exact .inl (.inl h)
      · rcases List.mem_cons.mp hn with rfl | hn
        · exact .inl (.inr h)
        · exact .inr ⟨n, hn, h⟩

theorem mem_dropList (h : s.ReducesTo axes t) (j : t.Idx) (i : s.Idx) :
    i ∈ (((List.finRange s.numel).map s.rowMajor.symm).filter fun i => h.drop i = j) ↔ h.drop i = j := by
  rw [List.mem_filter]
  constructor
  · rintro ⟨_, hi⟩; simpa using hi
  · intro hi
    exact ⟨List.mem_map.2 ⟨s.rowMajor i, List.mem_finRange _, Equiv.symm_apply_apply _ _⟩, by simp [hi]⟩

/-- A reduce by `and` from 1 is 1 where every operand element reducing into the index is 1. -/
theorem reduce_andi_one (x : s.Idx → BitVec 1) (init : u.Idx → BitVec 1) (h : s.ReducesTo axes t) (hu : 0 < u.numel)
    (j : t.Idx) (h0 : init (Shape.Idx.first hu) = 1#1) (hx : ∀ i, h.drop i = j → x i = 1#1) :
    Host.reduce IntOp.andi x init h hu j = 1#1 := by
  rw [Host.reduce_eq_foldl]
  exact foldl_andi_one x _ _ h0 (fun i hi => hx i ((mem_dropList h j i).mp hi))

/-- A reduce by `or` from 0 is 1 exactly where some operand element reducing into the index is 1. -/
theorem reduce_ori_eq_one (x : s.Idx → BitVec 1) (init : u.Idx → BitVec 1) (h : s.ReducesTo axes t) (hu : 0 < u.numel)
    (j : t.Idx) (h0 : init (Shape.Idx.first hu) = 0#1) :
    Host.reduce IntOp.ori x init h hu j = 1#1 ↔ ∃ i, h.drop i = j ∧ x i = 1#1 := by
  rw [Host.reduce_eq_foldl, foldl_ori_eq_one, h0]
  constructor
  · rintro (h | ⟨i, hi, hx⟩)
    · exact absurd h (by decide)
    · exact ⟨i, (mem_dropList h j i).mp hi, hx⟩
  · rintro ⟨i, hi, hx⟩
    exact .inr ⟨i, (mem_dropList h j i).mpr hi, hx⟩

end Reduce1

/-! ## The take of 100 columns of a [512, N] array, as the two programs print it -/

abbrev T_ : Shape := ⟨0, ![]⟩
abbrev T1 : Shape := ⟨1, ![1]⟩
abbrev T1x1 : Shape := ⟨2, ![1, 1]⟩
abbrev T100 : Shape := ⟨1, ![100]⟩
abbrev T100x1 : Shape := ⟨2, ![100, 1]⟩
abbrev T512x100 : Shape := ⟨2, ![512, 100]⟩
abbrev TOp (N : Nat) : Shape := ⟨2, ![512, N]⟩

/-- The side conditions the printed take cites, at an operand of N columns. -/
structure Facts (N : Nat) : Prop where
  h_ : 0 < T_.numel
  b_100 : T_.BroadcastsInDim T100 (![] : Fin 0 → Fin T100.rank)
  b100_100x1 : T100.BroadcastsInDim T100x1 (![0] : Fin 1 → Fin T100x1.rank)
  b_100x1 : T_.BroadcastsInDim T100x1 (![] : Fin 0 → Fin T100x1.rank)
  b1_1x1 : T1.BroadcastsInDim T1x1 (![1] : Fin 1 → Fin T1x1.rank)
  b1x1_100x1 : T1x1.BroadcastsInDim T100x1 (![0, 1] : Fin 2 → Fin T100x1.rank)
  red : T100x1.ReducesTo [1] T100
  b100_512x100 : T100.BroadcastsInDim T512x100 (![1] : Fin 1 → Fin T512x100.rank)
  b_512x100 : T_.BroadcastsInDim T512x100 (![] : Fin 0 → Fin T512x100.rank)
  wf : GatherDims.WF (TOp N) T100x1 T512x100 [0] [1] [] [1] [] 1 ![512, 1]

variable {F : FTy → Type} [FloatOps F] {N M : Nat}

/-- The start indices: a negative index wrapped once by N, as a [100, 1] table. -/
def startIdx (hf : Facts N) (i : IVec T100 32) : IVec T100x1 32 :=
  broadcastInDim T100x1 ![0] hf.b100_100x1
    (select (cmpi .slt i (broadcastInDim T100 ![] hf.b_100 (constantI T_ 32 0#32)))
      (addi i (broadcastInDim T100 ![] hf.b_100 (constantI T_ 32 (BitVec.ofNat 32 N)))) i)

/-- Whether each wrapped index is inside 0 … M. -/
def inside (hf : Facts N) (M : Nat) (i : IVec T100 32) : IVec T100 1 :=
  Host.reduce IntOp.andi
    (andi (cmpi .sge (startIdx hf i) (broadcastInDim T100x1 ![] hf.b_100x1 (constantI T_ 32 0#32)))
      (cmpi .sle (startIdx hf i)
        (broadcastInDim T100x1 ![0, 1] hf.b1x1_100x1
          (broadcastInDim T1x1 ![1] hf.b1_1x1 (constantI T1 32 (BitVec.ofNat 32 M))))))
    (constantI T_ 1 1#1) hf.red hf.h_

/-- The take: the gather where the index is inside, the NaN pattern elsewhere. -/
def take (hf : Facts N) (M : Nat) (a : FVec F (TOp N) .f32) (i : IVec T100 32) : FVec F T512x100 .f32 :=
  select (broadcastInDim T512x100 ![1] hf.b100_512x100 (inside hf M i))
    (Host.gather (colTakeDims 512 N 100 hf.wf) a (startIdx hf i))
    (broadcastInDim T512x100 ![] hf.b_512x100 (constant T_ .f32 0x7FC00000#32))

/-- A start index of a nonnegative word is the word. -/
theorem startIdx_apply (hf : Facts N) (i : IVec T100 32) (s : Fin 100) (h0 : 0 ≤ (i (ix1 s)).toInt) :
    startIdx hf i (ix2 s ⟨0, Nat.one_pos⟩) = i (ix1 s) := by
  unfold startIdx
  rw [broadcastInDim_apply _ _ _ _ (ix1 s) (fun a => by
    obtain rfl : a = 0 := Subsingleton.elim _ _
    rfl)]
  rw [select_apply]
  have hc : cmpi .slt i (broadcastInDim T100 ![] hf.b_100 (constantI T_ 32 0#32)) (ix1 s) = 0#1 := by
    apply eq_zero_of_ne_one
    show ¬ IntOp.cmpi .slt (i (ix1 s)) _ = 1#1
    rw [IntOp.cmpi_slt, broadcastInDim_scalar_apply, constantI_apply]
    have : (0#32 : BitVec 32).toInt = 0 := by decide
    omega
  rw [hc, select_zero]

/-- Dropping the unit axis of a [100, 1] index keeps the row. -/
theorem drop_100x1 (h : T100x1.ReducesTo [1] T100) (i : T100x1.Idx) (s : Fin 100) (hi : h.drop i = ix1 s) :
    i = ix2 s ⟨0, Nat.one_pos⟩ := by
  have e := congrArg (fun j : T100.Idx => (j 0).val) hi
  simp only at e
  rw [Shape.ReducesTo.drop_apply_val_of_eq h i 0 0] at e
  rw [eq_ix2 i]
  have h1 : i 1 = ⟨0, Nat.one_pos⟩ := Fin.ext (by
    have := show (i 1).val < 1 from (i 1).isLt
    show (i 1).val = 0
    omega)
  rw [h1, show i 0 = s from Fin.ext e]
  rfl

/-- An index inside 0 … M passes the test. -/
theorem inside_apply (hf : Facts N) (i : IVec T100 32) (s : Fin 100) (h0 : 0 ≤ (i (ix1 s)).toInt)
    (hM : (i (ix1 s)).toInt ≤ (M : Int)) (hM31 : M < 2 ^ 31) :
    inside hf M i (ix1 s) = 1#1 := by
  unfold inside
  refine reduce_andi_one _ _ _ _ _ rfl (fun j hj => ?_)
  rw [drop_100x1 hf.red j s hj]
  show IntOp.andi (IntOp.cmpi .sge (startIdx hf i (ix2 s ⟨0, Nat.one_pos⟩)) _)
    (IntOp.cmpi .sle (startIdx hf i (ix2 s ⟨0, Nat.one_pos⟩)) _) = 1#1
  rw [startIdx_apply hf i s h0]
  have h1 : IntOp.cmpi .sge (i (ix1 s))
      (broadcastInDim T100x1 ![] hf.b_100x1 (constantI T_ 32 0#32) (ix2 s ⟨0, Nat.one_pos⟩)) = 1#1 := by
    rw [IntOp.cmpi_sge, broadcastInDim_scalar_apply, constantI_apply]
    have : (0#32 : BitVec 32).toInt = 0 := by decide
    omega
  have h2 : IntOp.cmpi .sle (i (ix1 s))
      (broadcastInDim T100x1 ![0, 1] hf.b1x1_100x1
        (broadcastInDim T1x1 ![1] hf.b1_1x1 (constantI T1 32 (BitVec.ofNat 32 M))) (ix2 s ⟨0, Nat.one_pos⟩)) = 1#1 := by
    rw [IntOp.cmpi_sle]
    rw [broadcastInDim_apply _ _ _ _ (ix2 (0 : Fin 1) (0 : Fin 1)) (fun a => by
      match a with
      | ⟨0, _⟩ => rfl
      | ⟨1, _⟩ => rfl)]
    rw [broadcastInDim_apply _ _ _ _ (ix1 (0 : Fin 1)) (fun a => by
      obtain rfl : a = 0 := Subsingleton.elim _ _
      rfl)]
    rw [constantI_apply, WordArith.toInt_ofNat_small _ hM31]
    exact hM
  rw [h1, h2]; decide

/-- THE TAKE AT (b, s), the index inside: the operand at column i[s]. -/
theorem take_apply (hf : Facts N) (a : FVec F (TOp N) .f32) (i : IVec T100 32) (b : Fin 512) (s : Fin 100)
    (h0 : 0 ≤ (i (ix1 s)).toInt) (hN : (i (ix1 s)).toInt < (N : Int)) (hMN : M + 1 = N) (hM31 : M < 2 ^ 31) :
    take hf M a i (ix2 b s) = a (ix2 b ⟨(i (ix1 s)).toInt.toNat, by omega⟩) := by
  unfold take
  rw [select_apply]
  rw [broadcastInDim_apply _ _ _ _ (ix1 s) (fun c => by
    obtain rfl : c = 0 := Subsingleton.elim _ _
    rfl)]
  rw [inside_apply hf i s h0 (by omega) hM31, select_one]
  rw [gather_colTake_apply (by omega) hf.wf]
  refine congrArg (fun k => a (ix2 b k)) (Fin.ext ?_)
  show min (startIdx hf i (ix2 s ⟨0, Nat.one_pos⟩)).toInt.toNat (N - 1) = (i (ix1 s)).toInt.toNat
  rw [startIdx_apply hf i s h0]
  omega

end Cert.Take3

namespace Cert.Term3
open Idealize.ShloMosaic Idealize.ShloMosaic.ValueIdx Cert.Take3

/-! ## The kernel's side -/

section Kernel
open Cert.KernelIdeal Cert.KernelIdeal.Gen

theorem kFacts : Facts 100000 :=
  ⟨h_S_, bcast_S_S100, bcast_S100_S100x1_0, bcast_S_S100x1, bcast_S1_S1x1_1, bcast_S1x1_S100x1_0_1,
    reducesTo_S100x1_S100_d1, bcast_S100_S512x100_1, bcast_S_S512x100,
    gather_S512x100000_S100x1_S512x100_0_1_n_n_1_1_5121_wf⟩

variable {F : FTy → Type} [FloatOps F]

theorem tailRaw_eq_take (x : FVec F S512x100000 .f32) (sp : IVec S100 32) :
    Cert.KernelIdeal.Terms.tailRaw x sp = take kFacts 99999 x (Cert.KernelIdeal.Terms.idxFull sp) := rfl

/-- The full column index 2000 + sp[s], as an integer: the sum does not wrap. -/
theorem idxFull_toInt (sp : IVec S100 32) (s : Fin 100) (h0 : 0 ≤ (sp (ix1 s)).toInt) (h1 : (sp (ix1 s)).toInt < 98000) :
    (Cert.KernelIdeal.Terms.idxFull sp (ix1 s)).toInt = 2000 + (sp (ix1 s)).toInt := by
  unfold Cert.KernelIdeal.Terms.idxFull
  show (IntOp.addi (broadcastInDim S100 ![] bcast_S_S100 (constantI S_ 32 2000#32) (ix1 s)) (sp (ix1 s))).toInt = _
  rw [broadcastInDim_scalar_apply, constantI_apply]
  have h2 : (2000#32 : BitVec 32).toInt = 2000 := by decide
  show (2000#32 + sp (ix1 s)).toInt = _
  rw [WordArith.toInt_add_of_bounds _ _ (by rw [h2]; omega) (by rw [h2]; omega), h2]

/-- The kernel's clipped tail sample at (b, s): the clip of the logit at column 2000 + sp[s]. -/
theorem ktail_apply (x : FVec Ideal S512x100000 .f32) (sp : IVec S100 32) (b : Fin 512) (s : Fin 100)
    (h0 : 0 ≤ (sp (ix1 s)).toInt) (h1 : (sp (ix1 s)).toInt < 98000) :
    Cert.KernelIdeal.Terms.tail x sp (ix2 b s)
      = min (Ideal.ofBits .f32 0x41A00000#32) (max (Ideal.ofBits .f32 0xC1A00000#32)
          (x (ix2 b ⟨2000 + (sp (ix1 s)).toInt.toNat, by omega⟩))) := by
  have hi := idxFull_toInt sp s h0 h1
  unfold Cert.KernelIdeal.Terms.tail Cert.KernelIdeal.Terms.clip512x100
  rw [minimumf_apply, maximumf_apply, broadcastInDim_scalar_apply, broadcastInDim_scalar_apply,
    tailRaw_eq_take, take_apply kFacts x _ b s (by omega) (by omega) (by norm_num) (by norm_num)]
  show min (Ideal.ofBits .f32 0x41A00000#32) (max (Ideal.ofBits .f32 0xC1A00000#32) _) = _
  refine congrArg (fun k => min (Ideal.ofBits .f32 0x41A00000#32) (max (Ideal.ofBits .f32 0xC1A00000#32) (x (ix2 b k))))
    (Fin.ext ?_)
  show (Cert.KernelIdeal.Terms.idxFull sp (ix1 s)).toInt.toNat = 2000 + (sp (ix1 s)).toInt.toNat
  omega

end Kernel

/-! ## The reference's side -/

section Reference
open Cert.ReferenceIdeal Cert.ReferenceIdeal.Gen

theorem rFacts : Facts 98000 :=
  ⟨h_S_, bcast_S_S100, bcast_S100_S100x1_0, bcast_S_S100x1, bcast_S1_S1x1_1, bcast_S1x1_S100x1_0_1,
    reducesTo_S100x1_S100_d1, bcast_S100_S512x100_1, bcast_S_S512x100,
    gather_S512x98000_S100x1_S512x100_0_1_n_n_1_1_5121_wf⟩

variable {F : FTy → Type} [FloatOps F]

theorem takeAt_eq_take (a : FVec F S512x98000 .f32) (sp : IVec S100 32) :
    Cert.ReferenceIdeal.Terms.takeAt a sp = take rFacts 97999 a sp := rfl

/-- The reference's take of a slice [0:512, 2000:100000] at (b, s): the sliced array at column 2000 + sp[s]. -/
theorem takeAt_slice_apply (y : FVec F S512x100000 .f32) (sp : IVec S100 32) (b : Fin 512) (s : Fin 100)
    (h0 : 0 ≤ (sp (ix1 s)).toInt) (h1 : (sp (ix1 s)).toInt < 98000) :
    Cert.ReferenceIdeal.Terms.takeAt
        (extractStridedSlice S512x98000 ![0, 2000] y slices_S512x100000_S512x98000_0_2000) sp (ix2 b s)
      = y (ix2 b ⟨2000 + (sp (ix1 s)).toInt.toNat, by omega⟩) := by
  rw [takeAt_eq_take, take_apply rFacts _ sp b s h0 (by omega) (by norm_num) (by norm_num)]
  exact slice2_axis1_eq 2000 y slices_S512x100000_S512x98000_0_2000 b _

/-- The reference's clipped tail sample at (b, s). -/
theorem rtail_apply (x : FVec Ideal S512x100000 .f32) (sp : IVec S100 32) (b : Fin 512) (s : Fin 100)
    (h0 : 0 ≤ (sp (ix1 s)).toInt) (h1 : (sp (ix1 s)).toInt < 98000) :
    Cert.ReferenceIdeal.Terms.tail x sp (ix2 b s)
      = min (Ideal.ofBits .f32 0x41A00000#32) (max (Ideal.ofBits .f32 0xC1A00000#32)
          (x (ix2 b ⟨2000 + (sp (ix1 s)).toInt.toNat, by omega⟩))) := by
  unfold Cert.ReferenceIdeal.Terms.tail
  rw [takeAt_slice_apply _ sp b s h0 h1]
  unfold Cert.ReferenceIdeal.Terms.clipped
  rw [minimumf_apply, maximumf_apply, broadcastInDim_scalar_apply, broadcastInDim_scalar_apply]
  rfl

end Reference

/-- TERM 3's sample: the two programs read the same clipped logits. -/
theorem tail_eq (x : FVec Ideal Cert.KernelIdeal.S512x100000 .f32) (sp : IVec Cert.KernelIdeal.S100 32)
    (hS : ∀ s : Cert.KernelIdeal.S100.Idx, 0 ≤ (sp s).toInt ∧ (sp s).toInt < 98000) :
    Cert.KernelIdeal.Terms.tail (F := Ideal) x sp = Cert.ReferenceIdeal.Terms.tail (F := Ideal) x sp := by
  funext j
  obtain ⟨b, s, rfl⟩ : ∃ (b : Fin 512) (s : Fin 100), j = ix2 b s := ⟨j 0, j 1, eq_ix2 j⟩
  have h := hS (ix1 s)
  rw [ktail_apply x sp b s h.1 h.2, rtail_apply x sp b s h.1 h.2]

/-! ## Whether a sampled column is a candidate's -/

/-- Two one-bit words that are 1 together are equal. -/
theorem bit_ext {a b : BitVec 1} (h : a = 1#1 ↔ b = 1#1) : a = b := by
  by_cases ha : a = 1#1
  · rw [ha, h.mp ha]
  · rw [eq_zero_of_ne_one ha, eq_zero_of_ne_one (fun hb => ha (h.mpr hb))]

section KernelCand
open Cert.KernelIdeal Cert.KernelIdeal.Gen

/-- Dropping the middle axis of a [512, 10, 100] index. -/
theorem drop_ix3 (h : S512x10x100.ReducesTo [1] S512x100) (b : Fin 512) (k : Fin 10) (s : Fin 100) :
    h.drop (ix3 b k s) = ix2 b s := by
  funext c
  refine Fin.ext ?_
  match c with
  | ⟨0, _⟩ => exact Shape.ReducesTo.drop_apply_val_of_eq h _ 0 0
  | ⟨1, _⟩ => exact Shape.ReducesTo.drop_apply_val_of_eq h _ 1 2

theorem eq_of_drop (h : S512x10x100.ReducesTo [1] S512x100) (i : S512x10x100.Idx) (b : Fin 512) (s : Fin 100)
    (hi : h.drop i = ix2 b s) : i = ix3 b (i 1) s := by
  have e0 := congrArg (fun j : S512x100.Idx => (j 0).val) hi
  have e1 := congrArg (fun j : S512x100.Idx => (j 1).val) hi
  simp only at e0 e1
  rw [Shape.ReducesTo.drop_apply_val_of_eq h i 0 0] at e0
  rw [Shape.ReducesTo.drop_apply_val_of_eq h i 1 2] at e1
  have h0 : i 0 = b := Fin.ext e0
  have h2 : i 2 = s := Fin.ext e1
  exact (eq_ix3 i).trans (by rw [h0, h2]; rfl)

/-- A [512, 10] array spread along the samples, read at (b, k, s). -/
theorem bc_rows {α : Type} (v : S512x10.Idx → α) (b : Fin 512) (k : Fin 10) (s : Fin 100) :
    broadcastInDim S512x10x100 ![0, 1, 2] bcast_S512x10x1_S512x10x100_0_1_2
      (broadcastInDim S512x10x1 ![0, 1] bcast_S512x10_S512x10x1_0_1 v) (ix3 b k s) = v (ix2 b k) := by
  rw [broadcastInDim_apply _ _ _ _ (ix3 b k (0 : Fin 1)) (fun a => by
    match a with
    | ⟨0, _⟩ => rfl
    | ⟨1, _⟩ => rfl
    | ⟨2, _⟩ => rfl)]
  rw [broadcastInDim_apply _ _ _ _ (ix2 b k) (fun a => by
    match a with
    | ⟨0, _⟩ => rfl
    | ⟨1, _⟩ => rfl)]

/-- A [100] array spread along the rows and the candidates, read at (b, k, s). -/
theorem bc_cols {α : Type} (v : S100.Idx → α) (b : Fin 512) (k : Fin 10) (s : Fin 100) :
    broadcastInDim S512x10x100 ![0, 1, 2] bcast_S1x1x100_S512x10x100_0_1_2
      (broadcastInDim S1x1x100 ![2] bcast_S100_S1x1x100_2 v) (ix3 b k s) = v (ix1 s) := by
  rw [broadcastInDim_apply _ _ _ _ (ix3 (0 : Fin 1) (0 : Fin 1) s) (fun a => by
    match a with
    | ⟨0, _⟩ => rfl
    | ⟨1, _⟩ => rfl
    | ⟨2, _⟩ => rfl)]
  rw [broadcastInDim_apply _ _ _ _ (ix1 s) (fun a => by
    obtain rfl : a = 0 := Subsingleton.elim _ _
    rfl)]

theorem kvalid_iff (cd : IVec S512x10 32) (b : Fin 512) (k : Fin 10) :
    Cert.KernelIdeal.Terms.valid cd (ix2 b k) = 1#1 ↔ 0 ≤ (cd (ix2 b k)).toInt := by
  unfold Cert.KernelIdeal.Terms.valid
  show IntOp.cmpi .sge (cd (ix2 b k)) _ = 1#1 ↔ _
  rw [IntOp.cmpi_sge, broadcastInDim_scalar_apply, constantI_apply]
  have : (0#32 : BitVec 32).toInt = 0 := by decide
  rw [this]

/-- The kernel's flag at (b, s): some present candidate of row b is column 2000 + sp[s]. -/
theorem kisCand_iff (cd : IVec S512x10 32) (sp : IVec S100 32) (b : Fin 512) (s : Fin 100)
    (h0 : 0 ≤ (sp (ix1 s)).toInt) (h1 : (sp (ix1 s)).toInt < 98000) :
    Cert.KernelIdeal.Terms.isCand cd sp (ix2 b s) = 1#1 ↔
      ∃ k : Fin 10, 0 ≤ (cd (ix2 b k)).toInt ∧ (cd (ix2 b k)).toInt = 2000 + (sp (ix1 s)).toInt := by
  have key : ∀ k : Fin 10,
      (andi
        (cmpi .eq
          (broadcastInDim S512x10x100 ![0, 1, 2] bcast_S512x10x1_S512x10x100_0_1_2
            (broadcastInDim S512x10x1 ![0, 1] bcast_S512x10_S512x10x1_0_1 cd))
          (broadcastInDim S512x10x100 ![0, 1, 2] bcast_S1x1x100_S512x10x100_0_1_2
            (broadcastInDim S1x1x100 ![2] bcast_S100_S1x1x100_2 (Cert.KernelIdeal.Terms.idxFull sp))))
        (broadcastInDim S512x10x100 ![0, 1, 2] bcast_S512x10x1_S512x10x100_0_1_2
          (broadcastInDim S512x10x1 ![0, 1] bcast_S512x10_S512x10x1_0_1 (Cert.KernelIdeal.Terms.valid cd))))
        (ix3 b k s) = 1#1 ↔
      (0 ≤ (cd (ix2 b k)).toInt ∧ (cd (ix2 b k)).toInt = 2000 + (sp (ix1 s)).toInt) := by
    intro k
    show IntOp.andi (IntOp.cmpi .eq _ _) _ = 1#1 ↔ _
    rw [IntOp.andi_eq_one, IntOp.cmpi_eq, bc_rows, bc_cols, bc_rows, kvalid_iff, ← BitVec.toInt_inj,
      idxFull_toInt sp s h0 h1]
    exact and_comm
  unfold Cert.KernelIdeal.Terms.isCand
  rw [reduce_ori_eq_one _ _ _ _ _ rfl]
  constructor
  · rintro ⟨i, hi, hx⟩
    rw [eq_of_drop _ i b s hi] at hx
    exact ⟨i 1, (key (i 1)).mp hx⟩
  · rintro ⟨k, hk⟩
    exact ⟨ix3 b k s, drop_ix3 _ b k s, (key k).mpr hk⟩

end KernelCand

section ReferenceCand
open Cert.ReferenceIdeal Cert.ReferenceIdeal.Gen

/-- The reference's flag at (b, s), from the mask read at an index: the mask at column 2000 + sp[s] is positive. -/
theorem risCand_iff (cd : IVec S512x10 32) (sp : IVec S100 32) (b : Fin 512) (s : Fin 100)
    (h0 : 0 ≤ (sp (ix1 s)).toInt) (h1 : (sp (ix1 s)).toInt < 98000)
    (hY : ∀ (b : Fin 512) (j : Fin 100000), Cert.ReferenceIdeal.Terms.yMask (F := Ideal) cd (ix2 b j)
      = if ∃ k : Fin 10, 0 ≤ (cd (ix2 b k)).toInt ∧ (cd (ix2 b k)).toInt = (j : ℤ) then 1 else 0) :
    Cert.ReferenceIdeal.Terms.isCand (F := Ideal) cd sp (ix2 b s) = 1#1 ↔
      ∃ k : Fin 10, 0 ≤ (cd (ix2 b k)).toInt ∧ (cd (ix2 b k)).toInt = 2000 + (sp (ix1 s)).toInt := by
  unfold Cert.ReferenceIdeal.Terms.isCand Cert.ReferenceIdeal.Terms.maskTail
  have hz : Cert.ReferenceIdeal.Terms.zerosF (F := Ideal) S512x100 bcast_S_S512x100 (ix2 b s) = 0 := by
    show broadcastInDim S512x100 ![] bcast_S_S512x100 (constant (F := Ideal) S_ .f32 0x00000000#32) (ix2 b s) = 0
    rw [broadcastInDim_scalar_apply, constant_apply, Ideal.ofBits_zero_f32]
  rw [cmpf_apply, takeAt_slice_apply _ sp b s h0 h1, hY, hz]
  have hcast : ∀ z : ℤ, z = ((2000 + (sp (ix1 s)).toInt.toNat : ℕ) : ℤ) ↔ z = 2000 + (sp (ix1 s)).toInt := by
    intro z; omega
  show Ideal.cmp .ogt _ 0 = 1#1 ↔ _
  by_cases hP : ∃ k : Fin 10, 0 ≤ (cd (ix2 b k)).toInt ∧ (cd (ix2 b k)).toInt = 2000 + (sp (ix1 s)).toInt
  · have hP' : ∃ k : Fin 10, 0 ≤ (cd (ix2 b k)).toInt ∧
        (cd (ix2 b k)).toInt = ((⟨2000 + (sp (ix1 s)).toInt.toNat, by omega⟩ : Fin 100000) : ℤ) := by
      obtain ⟨k, hk0, hk⟩ := hP
      exact ⟨k, hk0, (hcast _).mpr hk⟩
    rw [if_pos hP']
    simp [Ideal.cmp, hP]
  · have hP' : ¬ ∃ k : Fin 10, 0 ≤ (cd (ix2 b k)).toInt ∧
        (cd (ix2 b k)).toInt = ((⟨2000 + (sp (ix1 s)).toInt.toNat, by omega⟩ : Fin 100000) : ℤ) := by
      rintro ⟨k, hk0, hk⟩
      exact hP ⟨k, hk0, (hcast _).mp hk⟩
    rw [if_neg hP']
    simp [Ideal.cmp, hP]

end ReferenceCand

/-- TERM 3's flags agree, given the reference's mask read at an index. -/
theorem isCand_eq_of (cd : IVec Cert.KernelIdeal.S512x10 32) (sp : IVec Cert.KernelIdeal.S100 32)
    (hS : ∀ s : Cert.KernelIdeal.S100.Idx, 0 ≤ (sp s).toInt ∧ (sp s).toInt < 98000)
    (hY : ∀ (b : Fin 512) (j : Fin 100000), Cert.ReferenceIdeal.Terms.yMask (F := Ideal) cd (ix2 b j)
      = if ∃ k : Fin 10, 0 ≤ (cd (ix2 b k)).toInt ∧ (cd (ix2 b k)).toInt = (j : ℤ) then 1 else 0) :
    Cert.KernelIdeal.Terms.isCand cd sp = Cert.ReferenceIdeal.Terms.isCand (F := Ideal) cd sp := by
  funext j
  obtain ⟨b, s, rfl⟩ : ∃ (b : Fin 512) (s : Fin 100), j = ix2 b s := ⟨j 0, j 1, eq_ix2 j⟩
  have h := hS (ix1 s)
  exact bit_ext ((kisCand_iff cd sp b s h.1 h.2).trans (risCand_iff cd sp b s h.1 h.2 hY).symm)

/-- TERM 3's flags agree. -/
theorem isCand_eq (cd : IVec Cert.KernelIdeal.S512x10 32) (sp : IVec Cert.KernelIdeal.S100 32)
    (hS : ∀ s : Cert.KernelIdeal.S100.Idx, 0 ≤ (sp s).toInt ∧ (sp s).toInt < 98000) :
    Cert.KernelIdeal.Terms.isCand cd sp = Cert.ReferenceIdeal.Terms.isCand (F := Ideal) cd sp :=
  isCand_eq_of cd sp hS (Cert.ReferenceIdeal.YMask.yMask_apply cd)

end Cert.Term3

end
-- ==== Proof.Wrappers.lean ====
/-
  The two programs apply the same operations on top of the joined quantities: term 1 from the cardinality and the
  masked sum (maximum with 1, divide, negate, softplus), term 3 from the gathered tail and the membership mask
  (softplus, times the negated mask, row sums, times 980), and the result from the three terms (add, add, sum over
  the 512 rows, divide by 512). Operation by operation the two printed compositions are the same term: the shapes
  are the same literals, and the side conditions are proofs of the same propositions.
-/
import proofs.«406286_j15479062135299_3_alg».proof.Proof.KTerms
import proofs.«406286_j15479062135299_3_alg».proof.Proof.RTerms
import Idealize.ShloMosaic.PureOps.Ideal

noncomputable section

namespace Cert.Wrappers

open Idealize.ShloMosaic

variable {F : FTy → Type} [FloatOps F]

/-- Term 1, softplus (-(sum / max card 1)), is the same function of (card, sum) in the two programs. -/
theorem t1of_eqF (a b : FVec F Cert.KernelIdeal.S512 .f32) :
    Cert.KernelIdeal.Terms.t1of (F := F) a b = Cert.ReferenceIdeal.Terms.t1of (F := F) a b := rfl

/-- Term 3, (Σ_s softplus tail · (1 - mask)) · 980, is the same function of (tail, mask) in the two programs. -/
theorem t3of_eqF (t : FVec F Cert.KernelIdeal.S512x100 .f32) (ic : IVec Cert.KernelIdeal.S512x100 1) :
    Cert.KernelIdeal.Terms.t3of (F := F) t ic = Cert.ReferenceIdeal.Terms.t3of (F := F) t ic := rfl

/-- The result, (Σ_b (t1 + t2) + t3) / 512, is the same function of the three terms in the two programs. -/
theorem resOf_eqF (t1 t2 t3 : FVec F Cert.KernelIdeal.S512 .f32) :
    Cert.KernelIdeal.Terms.resOf (F := F) t1 t2 t3 = Cert.ReferenceIdeal.Terms.resOf (F := F) t1 t2 t3 := rfl

/-! ## At the ideal instance -/

theorem t1of_eq (a b : FVec Ideal Cert.KernelIdeal.S512 .f32) :
    Cert.KernelIdeal.Terms.t1of (F := Ideal) a b = Cert.ReferenceIdeal.Terms.t1of (F := Ideal) a b := rfl

theorem t3of_eq (t : FVec Ideal Cert.KernelIdeal.S512x100 .f32) (ic : IVec Cert.KernelIdeal.S512x100 1) :
    Cert.KernelIdeal.Terms.t3of (F := Ideal) t ic = Cert.ReferenceIdeal.Terms.t3of (F := Ideal) t ic := rfl

theorem resOf_eq (t1 t2 t3 : FVec Ideal Cert.KernelIdeal.S512 .f32) :
    Cert.KernelIdeal.Terms.resOf (F := Ideal) t1 t2 t3 = Cert.ReferenceIdeal.Terms.resOf (F := Ideal) t1 t2 t3 := rfl

end Cert.Wrappers

end
-- ==== Proof.lean ====
/-
  The certificate's five claims assembled.

  The kernel computes a three-term loss per row and averages it over the 512 rows:
  term 1, softplus of minus the mean of the clipped logits over the row's DISTINCT valid candidate columns
  (the kernel marks the first occurrence of each valid candidate; the reference scatters ones into a
  512 x 100000 mask and binarises it); term 2, the sum over the first 2000 columns of softplus(clip x) on the
  columns that are no candidate (one pallas_call over 256-row blocks of the lane-aligned 2048-column head,
  columns 2000..2047 masked out); term 3, 980 times the sum over 100 sampled tail columns of softplus(clip x)
  on the samples that are no candidate. On inputs whose candidate entries are below 100000 and whose sampled
  indices lie in [0, 98000) the two programs compute the same extended real:
    * the number of first occurrences is the number of marked columns, and the sum of g(candidate) over first
      occurrences is the sum of g(column) over marked columns (a bijection between the two index sets);
    * a column below 2000 is masked in the kernel's block iff it is marked in the reference's mask;
    * column 2000 + s of the whole array is column s of the tail slice, and clipping commutes with reading;
    * the remaining host operations (maximum with one, quotient, softplus, the scaling by 980, the mean) are the
      same operations on both sides.
  The frames: the kernel's program is host operations, one region, host operations; its region's launch and the
  host stretches around it run without a fault and leave the argument arrays alone (at any float instance); the
  reference is a straight line of host operations.
-/
import proofs.«406286_j15479062135299_3_alg».proof.Defs
import proofs.«406286_j15479062135299_3_alg».proof.Proof.Gen.Kernel
import proofs.«406286_j15479062135299_3_alg».proof.Proof.Gen.KernelIdeal
import proofs.«406286_j15479062135299_3_alg».proof.Proof.Gen.ReferenceIdeal
import proofs.«406286_j15479062135299_3_alg».proof.Proof.Gen.Pre_finite_inputs
import proofs.«406286_j15479062135299_3_alg».proof.Proof.KFrame
import proofs.«406286_j15479062135299_3_alg».proof.Proof.KIFrame
import proofs.«406286_j15479062135299_3_alg».proof.Proof.KHead
import proofs.«406286_j15479062135299_3_alg».proof.Proof.KResult
import proofs.«406286_j15479062135299_3_alg».proof.Proof.KRegion
import proofs.«406286_j15479062135299_3_alg».proof.Proof.RefRun
import proofs.«406286_j15479062135299_3_alg».proof.Proof.PreDom
import proofs.«406286_j15479062135299_3_alg».proof.Proof.CardSum
import proofs.«406286_j15479062135299_3_alg».proof.Proof.Term2
import proofs.«406286_j15479062135299_3_alg».proof.Proof.Term3
import proofs.«406286_j15479062135299_3_alg».proof.Proof.Wrappers

noncomputable section

namespace Cert.Proof

open Idealize.ShloMosaic Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hC, hS⟩ := Cert.Pre_finite_inputs.Dom.dom_of_pre _ _ _ (hpre c)
  -- the reference's result, read at the kernel's argument arrays
  rw [(hagree c).1, (hagree c).2.1, (hagree c).2.2]
  -- the kernel's result: the host operations after the region, over the region's output array and the buffers the
  -- host operations before the region left
  rw [Cert.KernelIdeal.Hand.kernel_result, Cert.KernelIdeal.Hand.region_out, Cert.KernelIdeal.Hand.V_candMasked,
    Cert.KernelIdeal.Hand.V_main_arg0]
  -- the five joined quantities, then the operations both programs apply on top of them
  rw [Cert.Proof.CardSum.card_eq _ hC, Cert.Proof.CardSum.sumlm_eq _ _ hC, Cert.Proof.Term2.term2_eq,
    Cert.Term3.tail_eq _ _ hS, Cert.Term3.isCand_eq _ _ hS, Cert.Wrappers.t1of_eq,
    Cert.Wrappers.t3of_eq, Cert.Wrappers.resOf_eq]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
